-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S2x4000000 : Shape := ⟨2, ![2, 4000000]⟩
abbrev S1000000 : Shape := ⟨1, ![1000000]⟩
abbrev S64x16 : Shape := ⟨2, ![64, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x100 : S_.BroadcastsInDim S16x100 (![] : Fin 0 → Fin S16x100.rank)
  reducesTo_S16x100_S_d0_1 : S16x100.ReducesTo [0, 1] S_
  bcast_S_S100 : S_.BroadcastsInDim S100 (![] : Fin 0 → Fin S100.rank)
  reducesTo_S100_S_d0 : S100.ReducesTo [0] S_
  bcast_S_S100x27 : S_.BroadcastsInDim S100x27 (![] : Fin 0 → Fin S100x27.rank)
  reducesTo_S100x27_S_d0_1 : S100x27.ReducesTo [0, 1] S_
  bcast_S_S27 : S_.BroadcastsInDim S27 (![] : Fin 0 → Fin S27.rank)
  reducesTo_S27_S_d0 : S27.ReducesTo [0] S_

variable [Facts]

def fn_part2 {F : FTy → Type} [FloatOps F] (main_arg9 : FVec F S100x27 .f32) (main_arg10 : FVec F S27 .f32) (main_v33 : IVec S_ 1) : IVec S_ 1 :=
  let main_v34 : FVec F S100x27 .f32 := Host.absf main_arg9
  let main_cst_12 : FVec F S_ .f32 := constant S_ .f32 0x7F800000#32
  let main_v35 : FVec F S100x27 .f32 := broadcastInDim S100x27 ![] bcast_S_S100x27 main_cst_12
  let main_v36 : IVec S100x27 1 := cmpf .olt main_v34 main_v35
  let main_c_13 : IVec S_ 1 := constantI S_ 1 1#1
  let main_v37 : IVec S_ 1 := (fun x v => Host.reduce IntOp.andi x v reducesTo_S100x27_S_d0_1 h_S_) main_v36 main_c_13
  let main_v38 : IVec S_ 1 := andi main_v33 main_v37
  let main_v39 : FVec F S27 .f32 := Host.absf main_arg10
  let main_cst_14 : FVec F S_ .f32 := constant S_ .f32 0x7F800000#32
  let main_v40 : FVec F S27 .f32 := broadcastInDim S27 ![] bcast_S_S27 main_cst_14
  let main_v41 : IVec S27 1 := cmpf .olt main_v39 main_v40
  let main_c_15 : IVec S_ 1 := constantI S_ 1 1#1
  let main_v42 : IVec S_ 1 := (fun x v => Host.reduce IntOp.andi x v reducesTo_S27_S_d0 h_S_) main_v41 main_c_15
  let main_v43 : IVec S_ 1 := andi main_v38 main_v42
  main_v43

def fn_part1 {F : FTy → Type} [FloatOps F] (main_arg6 : FVec F S16 .f32) (main_arg7 : FVec F S16x100 .f32) (main_arg8 : FVec F S100 .f32) (main_arg9 : FVec F S100x27 .f32) (main_arg10 : FVec F S27 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg6
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x100 .f32 := Host.absf main_arg7
  let main_cst_8 : FVec F S_ .f32 := constant S_ .f32 0x7F800000#32
  let main_v25 : FVec F S16x100 .f32 := broadcastInDim S16x100 ![] bcast_S_S16x100 main_cst_8
  let main_v26 : IVec S16x100 1 := cmpf .olt main_v24 main_v25
  let main_c_9 : IVec S_ 1 := constantI S_ 1 1#1
  let main_v27 : IVec S_ 1 := (fun x v => Host.reduce IntOp.andi x v reducesTo_S16x100_S_d0_1 h_S_) main_v26 main_c_9
  let main_v28 : IVec S_ 1 := andi main_v23 main_v27
  let main_v29 : FVec F S100 .f32 := Host.absf main_arg8
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg9 main_arg10 main_v33

def fn {F : FTy → Type} [FloatOps F] (main_arg0 : FVec F S1000000x64 .f32) (main_arg1 : IVec S2x4000000 32) (main_arg2 : IVec S1000000 32) (main_arg3 : FVec F S64x16 .f32) (main_arg4 : FVec F S16 .f32) (main_arg5 : FVec F S16x16 .f32) (main_arg6 : FVec F S16 .f32) (main_arg7 : FVec F S16x100 .f32) (main_arg8 : FVec F S100 .f32) (main_arg9 : FVec F S100x27 .f32) (main_arg10 : FVec F S27 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg6 main_arg7 main_arg8 main_arg9 main_arg10 main_v13 main_v16
-- ==== Kernel.lean ====
abbrev S1000000x64 : Shape := ⟨2, ![1000000, 64]⟩
abbrev S2x4000000 : Shape := ⟨2, ![2, 4000000]⟩
abbrev S1000000 : Shape := ⟨1, ![1000000]⟩
abbrev S64x16 : Shape := ⟨2, ![64, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S1x4000000 : Shape := ⟨2, ![1, 4000000]⟩
abbrev S4000000 : Shape := ⟨1, ![4000000]⟩
abbrev S5000000 : Shape := ⟨1, ![5000000]⟩
abbrev S_ : Shape := ⟨0, ![]⟩
abbrev S5000000x1 : Shape := ⟨2, ![5000000, 1]⟩
abbrev S1000000x1 : Shape := ⟨2, ![1000000, 1]⟩
abbrev S1000000x16 : Shape := ⟨2, ![1000000, 16]⟩
abbrev S8000x64 : Shape := ⟨2, ![8000, 64]⟩
abbrev S8000x1 : Shape := ⟨2, ![8000, 1]⟩
abbrev S8000x16 : Shape := ⟨2, ![8000, 16]⟩
abbrev S5000000x16 : Shape := ⟨2, ![5000000, 16]⟩
abbrev S1x16 : Shape := ⟨2, ![1, 16]⟩
abbrev S40000x16 : Shape := ⟨2, ![40000, 16]⟩
abbrev S1x100 : Shape := ⟨2, ![1, 100]⟩
abbrev S1x27 : Shape := ⟨2, ![1, 27]⟩
abbrev S40000x27 : Shape := ⟨2, ![40000, 27]⟩
abbrev S8000x27 : Shape := ⟨2, ![8000, 27]⟩
abbrev S8000x100 : Shape := ⟨2, ![8000, 100]⟩

abbrev nBuf : Space → Nat
  | .hbm => 66
  | .vmem => 30
  | .smem => 0
  | _ => 0

abbrev bufTy : (tb : Table) → Fin (tcTables nBuf tb) → BufTy
  | .hbm, ⟨0, _⟩ => ⟨S1000000x64, .f32⟩
  | .hbm, ⟨1, _⟩ => ⟨S2x4000000, .i32⟩
  | .hbm, ⟨2, _⟩ => ⟨S1000000, .i32⟩
  | .hbm, ⟨3, _⟩ => ⟨S64x16, .f32⟩
  | .hbm, ⟨4, _⟩ => ⟨S16, .f32⟩
  | .hbm, ⟨5, _⟩ => ⟨S16x16, .f32⟩
  | .hbm, ⟨6, _⟩ => ⟨S16, .f32⟩
  | .hbm, ⟨7, _⟩ => ⟨S16x100, .f32⟩
  | .hbm, ⟨8, _⟩ => ⟨S100, .f32⟩
  | .hbm, ⟨9, _⟩ => ⟨S100x27, .f32⟩
  | .hbm, ⟨10, _⟩ => ⟨S27, .f32⟩
  | .hbm, ⟨11, _⟩ => ⟨S1x4000000, .i32⟩
  | .hbm, ⟨12, _⟩ => ⟨S4000000, .i32⟩
  | .hbm, ⟨13, _⟩ => ⟨S1x4000000, .i32⟩
  | .hbm, ⟨14, _⟩ => ⟨S4000000, .i32⟩
  | .hbm, ⟨15, _⟩ => ⟨S1000000, .i32⟩
  | .hbm, ⟨16, _⟩ => ⟨S5000000, .i32⟩
  | .hbm, ⟨17, _⟩ => ⟨S5000000, .i32⟩
  | .hbm, ⟨18, _⟩ => ⟨S_, .f32⟩
  | .hbm, ⟨19, _⟩ => ⟨S5000000, .f32⟩
  | .hbm, ⟨20, _⟩ => ⟨S_, .f32⟩
  | .hbm, ⟨21, _⟩ => ⟨S1000000, .f32⟩
  | .hbm, ⟨22, _⟩ => ⟨S5000000x1, .i32⟩
  | .hbm, ⟨23, _⟩ => ⟨S1000000, .f32⟩
  | .hbm, ⟨24, _⟩ => ⟨S1000000, .f32⟩
  | .hbm, ⟨25, _⟩ => ⟨S1000000x1, .f32⟩
  | .hbm, ⟨26, _⟩ => ⟨S1000000x16, .f32⟩
  | .hbm, ⟨27, _⟩ => ⟨S_, .i32⟩
  | .hbm, ⟨28, _⟩ => ⟨S5000000, .i32⟩
  | .hbm, ⟨29, _⟩ => ⟨S5000000, .i1⟩
  | .hbm, ⟨30, _⟩ => ⟨S_, .i32⟩
  | .hbm, ⟨31, _⟩ => ⟨S5000000, .i32⟩
  | .hbm, ⟨32, _⟩ => ⟨S5000000, .i32⟩
  | .hbm, ⟨33, _⟩ => ⟨S5000000, .i32⟩
  | .hbm, ⟨34, _⟩ => ⟨S5000000x1, .i32⟩
  | .hbm, ⟨35, _⟩ => ⟨S5000000x16, .f32⟩
  | .hbm, ⟨36, _⟩ => ⟨S_, .f32⟩
  | .hbm, ⟨37, _⟩ => ⟨S1000000x16, .f32⟩
  | .hbm, ⟨38, _⟩ => ⟨S5000000x1, .i32⟩
  | .hbm, ⟨39, _⟩ => ⟨S1000000x16, .f32⟩
  | .hbm, ⟨40, _⟩ => ⟨S1000000x1, .f32⟩
  | .hbm, ⟨41, _⟩ => ⟨S1x16, .f32⟩
  | .hbm, ⟨42, _⟩ => ⟨S1000000x16, .f32⟩
  | .hbm, ⟨43, _⟩ => ⟨S_, .i32⟩
  | .hbm, ⟨44, _⟩ => ⟨S5000000, .i32⟩
  | .hbm, ⟨45, _⟩ => ⟨S5000000, .i1⟩
  | .hbm, ⟨46, _⟩ => ⟨S_, .i32⟩
  | .hbm, ⟨47, _⟩ => ⟨S5000000, .i32⟩
  | .hbm, ⟨48, _⟩ => ⟨S5000000, .i32⟩
  | .hbm, ⟨49, _⟩ => ⟨S5000000, .i32⟩
  | .hbm, ⟨50, _⟩ => ⟨S5000000x1, .i32⟩
  | .hbm, ⟨51, _⟩ => ⟨S5000000x16, .f32⟩
  | .hbm, ⟨52, _⟩ => ⟨S_, .f32⟩
  | .hbm, ⟨53, _⟩ => ⟨S1000000x16, .f32⟩
  | .hbm, ⟨54, _⟩ => ⟨S5000000x1, .i32⟩
  | .hbm, ⟨55, _⟩ => ⟨S1000000x16, .f32⟩
  | .hbm, ⟨56, _⟩ => ⟨S1000000x1, .f32⟩
  | .hbm, ⟨57, _⟩ => ⟨S1x16, .f32⟩
  | .hbm, ⟨58, _⟩ => ⟨S1000000x16, .f32⟩
  | .hbm, ⟨59, _⟩ => ⟨S_, .f32⟩
  | .hbm, ⟨60, _⟩ => ⟨S40000x16, .f32⟩
  | .hbm, ⟨61, _⟩ => ⟨S1000000x1, .i32⟩
  | .hbm, ⟨62, _⟩ => ⟨S40000x16, .f32⟩
  | .hbm, ⟨63, _⟩ => ⟨S1x100, .f32⟩
  | .hbm, ⟨64, _⟩ => ⟨S1x27, .f32⟩
  | .hbm, ⟨65, _⟩ => ⟨S40000x27, .f32⟩
  | .local _ .vmem, ⟨0, _⟩ => ⟨S8000x64, .f32⟩
  | .local _ .vmem, ⟨1, _⟩ => ⟨S8000x64, .f32⟩
  | .local _ .vmem, ⟨2, _⟩ => ⟨S64x16, .f32⟩
  | .local _ .vmem, ⟨3, _⟩ => ⟨S8000x1, .f32⟩
  | .local _ .vmem, ⟨4, _⟩ => ⟨S8000x1, .f32⟩
  | .local _ .vmem, ⟨5, _⟩ => ⟨S8000x16, .f32⟩
  | .local _ .vmem, ⟨6, _⟩ => ⟨S8000x16, .f32⟩
  | .local _ .vmem, ⟨7, _⟩ => ⟨S8000x16, .f32⟩
  | .local _ .vmem, ⟨8, _⟩ => ⟨S8000x16, .f32⟩
  | .local _ .vmem, ⟨9, _⟩ => ⟨S8000x1, .f32⟩
  | .local _ .vmem, ⟨10, _⟩ => ⟨S8000x1, .f32⟩
  | .local _ .vmem, ⟨11, _⟩ => ⟨S1x16, .f32⟩
  | .local _ .vmem, ⟨12, _⟩ => ⟨S16x16, .f32⟩
  | .local _ .vmem, ⟨13, _⟩ => ⟨S8000x16, .f32⟩
  | .local _ .vmem, ⟨14, _⟩ => ⟨S8000x16, .f32⟩
  | .local _ .vmem, ⟨15, _⟩ => ⟨S8000x16, .f32⟩
  | .local _ .vmem, ⟨16, _⟩ => ⟨S8000x16, .f32⟩
  | .local _ .vmem, ⟨17, _⟩ => ⟨S8000x1, .f32⟩
  | .local _ .vmem, ⟨18, _⟩ => ⟨S8000x1, .f32⟩
  | .local _ .vmem, ⟨19, _⟩ => ⟨S1x16, .f32⟩
  | .local _ .vmem, ⟨20, _⟩ => ⟨S8000x16, .f32⟩
  | .local _ .vmem, ⟨21, _⟩ => ⟨S8000x16, .f32⟩
  | .local _ .vmem, ⟨22, _⟩ => ⟨S8000x16, .f32⟩
  | .local _ .vmem, ⟨23, _⟩ => ⟨S8000x16, .f32⟩
  | .local _ .vmem, ⟨24, _⟩ => ⟨S16x100, .f32⟩
  | .local _ .vmem, ⟨25, _⟩ => ⟨S1x100, .f32⟩
  | .local _ .vmem, ⟨26, _⟩ => ⟨S100x27, .f32⟩
  | .local _ .vmem, ⟨27, _⟩ => ⟨S1x27, .f32⟩
  | .local _ .vmem, ⟨28, _⟩ => ⟨S8000x27, .f32⟩
  | .local _ .vmem, ⟨29, _⟩ => ⟨S8000x27, .f32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x100 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x100 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S100x27 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x27 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8000x27 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S4000000_S1000000_S5000000_d0 : Shape.Concatenates [S4000000, S1000000] S5000000 0
  bcast_S_S5000000 : S_.BroadcastsInDim S5000000 (![] : Fin 0 → Fin S5000000.rank)
  bcast_S_S1000000 : S_.BroadcastsInDim S1000000 (![] : Fin 0 → Fin S1000000.rank)
  bcast_S5000000_S5000000x1_0 : S5000000.BroadcastsInDim S5000000x1 (![0] : Fin 1 → Fin S5000000x1.rank)
  shapeCasts_S1000000_S1000000x1 : S1000000.ShapeCasts S1000000x1
  inb_S8000x64_S8000x64_0_0 : ∀ a, (![0, 0] : Fin 2 → Nat) a + S8000x64.size a ≤ S8000x64.size a
  h_S8000x64 : 0 < S8000x64.numel
  inb_S64x16_S64x16_0_0 : ∀ a, (![0, 0] : Fin 2 → Nat) a + S64x16.size a ≤ S64x16.size a
  h_S64x16 : 0 < S64x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x16 : S8000x1.Broadcasts S8000x16
  inb_S8000x16_S8000x16_0_0 : ∀ a, (![0, 0] : Fin 2 → Nat) a + S8000x16.size a ≤ S8000x16.size a
  h_S8000x16 : 0 < S8000x16.numel
  bcast_S_S1000000x16 : S_.BroadcastsInDim S1000000x16 (![] : Fin 0 → Fin S1000000x16.rank)
  shapeCasts_S16_S1x16 : S16.ShapeCasts S1x16
  shapeCasts_S8000x16_S8000x16 : S8000x16.ShapeCasts S8000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  bcast_S_S40000x16 : S_.BroadcastsInDim S40000x16 (![] : Fin 0 → Fin S40000x16.rank)
  bcast_S1000000_S1000000x1_0 : S1000000.BroadcastsInDim S1000000x1 (![0] : Fin 1 → Fin S1000000x1.rank)
  shapeCasts_S100_S1x100 : S100.ShapeCasts S1x100
  shapeCasts_S27_S1x27 : S27.ShapeCasts S1x27
  inb_S16x100_S16x100_0_0 : ∀ a, (![0, 0] : Fin 2 → Nat) a + S16x100.size a ≤ S16x100.size a
  h_S16x100 : 0 < S16x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S8000x100 : S1x100.Broadcasts S8000x100
  inb_S100x27_S100x27_0_0 : ∀ a, (![0, 0] : Fin 2 → Nat) a + S100x27.size a ≤ S100x27.size a
  h_S100x27 : 0 < S100x27.numel
  inb_S1x27_S1x27_0_0 : ∀ a, (![0, 0] : Fin 2 → Nat) a + S1x27.size a ≤ S1x27.size a
  h_S1x27 : 0 < S1x27.numel
  shapeCasts_S1x27_S1x27 : S1x27.ShapeCasts S1x27
  broadcasts_S1x27_S8000x27 : S1x27.Broadcasts S8000x27
  inb_S8000x27_S8000x27_0_0 : ∀ a, (![0, 0] : Fin 2 → Nat) a + S8000x27.size a ≤ S8000x27.size a
  h_S8000x27 : 0 < S8000x27.numel
  scatter_S1000000_S5000000x1_S5000000_n_0_0_1_wf : ScatterDims.WF S1000000 S5000000x1 S5000000 [] [0] [0] 1
  dot_S8000x64_S64x16_S8000x16_1_0_0_1_n_n_wf : DotDims.WF S8000x64 S64x16 S8000x16 [1] [0] [0] [1] [] []
  gather_S1000000x16_S5000000x1_S5000000x16_1_0_n_n_0_1_116_wf : GatherDims.WF S1000000x16 S5000000x1 S5000000x16 [1] [0] [] [0] [] 1 ![1, 16]
  scatter_S1000000x16_S5000000x1_S5000000x16_1_0_0_1_wf : ScatterDims.WF S1000000x16 S5000000x1 S5000000x16 [1] [0] [0] 1
  dot_S8000x16_S16x16_S8000x16_1_0_0_1_n_n_wf : DotDims.WF S8000x16 S16x16 S8000x16 [1] [0] [0] [1] [] []
  scatter_S40000x16_S1000000x1_S1000000x16_1_0_0_1_wf : ScatterDims.WF S40000x16 S1000000x1 S1000000x16 [1] [0] [0] 1
  dot_S8000x16_S16x100_S8000x100_1_0_0_1_n_n_wf : DotDims.WF S8000x16 S16x100 S8000x100 [1] [0] [0] [1] [] []
  dot_S8000x100_S100x27_S8000x27_1_0_0_1_n_n_wf : DotDims.WF S8000x100 S100x27 S8000x27 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x1.size a ≤ S1000000x1.size a
  hwx0_2 : ∀ i : grid0.Coords, EltTy.bits .f32 = 32 ∨ (Rect.block (s := S1000000x1) S8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x16.size a ≤ S1000000x16.size a
  hwx0_3 : ∀ i : grid0.Coords, EltTy.bits .f32 = 32 ∨ (Rect.block (s := S1000000x16) S8000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S1000000x16.size a
  hwx1_0 : ∀ i : grid1.Coords, EltTy.bits .f32 = 32 ∨ (Rect.block (s := S1000000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1000000x1.size a
  hwx1_1 : ∀ i : grid1.Coords, EltTy.bits .f32 = 32 ∨ (Rect.block (s := S1000000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x16.size a ≤ S16x16.size a
  hwx1_3 : ∀ i : grid1.Coords, EltTy.bits .f32 = 32 ∨ (Rect.block (s := S16x16) S16x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x16.size a ≤ S1000000x16.size a
  hwx1_4 : ∀ i : grid1.Coords, EltTy.bits .f32 = 32 ∨ (Rect.block (s := S1000000x16) S8000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x16.size a ≤ S1000000x16.size a
  hwx2_0 : ∀ i : grid2.Coords, EltTy.bits .f32 = 32 ∨ (Rect.block (s := S1000000x16) S8000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x1.size a ≤ S1000000x1.size a
  hwx2_1 : ∀ i : grid2.Coords, EltTy.bits .f32 = 32 ∨ (Rect.block (s := S1000000x1) S8000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8000x16.size a ≤ S1000000x16.size a
  hwx2_3 : ∀ i : grid2.Coords, EltTy.bits .f32 = 32 ∨ (Rect.block (s := S1000000x16) S8000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x16.size a ≤ S40000x16.size a
  hwx3_0 : ∀ i : grid3.Coords, EltTy.bits .f32 = 32 ∨ (Rect.block (s := S40000x16) S8000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x100.size a ≤ S16x100.size a
  hwx3_1 : ∀ i : grid3.Coords, EltTy.bits .f32 = 32 ∨ (Rect.block (s := S16x100) S16x100.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x100.size a ≤ S1x100.size a
  hwx3_2 : ∀ i : grid3.Coords, EltTy.bits .f32 = 32 ∨ (Rect.block (s := S1x100) S1x100.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S100x27.size a ≤ S100x27.size a
  hwx3_3 : ∀ i : grid3.Coords, EltTy.bits .f32 = 32 ∨ (Rect.block (s := S100x27) S100x27.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x27.size a ≤ S1x27.size a
  hwx3_4 : ∀ i : grid3.Coords, EltTy.bits .f32 = 32 ∨ (Rect.block (s := S1x27) S1x27.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8000x27.size a ≤ S40000x27.size a
  hwx3_5 : ∀ i : grid3.Coords, EltTy.bits .f32 = 32 ∨ (Rect.block (s := S40000x27) S8000x27.size (cc3_transform_5 i) (hinb3_5 i)).WholeWords (EltTy.packing .f32)

variable [Facts₀]

def scatter_S1000000_S5000000x1_S5000000_n_0_0_1 : ScatterDims S1000000 S5000000x1 S5000000 where
  updateWindowDims := []
  insertedWindowDims := [0]
  scatterDimsToOperandDims := [0]
  indexVectorDim := 1
  wf := scatter_S1000000_S5000000x1_S5000000_n_0_0_1_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S1000000x16_S5000000x1_S5000000x16_1_0_0_1 : ScatterDims S1000000x16 S5000000x1 S5000000x16 where
  updateWindowDims := [1]
  insertedWindowDims := [0]
  scatterDimsToOperandDims := [0]
  indexVectorDim := 1
  wf := scatter_S1000000x16_S5000000x1_S5000000x16_1_0_0_1_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def scatter_S40000x16_S1000000x1_S1000000x16_1_0_0_1 : ScatterDims S40000x16 S1000000x1 S1000000x16 where
  updateWindowDims := [1]
  insertedWindowDims := [0]
  scatterDimsToOperandDims := [0]
  indexVectorDim := 1
  wf := scatter_S40000x16_S1000000x1_S1000000x16_1_0_0_1_wf
def dot_S8000x16_S16x100_S8000x100_1_0_0_1_n_n : DotDims S8000x16 S16x100 S8000x100 where
  lhsContracting := [1]
  rhsContracting := [0]
  lhsNonContracting := [0]
  rhsNonContracting := [1]
  lhsBatch := []
  rhsBatch := []
  wf := dot_S8000x16_S16x100_S8000x100_1_0_0_1_n_n_wf
def dot_S8000x100_S100x27_S8000x27_1_0_0_1_n_n : DotDims S8000x100 S100x27 S8000x27 where
  lhsContracting := [1]
  rhsContracting := [0]
  lhsNonContracting := [0]
  rhsNonContracting := [1]
  lhsBatch := []
  rhsBatch := []
  wf := dot_S8000x100_S100x27_S8000x27_1_0_0_1_n_n_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S8000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S16x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S8000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v36) S8000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S8000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S8000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S8000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S16x100.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x100.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S100x27.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x27.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S8000x27.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S1000000x64 : Shape := ⟨2, ![1000000, 64]⟩
abbrev S2x4000000 : Shape := ⟨2, ![2, 4000000]⟩
abbrev S1000000 : Shape := ⟨1, ![1000000]⟩
abbrev S64x16 : Shape := ⟨2, ![64, 16]⟩
abbrev S16 : Shape := ⟨1, ![16]⟩
abbrev S16x16 : Shape := ⟨2, ![16, 16]⟩
abbrev S16x100 : Shape := ⟨2, ![16, 100]⟩
abbrev S100 : Shape := ⟨1, ![100]⟩
abbrev S100x27 : Shape := ⟨2, ![100, 27]⟩
abbrev S27 : Shape := ⟨1, ![27]⟩
abbrev S1x4000000 : Shape := ⟨2, ![1, 4000000]⟩
abbrev S4000000 : Shape := ⟨1, ![4000000]⟩
abbrev S5000000 : Shape := ⟨1, ![5000000]⟩
abbrev S_ : Shape := ⟨0, ![]⟩
abbrev S5000000x1 : Shape := ⟨2, ![5000000, 1]⟩
abbrev S1000000x16 : Shape := ⟨2, ![1000000, 16]⟩
abbrev S5000000x16 : Shape := ⟨2, ![5000000, 16]⟩
abbrev S1x16 : Shape := ⟨2, ![1, 16]⟩
abbrev S40000x16 : Shape := ⟨2, ![40000, 16]⟩
abbrev S1000000x1 : Shape := ⟨2, ![1000000, 1]⟩
abbrev S40000x100 : Shape := ⟨2, ![40000, 100]⟩
abbrev S1x100 : Shape := ⟨2, ![1, 100]⟩
abbrev S40000x27 : Shape := ⟨2, ![40000, 27]⟩
abbrev S1x27 : Shape := ⟨2, ![1, 27]⟩

abbrev nBuf : Space → Nat
  | .hbm => 134
  | .vmem => 0
  | .smem => 0
  | _ => 0

abbrev hbmTy0_0 (i : Nat) : BufTy := match i % 128 with
  | 0 => ⟨S1000000x64, .f32⟩
  | 1 => ⟨S2x4000000, .i32⟩
  | 2 => ⟨S1000000, .i32⟩
  | 3 => ⟨S64x16, .f32⟩
  | 4 => ⟨S16, .f32⟩
  | 5 => ⟨S16x16, .f32⟩
  | 6 => ⟨S16, .f32⟩
  | 7 => ⟨S16x100, .f32⟩
  | 8 => ⟨S100, .f32⟩
  | 9 => ⟨S100x27, .f32⟩
  | 10 => ⟨S27, .f32⟩
  | 11 => ⟨S1x4000000, .i32⟩
  | 12 => ⟨S4000000, .i32⟩
  | 13 => ⟨S1x4000000, .i32⟩
  | 14 => ⟨S4000000, .i32⟩
  | 15 => ⟨S1000000, .i32⟩
  | 16 => ⟨S5000000, .i32⟩
  | 17 => ⟨S5000000, .i32⟩
  | 18 => ⟨S_, .f32⟩
  | 19 => ⟨S5000000, .f32⟩
  | 20 => ⟨S_, .f32⟩
  | 21 => ⟨S1000000, .f32⟩
  | 22 => ⟨S5000000x1, .i32⟩
  | 23 => ⟨S1000000, .f32⟩
  | 24 => ⟨S1000000, .f32⟩
  | 25 => ⟨S_, .i32⟩
  | 26 => ⟨S5000000, .i32⟩
  | 27 => ⟨S5000000, .i1⟩
  | 28 => ⟨S_, .i32⟩
  | 29 => ⟨S5000000, .i32⟩
  | 30 => ⟨S5000000, .i32⟩
  | 31 => ⟨S5000000, .i32⟩
  | 32 => ⟨S5000000x1, .i32⟩
  | 33 => ⟨S5000000, .f32⟩
  | 34 => ⟨S_, .i32⟩
  | 35 => ⟨S5000000, .i32⟩
  | 36 => ⟨S5000000, .i1⟩
  | 37 => ⟨S_, .i32⟩
  | 38 => ⟨S5000000, .i32⟩
  | 39 => ⟨S5000000, .i32⟩
  | 40 => ⟨S5000000, .i32⟩
  | 41 => ⟨S5000000x1, .i32⟩
  | 42 => ⟨S5000000, .f32⟩
  | 43 => ⟨S5000000, .f32⟩
  | 44 => ⟨S1000000x16, .f32⟩
  | 45 => ⟨S_, .i32⟩
  | 46 => ⟨S5000000, .i32⟩
  | 47 => ⟨S5000000, .i1⟩
  | 48 => ⟨S_, .i32⟩
  | 49 => ⟨S5000000, .i32⟩
  | 50 => ⟨S5000000, .i32⟩
  | 51 => ⟨S5000000, .i32⟩
  | 52 => ⟨S5000000x1, .i32⟩
  | 53 => ⟨S5000000x16, .f32⟩
  | 54 => ⟨S5000000x1, .f32⟩
  | 55 => ⟨S5000000x16, .f32⟩
  | 56 => ⟨S5000000x16, .f32⟩
  | 57 => ⟨S_, .f32⟩
  | 58 => ⟨S1000000x16, .f32⟩
  | 59 => ⟨S5000000x1, .i32⟩
  | 60 => ⟨S1000000x16, .f32⟩
  | 61 => ⟨S1x16, .f32⟩
  | 62 => ⟨S1000000x16, .f32⟩
  | 63 => ⟨S1000000x16, .f32⟩
  | 64 => ⟨S_, .f32⟩
  | 65 => ⟨S1000000x16, .f32⟩
  | 66 => ⟨S1000000x16, .f32⟩
  | 67 => ⟨S1000000, .i32⟩
  | 68 => ⟨S5000000, .i32⟩
  | 69 => ⟨S5000000, .i32⟩
  | 70 => ⟨S_, .f32⟩
  | 71 => ⟨S5000000, .f32⟩
  | 72 => ⟨S_, .f32⟩
  | 73 => ⟨S1000000, .f32⟩
  | 74 => ⟨S5000000x1, .i32⟩
  | 75 => ⟨S1000000, .f32⟩
  | 76 => ⟨S1000000, .f32⟩
  | 77 => ⟨S_, .i32⟩
  | 78 => ⟨S5000000, .i32⟩
  | 79 => ⟨S5000000, .i1⟩
  | 80 => ⟨S_, .i32⟩
  | 81 => ⟨S5000000, .i32⟩
  | 82 => ⟨S5000000, .i32⟩
  | 83 => ⟨S5000000, .i32⟩
  | 84 => ⟨S5000000x1, .i32⟩
  | 85 => ⟨S5000000, .f32⟩
  | 86 => ⟨S_, .i32⟩
  | 87 => ⟨S5000000, .i32⟩
  | 88 => ⟨S5000000, .i1⟩
  | 89 => ⟨S_, .i32⟩
  | 90 => ⟨S5000000, .i32⟩
  | 91 => ⟨S5000000, .i32⟩
  | 92 => ⟨S5000000, .i32⟩
  | 93 => ⟨S5000000x1, .i32⟩
  | 94 => ⟨S5000000, .f32⟩
  | 95 => ⟨S5000000, .f32⟩
  | 96 => ⟨S1000000x16, .f32⟩
  | 97 => ⟨S_, .i32⟩
  | 98 => ⟨S5000000, .i32⟩
  | 99 => ⟨S5000000, .i1⟩
  | 100 => ⟨S_, .i32⟩
  | 101 => ⟨S5000000, .i32⟩
  | 102 => ⟨S5000000, .i32⟩
  | 103 => ⟨S5000000, .i32⟩
  | 104 => ⟨S5000000x1, .i32⟩
  | 105 => ⟨S5000000x16, .f32⟩
  | 106 => ⟨S5000000x1, .f32⟩
  | 107 => ⟨S5000000x16, .f32⟩
  | 108 => ⟨S5000000x16, .f32⟩
  | 109 => ⟨S_, .f32⟩
  | 110 => ⟨S1000000x16, .f32⟩
  | 111 => ⟨S5000000x1, .i32⟩
  | 112 => ⟨S1000000x16, .f32⟩
  | 113 => ⟨S1x16, .f32⟩
  | 114 => ⟨S1000000x16, .f32⟩
  | 115 => ⟨S1000000x16, .f32⟩
  | 116 => ⟨S_, .f32⟩
  | 117 => ⟨S40000x16, .f32⟩
  | 118 => ⟨S1000000x1, .i32⟩
  | 119 => ⟨S40000x16, .f32⟩
  | 120 => ⟨S_, .f32⟩
  | 121 => ⟨S40000x16, .f32⟩
  | 122 => ⟨S40000x16, .f32⟩
  | 123 => ⟨S40000x100, .f32⟩
  | 124 => ⟨S1x100, .f32⟩
  | 125 => ⟨S40000x100, .f32⟩
  | 126 => ⟨S40000x100, .f32⟩
  | 127 => ⟨S_, .f32⟩
  | _ => ⟨S1000000x64, .f32⟩

abbrev hbmTy0_1 (i : Nat) : BufTy := match i % 128 with
  | 0 => ⟨S40000x100, .f32⟩
  | 1 => ⟨S40000x100, .f32⟩
  | 2 => ⟨S40000x27, .f32⟩
  | 3 => ⟨S1x27, .f32⟩
  | 4 => ⟨S40000x27, .f32⟩
  | 5 => ⟨S40000x27, .f32⟩
  | _ => ⟨S1000000x64, .f32⟩

abbrev hbmTy (i : Nat) : BufTy := match i / 128 with
  | 0 => hbmTy0_0 i
  | 1 => hbmTy0_1 i
  | _ => ⟨S1000000x64, .f32⟩

abbrev bufTy : (tb : Table) → Fin (tcTables nBuf tb) → BufTy
  | .hbm, ⟨i, _⟩ => hbmTy i
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_13 : Ref sig .tc := ⟨.hbm, 97, rfl⟩
abbrev main_v69 : Ref sig .tc := ⟨.hbm, 98, rfl⟩
abbrev main_v70 : Ref sig .tc := ⟨.hbm, 99, rfl⟩
abbrev main_c_14 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_16 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call1_cst : Ref sig .tc := ⟨.hbm, 120, rfl⟩
abbrev main_call1_v0 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S4000000_S1000000_S5000000_d0 : Shape.Concatenates [S4000000, S1000000] S5000000 0
  bcast_S_S5000000 : S_.BroadcastsInDim S5000000 (![] : Fin 0 → Fin S5000000.rank)
  bcast_S_S1000000 : S_.BroadcastsInDim S1000000 (![] : Fin 0 → Fin S1000000.rank)
  bcast_S5000000_S5000000x1_0 : S5000000.BroadcastsInDim S5000000x1 (![0] : Fin 1 → Fin S5000000x1.rank)
  bcast_S5000000x1_S5000000x16_0_1 : S5000000x1.BroadcastsInDim S5000000x16 (![0, 1] : Fin 2 → Fin S5000000x16.rank)
  bcast_S_S1000000x16 : S_.BroadcastsInDim S1000000x16 (![] : Fin 0 → Fin S1000000x16.rank)
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S40000x16 : S_.BroadcastsInDim S40000x16 (![] : Fin 0 → Fin S40000x16.rank)
  bcast_S1000000_S1000000x1_0 : S1000000.BroadcastsInDim S1000000x1 (![0] : Fin 1 → Fin S1000000x1.rank)
  bcast_S100_S1x100_1 : S100.BroadcastsInDim S1x100 (![1] : Fin 1 → Fin S1x100.rank)
  bcast_S1x100_S40000x100_0_1 : S1x100.BroadcastsInDim S40000x100 (![0, 1] : Fin 2 → Fin S40000x100.rank)
  bcast_S_S40000x100 : S_.BroadcastsInDim S40000x100 (![] : Fin 0 → Fin S40000x100.rank)
  bcast_S27_S1x27_1 : S27.BroadcastsInDim S1x27 (![1] : Fin 1 → Fin S1x27.rank)
  bcast_S1x27_S40000x27_0_1 : S1x27.BroadcastsInDim S40000x27 (![0, 1] : Fin 2 → Fin S40000x27.rank)
  scatter_S1000000_S5000000x1_S5000000_n_0_0_1_wf : ScatterDims.WF S1000000 S5000000x1 S5000000 [] [0] [0] 1
  gather_S1000000_S5000000x1_S5000000_n_0_n_n_0_1_1_wf : GatherDims.WF S1000000 S5000000x1 S5000000 [] [0] [] [0] [] 1 ![1]
  dot_S1000000x64_S64x16_S1000000x16_1_0_0_1_n_n_wf : DotDims.WF S1000000x64 S64x16 S1000000x16 [1] [0] [0] [1] [] []
  gather_S1000000x16_S5000000x1_S5000000x16_1_0_n_n_0_1_116_wf : GatherDims.WF S1000000x16 S5000000x1 S5000000x16 [1] [0] [] [0] [] 1 ![1, 16]
  scatter_S1000000x16_S5000000x1_S5000000x16_1_0_0_1_wf : ScatterDims.WF S1000000x16 S5000000x1 S5000000x16 [1] [0] [0] 1
  dot_S1000000x16_S16x16_S1000000x16_1_0_0_1_n_n_wf : DotDims.WF S1000000x16 S16x16 S1000000x16 [1] [0] [0] [1] [] []
  scatter_S40000x16_S1000000x1_S1000000x16_1_0_0_1_wf : ScatterDims.WF S40000x16 S1000000x1 S1000000x16 [1] [0] [0] 1
  dot_S40000x16_S16x100_S40000x100_1_0_0_1_n_n_wf : DotDims.WF S40000x16 S16x100 S40000x100 [1] [0] [0] [1] [] []
  dot_S40000x100_S100x27_S40000x27_1_0_0_1_n_n_wf : DotDims.WF S40000x100 S100x27 S40000x27 [1] [0] [0] [1] [] []

variable [Facts₀]

def scatter_S1000000_S5000000x1_S5000000_n_0_0_1 : ScatterDims S1000000 S5000000x1 S5000000 where
  updateWindowDims := []
  insertedWindowDims := [0]
  scatterDimsToOperandDims := [0]
  indexVectorDim := 1
  wf := scatter_S1000000_S5000000x1_S5000000_n_0_0_1_wf
def gather_S1000000_S5000000x1_S5000000_n_0_n_n_0_1_1 : GatherDims S1000000 S5000000x1 S5000000 where
  offsetDims := []
  collapsedSliceDims := [0]
  operandBatchingDims := []
  startIndicesBatchingDims := []
  startIndexMap := [0]
  indexVectorDim := 1
  sliceSizes := ![1]
  wf := gather_S1000000_S5000000x1_S5000000_n_0_n_n_0_1_1_wf
def dot_S1000000x64_S64x16_S1000000x16_1_0_0_1_n_n : DotDims S1000000x64 S64x16 S1000000x16 where
  lhsContracting := [1]
  rhsContracting := [0]
  lhsNonContracting := [0]
  rhsNonContracting := [1]
  lhsBatch := []
  rhsBatch := []
  wf := dot_S1000000x64_S64x16_S1000000x16_1_0_0_1_n_n_wf
def gather_S1000000x16_S5000000x1_S5000000x16_1_0_n_n_0_1_116 : GatherDims S1000000x16 S5000000x1 S5000000x16 where
  offsetDims := [1]
  collapsedSliceDims := [0]
  operandBatchingDims := []
  startIndicesBatchingDims := []
  startIndexMap := [0]
  indexVectorDim := 1
  sliceSizes := ![1, 16]
  wf := gather_S1000000x16_S5000000x1_S5000000x16_1_0_n_n_0_1_116_wf
def scatter_S1000000x16_S5000000x1_S5000000x16_1_0_0_1 : ScatterDims S1000000x16 S5000000x1 S5000000x16 where
  updateWindowDims := [1]
  insertedWindowDims := [0]
  scatterDimsToOperandDims := [0]
  indexVectorDim := 1
  wf := scatter_S1000000x16_S5000000x1_S5000000x16_1_0_0_1_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def scatter_S40000x16_S1000000x1_S1000000x16_1_0_0_1 : ScatterDims S40000x16 S1000000x1 S1000000x16 where
  updateWindowDims := [1]
  insertedWindowDims := [0]
  scatterDimsToOperandDims := [0]
  indexVectorDim := 1
  wf := scatter_S40000x16_S1000000x1_S1000000x16_1_0_0_1_wf
def dot_S40000x16_S16x100_S40000x100_1_0_0_1_n_n : DotDims S40000x16 S16x100 S40000x100 where
  lhsContracting := [1]
  rhsContracting := [0]
  lhsNonContracting := [0]
  rhsNonContracting := [1]
  lhsBatch := []
  rhsBatch := []
  wf := dot_S40000x16_S16x100_S40000x100_1_0_0_1_n_n_wf
def dot_S40000x100_S100x27_S40000x27_1_0_0_1_n_n : DotDims S40000x100 S100x27 S40000x27 where
  lhsContracting := [1]
  rhsContracting := [0]
  lhsNonContracting := [0]
  rhsNonContracting := [1]
  lhsBatch := []
  rhsBatch := []
  wf := dot_S40000x100_S100x27_S40000x27_1_0_0_1_n_n_wf

class Facts : Prop extends Facts₀ where

variable [Facts]
-- ==== Proof.Spec.lean ====
/-
  The four dense launches of the two-layer graph convolution, each as ONE function of whole arrays over the extended
  reals, index by index.

  Write n = 1000000 nodes, dv the column [n, 1] of inverse square-root degrees.
  * `scaleLin x w dv`          : row u, column j ↦ (∑ₖ x[u,k] · w[k,j]) · dv[u]
  * `biasReluLinScale a dv b w` : row u, column j ↦ (∑ₖ max(a[u,k] · dv[u] + b[k], 0) · w[k,j]) · dv[u]
  * `scaleBias a dv b`         : row u, column j ↦ a[u,j] · dv[u] + b[j]
  * `head p w1 b1 w2 b2`       : row g, column j ↦ (∑ₖ max((∑ₗ max(p[g,l], 0) · w1[l,k]) + b1[k], 0) · w2[k,j]) + b2[j]
-/
import Idealize.ShloMosaic.PureOps.Ideal
import Idealize.ShloMosaic.Lib.ValueIdx

noncomputable section

namespace Cert.Gcn.Spec

open Idealize.ShloMosaic Idealize.ShloMosaic.ValueIdx

/-- A rank-2 array of extended reals. -/
abbrev Arr (a b : Nat) : Type := (⟨2, ![a, b]⟩ : Shape).Idx → EReal

/-- A dense transform of the rows followed by a per-row scale. -/
def scaleLin (x : Arr 1000000 64) (w : Arr 64 16) (dv : Arr 1000000 1) : Arr 1000000 16 :=
  fun i => (∑ k : Fin 64, x (ix2 (i 0) k) * w (ix2 k (i 1))) * dv (ix2 (i 0) (0 : Fin 1))

/-- Per-row scale, bias and rectifier, then a dense transform of the rows and the per-row scale again. -/
def biasReluLinScale (a : Arr 1000000 16) (dv : Arr 1000000 1) (b : Arr 1 16) (w : Arr 16 16) : Arr 1000000 16 :=
  fun i => (∑ k : Fin 16, max (a (ix2 (i 0) k) * dv (ix2 (i 0) (0 : Fin 1)) + b (ix2 (0 : Fin 1) k)) 0 * w (ix2 k (i 1)))
    * dv (ix2 (i 0) (0 : Fin 1))

/-- Per-row scale and bias. -/
def scaleBias (a : Arr 1000000 16) (dv : Arr 1000000 1) (b : Arr 1 16) : Arr 1000000 16 :=
  fun i => a i * dv (ix2 (i 0) (0 : Fin 1)) + b (ix2 (0 : Fin 1) (i 1))

/-- The two-layer perceptron on the rectified pooled rows. -/
def head (p : Arr 40000 16) (w1 : Arr 16 100) (b1 : Arr 1 100) (w2 : Arr 100 27) (b2 : Arr 1 27) : Arr 40000 27 :=
  fun i => (∑ k : Fin 100, max ((∑ l : Fin 16, max (p (ix2 (i 0) l)) 0 * w1 (ix2 l k)) + b1 (ix2 (0 : Fin 1) k)) 0 * w2 (ix2 k (i 1)))
    + b2 (ix2 (0 : Fin 1) (i 1))

end Cert.Gcn.Spec

end
-- ==== Proof.Launch0Value.lean ====
/-
  The first dense launch, as ONE function of whole arrays.

  The launch walks the 1000000 rows of its first array in 125 blocks of 8000 rows. At block `t` the body multiplies the
  [8000, 64] block of rows by the whole [64, 16] weight array (a product into a zero accumulator) and scales row `p` of
  the result by the entry of row `p` of the [8000, 1] block of the scale column. Entry `(p, q)` of block `t` depends on
  row `8000 t + p` of the first array, column `q` of the weights and entry `8000 t + p` of the column only; the 125 output
  blocks tile the output array (row `r` is in block `r / 8000`), so the array the launch leaves is
  `(u, j) ↦ (∑ₖ x[u, k] · w[k, j]) · dv[u]`.
-/
import proofs.«402039_j30167850287488_3_alg».proof.Proof.Gen.KernelIdeal.Frame
import proofs.«402039_j30167850287488_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LaunchValue

open Cert.KernelIdeal Cert.KernelIdeal.Gen Idealize.ShloMosaic Idealize.ShloMosaic.TcCoe Idealize.SL.Sem
open Idealize.ShloMosaic.ValueIdx

namespace L0

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the product: its row is the output's row. -/
theorem lhs_0 (i : S8000x16.Idx) (q : dot_S8000x64_S64x16_S8000x16_1_0_0_1_n_n.contr.Idx) :
    (dot_S8000x64_S64x16_S8000x16_1_0_0_1_n_n.lhsIdx i q 0).val = (i 0).val := by
  unfold DotDims.lhsIdx
  rw [dif_neg (show ¬(0 : Fin S8000x64.rank) ∈ dot_S8000x64_S64x16_S8000x16_1_0_0_1_n_n.lhsBatch by decide), dif_pos (show (0 : Fin S8000x64.rank) ∈ dot_S8000x64_S64x16_S8000x16_1_0_0_1_n_n.lhsNonContracting by decide)]
  rfl
/-- Its column is the contraction position. -/
theorem lhs_1 (i : S8000x16.Idx) (q : dot_S8000x64_S64x16_S8000x16_1_0_0_1_n_n.contr.Idx) :
    (dot_S8000x64_S64x16_S8000x16_1_0_0_1_n_n.lhsIdx i q 1).val = (q ⟨0, by decide⟩).val :=
  dot_S8000x64_S64x16_S8000x16_1_0_0_1_n_n.lhsIdx_val_of_single rfl i q
/-- The right operand's row is the contraction position. -/
theorem rhs_0 (i : S8000x16.Idx) (q : dot_S8000x64_S64x16_S8000x16_1_0_0_1_n_n.contr.Idx) :
    (dot_S8000x64_S64x16_S8000x16_1_0_0_1_n_n.rhsIdx i q 0).val = (q ⟨0, by decide⟩).val :=
  dot_S8000x64_S64x16_S8000x16_1_0_0_1_n_n.rhsIdx_val_of_single rfl i q
/-- Its column is the output's column. -/
theorem rhs_1 (i : S8000x16.Idx) (q : dot_S8000x64_S64x16_S8000x16_1_0_0_1_n_n.contr.Idx) :
    (dot_S8000x64_S64x16_S8000x16_1_0_0_1_n_n.rhsIdx i q 1).val = (i 1).val := by
  unfold DotDims.rhsIdx
  rw [dif_neg (show ¬(1 : Fin S64x16.rank) ∈ dot_S8000x64_S64x16_S8000x16_1_0_0_1_n_n.rhsBatch by decide), dif_pos (show (1 : Fin S64x16.rank) ∈ dot_S8000x64_S64x16_S8000x16_1_0_0_1_n_n.rhsNonContracting by decide)]
  rfl

/-- The block product into the zero accumulator, entry by entry: row `p` of the left block against column `q` of the
    right one. -/
theorem matmul_apply (x : FVec Ideal S8000x64 .f32) (w : FVec Ideal S64x16 .f32) (p : Fin 8000) (q : Fin 16) :
    matmul dot_S8000x64_S64x16_S8000x16_1_0_0_1_n_n none x w (constant (F := Ideal) S8000x16 .f32 0x00000000#32) (ix2 p q)
      = ∑ k : Fin 64, x (ix2 p k) * w (ix2 k q) := by
  simp only [matmul]
  rw [Ideal.matmul_constant_zero_apply, ← Equiv.sum_comp (contrEquiv1 dot_S8000x64_S64x16_S8000x16_1_0_0_1_n_n 64 rfl rfl).symm]
  refine Finset.sum_congr rfl fun k _ => ?_
  have hk := contrEquiv1_symm_val dot_S8000x64_S64x16_S8000x16_1_0_0_1_n_n 64 rfl rfl k
  have el : dot_S8000x64_S64x16_S8000x16_1_0_0_1_n_n.lhsIdx (ix2 p q) ((contrEquiv1 dot_S8000x64_S64x16_S8000x16_1_0_0_1_n_n 64 rfl rfl).symm k) = ix2 p k := funext fun a => Fin.ext (by
    match a with
    | ⟨0, _⟩ => exact lhs_0 _ _
    | ⟨1, _⟩ => exact (lhs_1 _ _).trans hk)
  have er : dot_S8000x64_S64x16_S8000x16_1_0_0_1_n_n.rhsIdx (ix2 p q) ((contrEquiv1 dot_S8000x64_S64x16_S8000x16_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- The body's result at entry `(p, q)` of its block: the row of the first block against the column of the weight
    block, times the scale column's entry of that row. -/
theorem pay_apply (x0 : Vec Ideal S8000x64 .f32) (x1 : Vec Ideal S64x16 .f32) (x2 : Vec Ideal S8000x1 .f32)
    (p : Fin 8000) (q : Fin 16) :
    k0_pay1 (F := Ideal) x0 x1 x2 (ix2 p q) = (∑ k : Fin 64, x0 (ix2 p k) * x1 (ix2 k q)) * x2 (ix2 p (0 : Fin 1)) := by
  unfold k0_pay1
  rw [mulf_apply, matmul_apply, shapeCast_self, broadcastTo_a1_ab_apply]

end L0

variable (V : (c : Dev nD) → (b : Ref sig .tc) → Buf (Elt Ideal) ((c : Thread nD τ).loc b))

namespace L0

/-- The zero offsets of a whole-block access, however spelt. -/
theorem hz : (![0, 0] : Fin 2 → Nat) = fun _ => 0 := funext fun a => by fin_cases a <;> rfl

/-- The index maps over the grid: the three row-tiled windows are at block row `t`, block column 0, at point `t`; the
    weight window is its whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 125 := lt_of_lt_of_eq t.isLt N_0

/-- Row `p` of the block of point `t` is row `8000 t + p` of the array. -/
abbrev row (t : Fin cfg0.N) (p : Fin 8000) : Fin 1000000 := ⟨t.val * 8000 + p.val, by have := lt_N t; have := p.isLt; omega⟩

/-- The three arrays the launch reads, as the region finds them. -/
abbrev xarr (c : Dev nD) : Vec Ideal S1000000x64 .f32 := V c main_arg0
abbrev warr (c : Dev nD) : Vec Ideal S64x16 .f32 := V c main_arg3
abbrev darr (c : Dev nD) : Vec Ideal S1000000x1 .f32 := V c main_v12

/-- The first window's block at point `t`: rows `8000 t …` of the first array. -/
theorem blk0_apply (c : Dev nD) (t : Fin cfg0.N) (p : Fin 8000) (k : Fin 64) :
    (iblk0 (F := Ideal) V c 0 t : Vec Ideal S8000x64 .f32) (ix2 p k) = xarr V c (ix2 (row t p) k) := by
  obtain ⟨e00, e01, -, -, -, -, -, -⟩ := idx_facts t
  show xarr V c (((cfg0.win 0).blk t).view.emb (ix2 p k)) = _
  refine congrArg _ (funext fun a => Fin.ext ?_)
  match a with
  | ⟨0, _⟩ => show win0_0.index t (0 : Fin 2) * 8000 + 1 * p.val = t.val * 8000 + p.val; omega
  | ⟨1, _⟩ => show win0_0.index t (1 : Fin 2) * 64 + 1 * k.val = k.val; omega

/-- The weight window's block is the weight array. -/
theorem blk1_apply (c : Dev nD) (t : Fin cfg0.N) (k : Fin 64) (q : Fin 16) :
    (iblk0 (F := Ideal) V c 1 t : Vec Ideal S64x16 .f32) (ix2 k q) = warr V c (ix2 k q) := by
  obtain ⟨-, -, e10, e11, -, -, -, -⟩ := idx_facts t
  show warr V c (((cfg0.win 1).blk t).view.emb (ix2 k q)) = _
  refine congrArg _ (funext fun a => Fin.ext ?_)
  match a with
  | ⟨0, _⟩ => show win0_1.index t (0 : Fin 2) * 64 + 1 * k.val = k.val; omega
  | ⟨1, _⟩ => show win0_1.index t (1 : Fin 2) * 16 + 1 * q.val = q.val; omega

/-- The scale column's block at point `t`: rows `8000 t …` of the column. -/
theorem blk2_apply (c : Dev nD) (t : Fin cfg0.N) (p : Fin 8000) :
    (iblk0 (F := Ideal) V c 2 t : Vec Ideal S8000x1 .f32) (ix2 p (0 : Fin 1)) = darr V c (ix2 (row t p) (0 : Fin 1)) := by
  obtain ⟨-, -, -, -, e20, e21, -, -⟩ := idx_facts t
  show darr V c (((cfg0.win 2).blk t).view.emb (ix2 p (0 : Fin 1))) = _
  refine congrArg _ (funext fun a => Fin.ext ?_)
  match a with
  | ⟨0, _⟩ => show win0_2.index t (0 : Fin 2) * 8000 + 1 * p.val = t.val * 8000 + p.val; omega
  | ⟨1, _⟩ => show win0_2.index t (1 : Fin 2) * 1 + 1 * 0 = 0; omega

/-- Entry `(p, q)` of the output's block at point `t` is entry `(8000 t + p, q)` of the output array. -/
theorem out_emb (t : Fin cfg0.N) (p : Fin 8000) (q : Fin 16) :
    (((cfg0.win 3).blk t).view.emb (ix2 p q) : S1000000x16.Idx) = ix2 (row t p) q := by
  obtain ⟨-, -, -, -, -, -, e30, e31⟩ := idx_facts t
  refine funext fun a => Fin.ext ?_
  match a with
  | ⟨0, _⟩ => show win0_3.index t (0 : Fin 2) * 8000 + 1 * p.val = t.val * 8000 + p.val; omega
  | ⟨1, _⟩ => show win0_3.index t (1 : Fin 2) * 16 + 1 * q.val = q.val; omega

/-- What point `t` writes back is block `t` of the whole-array function. -/
theorem flushed_eq (c : Dev nD) (t : Fin cfg0.N) :
    (dat0 (F := Ideal) V c).flushed 3 t = ((cfg0.win 3).blk t).view.read (Elt Ideal)
      (Cert.Gcn.Spec.scaleLin (V c main_arg0) (V c main_arg3) (V c main_v12)) := by
  show (cfg0.win 3).cut (grid0.coords t) ((dat0 (F := Ideal) V c).after 3 t) = _
  rw [after0_3]
  unfold out0_3
  rw [View.canon_unit_zero hz]
  simp only [View.ld_unit_zero (S := S8000x64) hz, View.ld_unit_zero (S := S64x16) hz, View.ld_unit_zero (S := S8000x1) hz]
  refine funext fun (j : S8000x16.Idx) => ?_
  obtain ⟨p, q, rfl⟩ : ∃ (p : Fin 8000) (q : Fin 16), j = ix2 p q := ⟨j 0, j 1, eq_ix2 j⟩
  show k0_pay1 (F := Ideal) (iblk0 V c 0 t) (iblk0 V c 1 t) (iblk0 V c 2 t) (ix2 p q)
    = Cert.Gcn.Spec.scaleLin (V c main_arg0) (V c main_arg3) (V c main_v12) (((cfg0.win 3).blk t).view.emb (ix2 p q))
  refine (pay_apply (iblk0 V c 0 t) (iblk0 V c 1 t) (iblk0 V c 2 t) p q).trans ?_
  refine Eq.trans ?_ (congrArg (Cert.Gcn.Spec.scaleLin (V c main_arg0) (V c main_arg3) (V c main_v12)) (out_emb t p q)).symm
  show _ = (∑ k : Fin 64, xarr V c (ix2 (row t p) k) * warr V c (ix2 k q)) * darr V c (ix2 (row t p) (0 : Fin 1))
  rw [blk2_apply V c t p]
  refine congrArg (· * _) (Finset.sum_congr rfl fun k _ => ?_)
  rw [blk0_apply V c t p k, blk1_apply V c t k q]

/-- An index of the output array is in point `t`'s block iff each coordinate is in the block's range on its axis. -/
theorem mem_blk (t : Fin cfg0.N) (i : S1000000x16.Idx) :
    i ∈ ((cfg0.win 3).blk t).view.set ↔ ∀ a : Fin 2, win0_3.index t a * S8000x16.size a ≤ (i a).val ∧ (i a).val < win0_3.index t a * S8000x16.size a + S8000x16.size a := by
  show i ∈ ((View.whole main_v13).slice (win0_3.rect t)).set ↔ _
  rw [View.set_slice_whole, Rect.mem_set_unit]
  exact Iff.rfl

/-- Row `r` of the output is in the block of point `r / 8000`: the blocks tile the array. -/
theorem cover (i : S1000000x16.Idx) :
    ∃ t : Fin cfg0.N, (cfg0.win 3).flush t = true ∧ i ∈ ((cfg0.win 3).blk t).view.set := by
  have hi0 : (i 0).val < 1000000 := (i 0).isLt
  have hi1 : (i 1).val < 16 := (i 1).isLt
  obtain ⟨t, ht⟩ : ∃ t : Fin cfg0.N, t.val = (i 0).val / 8000 :=
    ⟨⟨(i 0).val / 8000, lt_of_lt_of_eq (by omega : (i 0).val / 8000 < 125) N_0.symm⟩, rfl⟩
  obtain ⟨-, -, -, -, -, -, e30, e31⟩ := idx_facts t
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; omega
  | ⟨1, _⟩ => show win0_3.index t (1 : Fin 2) * 16 ≤ (i 1).val ∧ (i 1).val < win0_3.index t (1 : Fin 2) * 16 + 16; omega

end L0

/-- THE ARRAY launch 0 leaves: the dense transform of the rows of its first array by its weight array, each row scaled
    by the column's entry of that row. -/
theorem launch0_array (c : Dev nD) :
    (dat0 (F := Ideal) V c).arrAt 3 cfg0.N = Cert.Gcn.Spec.scaleLin (V c main_arg0) (V c main_arg3) (V c main_v12) :=
  (dat0 (F := Ideal) V c).arrAt_eq_of_cover 3 _ (fun t _ => L0.flushed_eq V c t) L0.cover

end Cert.KernelIdeal.LaunchValue

end
-- ==== Proof.Launch1Value.lean ====
/-
  The second dense launch, as ONE function of whole arrays.

  The launch walks the 1000000 rows of its first array in 125 blocks of 8000 rows. At block `t` the body scales row `p` of
  the [8000, 16] block by the entry of row `p` of the [8000, 1] block of the scale column, adds the [1, 16] bias row, cuts
  below at zero, multiplies by the whole [16, 16] weight array (a product into a zero accumulator) and scales row `p` by the
  column's entry again. Entry `(p, q)` of block `t` depends on row `8000 t + p` of the first array, entry `8000 t + p` of
  the column, the bias row and column `q` of the weights only; the 125 output blocks tile the output array (row `r` is in
  block `r / 8000`), so the array the launch leaves is
  `(u, j) ↦ (∑ₖ max(a[u, k] · dv[u] + b[k], 0) · w[k, j]) · dv[u]`.
-/
import proofs.«402039_j30167850287488_3_alg».proof.Proof.Gen.KernelIdeal.Frame
import proofs.«402039_j30167850287488_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LaunchValue

open Cert.KernelIdeal Cert.KernelIdeal.Gen Idealize.ShloMosaic Idealize.ShloMosaic.TcCoe Idealize.SL.Sem
open Idealize.ShloMosaic.ValueIdx

namespace L1

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the product: its row is the output's row. -/
theorem lhs_0 (i : S8000x16.Idx) (q : dot_S8000x16_S16x16_S8000x16_1_0_0_1_n_n.contr.Idx) :
    (dot_S8000x16_S16x16_S8000x16_1_0_0_1_n_n.lhsIdx i q 0).val = (i 0).val := by
  unfold DotDims.lhsIdx
  rw [dif_neg (show ¬(0 : Fin S8000x16.rank) ∈ dot_S8000x16_S16x16_S8000x16_1_0_0_1_n_n.lhsBatch by decide), dif_pos (show (0 : Fin S8000x16.rank) ∈ dot_S8000x16_S16x16_S8000x16_1_0_0_1_n_n.lhsNonContracting by decide)]
  rfl
/-- Its column is the contraction position. -/
theorem lhs_1 (i : S8000x16.Idx) (q : dot_S8000x16_S16x16_S8000x16_1_0_0_1_n_n.contr.Idx) :
    (dot_S8000x16_S16x16_S8000x16_1_0_0_1_n_n.lhsIdx i q 1).val = (q ⟨0, by decide⟩).val :=
  dot_S8000x16_S16x16_S8000x16_1_0_0_1_n_n.lhsIdx_val_of_single rfl i q
/-- The right operand's row is the contraction position. -/
theorem rhs_0 (i : S8000x16.Idx) (q : dot_S8000x16_S16x16_S8000x16_1_0_0_1_n_n.contr.Idx) :
    (dot_S8000x16_S16x16_S8000x16_1_0_0_1_n_n.rhsIdx i q 0).val = (q ⟨0, by decide⟩).val :=
  dot_S8000x16_S16x16_S8000x16_1_0_0_1_n_n.rhsIdx_val_of_single rfl i q
/-- Its column is the output's column. -/
theorem rhs_1 (i : S8000x16.Idx) (q : dot_S8000x16_S16x16_S8000x16_1_0_0_1_n_n.contr.Idx) :
    (dot_S8000x16_S16x16_S8000x16_1_0_0_1_n_n.rhsIdx i q 1).val = (i 1).val := by
  unfold DotDims.rhsIdx
  rw [dif_neg (show ¬(1 : Fin S16x16.rank) ∈ dot_S8000x16_S16x16_S8000x16_1_0_0_1_n_n.rhsBatch by decide), dif_pos (show (1 : Fin S16x16.rank) ∈ dot_S8000x16_S16x16_S8000x16_1_0_0_1_n_n.rhsNonContracting by decide)]
  rfl

/-- The block product into the zero accumulator, entry by entry: row `p` of the left block against column `q` of the
    right one. -/
theorem matmul_apply (x : FVec Ideal S8000x16 .f32) (w : FVec Ideal S16x16 .f32) (p : Fin 8000) (q : Fin 16) :
    matmul dot_S8000x16_S16x16_S8000x16_1_0_0_1_n_n none x w (constant (F := Ideal) S8000x16 .f32 0x00000000#32) (ix2 p q)
      = ∑ k : Fin 16, x (ix2 p k) * w (ix2 k q) := by
  simp only [matmul]
  rw [Ideal.matmul_constant_zero_apply, ← Equiv.sum_comp (contrEquiv1 dot_S8000x16_S16x16_S8000x16_1_0_0_1_n_n 16 rfl rfl).symm]
  refine Finset.sum_congr rfl fun k _ => ?_
  have hk := contrEquiv1_symm_val dot_S8000x16_S16x16_S8000x16_1_0_0_1_n_n 16 rfl rfl k
  have el : dot_S8000x16_S16x16_S8000x16_1_0_0_1_n_n.lhsIdx (ix2 p q) ((contrEquiv1 dot_S8000x16_S16x16_S8000x16_1_0_0_1_n_n 16 rfl rfl).symm k) = ix2 p k := funext fun a => Fin.ext (by
    match a with
    | ⟨0, _⟩ => exact lhs_0 _ _
    | ⟨1, _⟩ => exact (lhs_1 _ _).trans hk)
  have er : dot_S8000x16_S16x16_S8000x16_1_0_0_1_n_n.rhsIdx (ix2 p q) ((contrEquiv1 dot_S8000x16_S16x16_S8000x16_1_0_0_1_n_n 16 rfl rfl).symm k) = ix2 k q := funext fun a => Fin.ext (by
    match a with
    | ⟨0, _⟩ => exact (rhs_0 _ _).trans hk
    | ⟨1, _⟩ => exact rhs_1 _ _)
  rw [el, er]

/-- The rectifier's threshold is the extended real zero. -/
theorem zero_word : (Scalar.ofBits (F := Ideal) .f32 0x00000000#32 : EReal) = 0 := Ideal.ofBits_zero_f32

/-- The rectified block at entry `(p, k)`: the first block's entry scaled by the column's entry of row `p`, plus the
    bias row's entry of column `k`, cut below at zero. -/
theorem relu_apply (x0 : Vec Ideal S8000x16 .f32) (x1 : Vec Ideal S8000x1 .f32) (x2 : Vec Ideal S1x16 .f32)
    (p : Fin 8000) (k : Fin 16) :
    (maximumf (addf (mulf (shapeCast S8000x16 x0 shapeCasts_S8000x16_S8000x16)
          (broadcastTo S8000x16 (shapeCast S8000x1 x1 shapeCasts_S8000x1_S8000x1) broadcasts_S8000x1_S8000x16))
        (broadcastTo S8000x16 (shapeCast S1x16 x2 shapeCasts_S1x16_S1x16) broadcasts_S1x16_S8000x16))
      (broadcast S8000x16 (Scalar.ofBits (F := Ideal) .f32 0x00000000#32)) : FVec Ideal S8000x16 .f32) (ix2 p k)
      = max (x0 (ix2 p k) * x1 (ix2 p (0 : Fin 1)) + x2 (ix2 (0 : Fin 1) k)) 0 := by
  rw [maximumf_apply, addf_apply, mulf_apply, broadcast_apply, zero_word, shapeCast_self, shapeCast_self, shapeCast_self,
    broadcastTo_a1_ab_apply, broadcastTo_1b_ab_apply]

/-- The body's result at entry `(p, q)` of its block: the rectified row `p` against column `q` of the weight block,
    times the scale column's entry of that row. -/
theorem pay_apply (x0 : Vec Ideal S8000x16 .f32) (x1 : Vec Ideal S8000x1 .f32) (x2 : Vec Ideal S1x16 .f32)
    (x3 : Vec Ideal S16x16 .f32) (x1' : Vec Ideal S8000x1 .f32) (p : Fin 8000) (q : Fin 16) :
    k1_pay1 (F := Ideal) x0 x1 x2 x3 x1' (ix2 p q)
      = (∑ k : Fin 16, max (x0 (ix2 p k) * x1 (ix2 p (0 : Fin 1)) + x2 (ix2 (0 : Fin 1) k)) 0 * x3 (ix2 k q))
        * x1' (ix2 p (0 : Fin 1)) := by
  unfold k1_pay1
  rw [mulf_apply, matmul_apply, broadcastTo_a1_ab_apply, shapeCast_self x1']
  refine congrArg (fun s : EReal => s * x1' (ix2 p (0 : Fin 1))) (Finset.sum_congr rfl fun k _ => ?_)
  rw [relu_apply]

end L1

variable (V : (c : Dev nD) → (b : Ref sig .tc) → Buf (Elt Ideal) ((c : Thread nD τ).loc b))

namespace L1

/-- The zero offsets of a whole-block access, however spelt. -/
theorem hz : (![0, 0] : Fin 2 → Nat) = fun _ => 0 := funext fun a => by fin_cases a <;> rfl

/-- The index maps over the grid: the three row-tiled windows are at block row `t`, block column 0, at point `t`; the
    bias row and the weight window are their whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_N (t : Fin cfg1.N) : t.val < 125 := lt_of_lt_of_eq t.isLt N_1

/-- Row `p` of the block of point `t` is row `8000 t + p` of the array. -/
abbrev row (t : Fin cfg1.N) (p : Fin 8000) : Fin 1000000 := ⟨t.val * 8000 + p.val, by have := lt_N t; have := p.isLt; omega⟩

/-- The four arrays the launch reads, as the region finds them. -/
abbrev aarr (c : Dev nD) : Vec Ideal S1000000x16 .f32 := V c main_v23
abbrev darr (c : Dev nD) : Vec Ideal S1000000x1 .f32 := V c main_v24
abbrev barr (c : Dev nD) : Vec Ideal S1x16 .f32 := V c main_v25
abbrev warr (c : Dev nD) : Vec Ideal S16x16 .f32 := V c main_arg5

/-- The first window's block at point `t`: rows `8000 t …` of the first array. -/
theorem blk0_apply (c : Dev nD) (t : Fin cfg1.N) (p : Fin 8000) (k : Fin 16) :
    (iblk1 (F := Ideal) V c 0 t : Vec Ideal S8000x16 .f32) (ix2 p k) = aarr V c (ix2 (row t p) k) := by
  obtain ⟨e00, e01, -, -, -, -, -, -, -, -⟩ := idx_facts t
  show aarr V c (((cfg1.win 0).blk t).view.emb (ix2 p k)) = _
  refine congrArg _ (funext fun a => Fin.ext ?_)
  match a with
  | ⟨0, _⟩ => show win1_0.index t (0 : Fin 2) * 8000 + 1 * p.val = t.val * 8000 + p.val; omega
  | ⟨1, _⟩ => show win1_0.index t (1 : Fin 2) * 16 + 1 * k.val = k.val; omega

/-- The scale column's block at point `t`: rows `8000 t …` of the column. -/
theorem blk1_apply (c : Dev nD) (t : Fin cfg1.N) (p : Fin 8000) :
    (iblk1 (F := Ideal) V c 1 t : Vec Ideal S8000x1 .f32) (ix2 p (0 : Fin 1)) = darr V c (ix2 (row t p) (0 : Fin 1)) := by
  obtain ⟨-, -, e10, e11, -, -, -, -, -, -⟩ := idx_facts t
  show darr V c (((cfg1.win 1).blk t).view.emb (ix2 p (0 : Fin 1))) = _
  refine congrArg _ (funext fun a => Fin.ext ?_)
  match a with
  | ⟨0, _⟩ => show win1_1.index t (0 : Fin 2) * 8000 + 1 * p.val = t.val * 8000 + p.val; omega
  | ⟨1, _⟩ => show win1_1.index t (1 : Fin 2) * 1 + 1 * 0 = 0; omega

/-- The bias window's block is the bias row. -/
theorem blk2_apply (c : Dev nD) (t : Fin cfg1.N) (k : Fin 16) :
    (iblk1 (F := Ideal) V c 2 t : Vec Ideal S1x16 .f32) (ix2 (0 : Fin 1) k) = barr V c (ix2 (0 : Fin 1) k) := by
  obtain ⟨-, -, -, -, e20, e21, -, -, -, -⟩ := idx_facts t
  show barr V c (((cfg1.win 2).blk t).view.emb (ix2 (0 : Fin 1) k)) = _
  refine congrArg _ (funext fun a => Fin.ext ?_)
  match a with
  | ⟨0, _⟩ => show win1_2.index t (0 : Fin 2) * 1 + 1 * 0 = 0; omega
  | ⟨1, _⟩ => show win1_2.index t (1 : Fin 2) * 16 + 1 * k.val = k.val; omega

/-- The weight window's block is the weight array. -/
theorem blk3_apply (c : Dev nD) (t : Fin cfg1.N) (k : Fin 16) (q : Fin 16) :
    (iblk1 (F := Ideal) V c 3 t : Vec Ideal S16x16 .f32) (ix2 k q) = warr V c (ix2 k q) := by
  obtain ⟨-, -, -, -, -, -, e30, e31, -, -⟩ := idx_facts t
  show warr V c (((cfg1.win 3).blk t).view.emb (ix2 k q)) = _
  refine congrArg _ (funext fun a => Fin.ext ?_)
  match a with
  | ⟨0, _⟩ => show win1_3.index t (0 : Fin 2) * 16 + 1 * k.val = k.val; omega
  | ⟨1, _⟩ => show win1_3.index t (1 : Fin 2) * 16 + 1 * q.val = q.val; omega

/-- Entry `(p, q)` of the output's block at point `t` is entry `(8000 t + p, q)` of the output array. -/
theorem out_emb (t : Fin cfg1.N) (p : Fin 8000) (q : Fin 16) :
    (((cfg1.win 4).blk t).view.emb (ix2 p q) : S1000000x16.Idx) = ix2 (row t p) q := by
  obtain ⟨-, -, -, -, -, -, -, -, e40, e41⟩ := idx_facts t
  refine funext fun a => Fin.ext ?_
  match a with
  | ⟨0, _⟩ => show win1_4.index t (0 : Fin 2) * 8000 + 1 * p.val = t.val * 8000 + p.val; omega
  | ⟨1, _⟩ => show win1_4.index t (1 : Fin 2) * 16 + 1 * q.val = q.val; omega

/-- What point `t` writes back is block `t` of the whole-array function. -/
theorem flushed_eq (c : Dev nD) (t : Fin cfg1.N) :
    (dat1 (F := Ideal) V c).flushed 4 t = ((cfg1.win 4).blk t).view.read (Elt Ideal)
      (Cert.Gcn.Spec.biasReluLinScale (V c main_v23) (V c main_v24) (V c main_v25) (V c main_arg5)) := by
  show (cfg1.win 4).cut (grid1.coords t) ((dat1 (F := Ideal) V c).after 4 t) = _
  rw [after1_4]
  unfold out1_4
  rw [View.canon_unit_zero hz]
  simp only [View.ld_unit_zero (S := S8000x16) hz, View.ld_unit_zero (S := S8000x1) hz, View.ld_unit_zero (S := S1x16) hz,
    View.ld_unit_zero (S := S16x16) hz]
  refine funext fun (j : S8000x16.Idx) => ?_
  obtain ⟨p, q, rfl⟩ : ∃ (p : Fin 8000) (q : Fin 16), j = ix2 p q := ⟨j 0, j 1, eq_ix2 j⟩
  show k1_pay1 (F := Ideal) (iblk1 V c 0 t) (iblk1 V c 1 t) (iblk1 V c 2 t) (iblk1 V c 3 t) (iblk1 V c 1 t) (ix2 p q)
    = Cert.Gcn.Spec.biasReluLinScale (V c main_v23) (V c main_v24) (V c main_v25) (V c main_arg5)
        (((cfg1.win 4).blk t).view.emb (ix2 p q))
  refine (pay_apply (iblk1 V c 0 t) (iblk1 V c 1 t) (iblk1 V c 2 t) (iblk1 V c 3 t) (iblk1 V c 1 t) p q).trans ?_
  refine Eq.trans ?_ (congrArg (Cert.Gcn.Spec.biasReluLinScale (V c main_v23) (V c main_v24) (V c main_v25) (V c main_arg5))
    (out_emb t p q)).symm
  show _ = (∑ k : Fin 16, max (aarr V c (ix2 (row t p) k) * darr V c (ix2 (row t p) (0 : Fin 1)) + barr V c (ix2 (0 : Fin 1) k)) 0
        * warr V c (ix2 k q)) * darr V c (ix2 (row t p) (0 : Fin 1))
  rw [blk1_apply V c t p]
  refine congrArg (· * _) (Finset.sum_congr rfl fun k _ => ?_)
  rw [blk0_apply V c t p k, blk2_apply V c t k, blk3_apply V c t k q]

/-- An index of the output array is in point `t`'s block iff each coordinate is in the block's range on its axis. -/
theorem mem_blk (t : Fin cfg1.N) (i : S1000000x16.Idx) :
    i ∈ ((cfg1.win 4).blk t).view.set ↔ ∀ a : Fin 2, win1_4.index t a * S8000x16.size a ≤ (i a).val ∧ (i a).val < win1_4.index t a * S8000x16.size a + S8000x16.size a := by
  show i ∈ ((View.whole main_v26).slice (win1_4.rect t)).set ↔ _
  rw [View.set_slice_whole, Rect.mem_set_unit]
  exact Iff.rfl

/-- Row `r` of the output is in the block of point `r / 8000`: the blocks tile the array. -/
theorem cover (i : S1000000x16.Idx) :
    ∃ t : Fin cfg1.N, (cfg1.win 4).flush t = true ∧ i ∈ ((cfg1.win 4).blk t).view.set := by
  have hi0 : (i 0).val < 1000000 := (i 0).isLt
  have hi1 : (i 1).val < 16 := (i 1).isLt
  obtain ⟨t, ht⟩ : ∃ t : Fin cfg1.N, t.val = (i 0).val / 8000 :=
    ⟨⟨(i 0).val / 8000, lt_of_lt_of_eq (by omega : (i 0).val / 8000 < 125) N_1.symm⟩, rfl⟩
  obtain ⟨-, -, -, -, -, -, -, -, e40, e41⟩ := idx_facts t
  refine ⟨t, flush1_4 t, ?_⟩
  rw [mem_blk]
  intro a
  match a with
  | ⟨0, _⟩ => show win1_4.index t (0 : Fin 2) * 8000 ≤ (i 0).val ∧ (i 0).val < win1_4.index t (0 : Fin 2) * 8000 + 8000; omega
  | ⟨1, _⟩ => show win1_4.index t (1 : Fin 2) * 16 ≤ (i 1).val ∧ (i 1).val < win1_4.index t (1 : Fin 2) * 16 + 16; omega

end L1

/-- THE ARRAY launch 1 leaves: each row of its first array scaled by the column's entry of that row, the bias row added,
    cut below at zero, transformed by the weight array, and scaled by the column's entry again. -/
theorem launch1_array (c : Dev nD) :
    (dat1 (F := Ideal) V c).arrAt 4 cfg1.N
      = Cert.Gcn.Spec.biasReluLinScale (V c main_v23) (V c main_v24) (V c main_v25) (V c main_arg5) :=
  (dat1 (F := Ideal) V c).arrAt_eq_of_cover 4 _ (fun t _ => L1.flushed_eq V c t) L1.cover

end Cert.KernelIdeal.LaunchValue

end
-- ==== Proof.Launch2Value.lean ====
/-
  The value of the third launch: the output array it leaves is the per-row scale and bias of a [1000000, 16] array,
  ONE function of the arrays the launch finds.

  The launch walks 125 blocks of 8000 rows. At point t the body reads rows 8000·t … 8000·t + 7999 of the array a
  and of the column dv, and the one row b, and stores a[u, j] · dv[u] + b[j] over the output's block of the same
  rows. The blocks tile the rows, so the output array ends as that function everywhere.
-/
import proofs.«402039_j30167850287488_3_alg».proof.Proof.Gen.KernelIdeal.Frame
import proofs.«402039_j30167850287488_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LaunchValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The body's arithmetic at an index -/

/-- A column `[a, 1]` broadcast to `[a, b]` reads, at `(p, c)`, the column's entry of row `p`. -/
theorem scaleBias_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The stored block at row `p`, column `q`: the loaded block's entry times the column's entry of row `p`, plus
    the row's entry of column `q`. -/
theorem scaleBias_payload (x0 : Vec Ideal S8000x16 .f32) (x1 : Vec Ideal S8000x1 .f32) (x2 : Vec Ideal S1x16 .f32)
    (p : Fin 8000) (q : Fin 16) :
    k2_pay1 (F := Ideal) x0 x1 x2 (ix2 p q) = x0 (ix2 p q) * x1 (ix2 p (0 : Fin 1)) + x2 (ix2 (0 : Fin 1) q) := by
  unfold k2_pay1
  rw [addf_apply, mulf_apply, shapeCast_self, shapeCast_self, shapeCast_self,
    scaleBias_column_apply, broadcastTo_1b_ab_apply]

/-! ## The blocks -/

/-- The whole-block rectangles start at the origin. -/
theorem scaleBias_origin : (![0, 0] : Fin 2 → Nat) = fun _ => 0 :=
  funext fun a => by match a with | ⟨0, _⟩ => rfl | ⟨1, _⟩ => rfl

/-- The index maps over the grid: the three row-tiled windows sit at block `(t, 0)`, the bias row at `(0, 0)`. -/
theorem scaleBias_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The scaled array's block at point `t` sits where the output's block sits: entry `(p, q)` of the one is the
    array at the place of entry `(p, q)` of the other. -/
theorem scaleBias_rows_block (c : Dev nD) (t : Fin cfg2.N) (p : Fin 8000) (q : Fin 16) :
    iblk2 V c 0 t (ix2 p q) = V c main_v36 (((cfg2.win 3).blk t).view.emb (ix2 p q)) := by
  obtain ⟨e0, e1, -, -, -, -, e6, e7⟩ := scaleBias_index t
  show V c main_v36 (((cfg2.win 0).blk t).view.emb (ix2 p q)) = V c main_v36 (((cfg2.win 3).blk t).view.emb (ix2 p q))
  refine congrArg (V c main_v36) (funext fun a => Fin.ext ?_)
  match a with
  | ⟨0, _⟩ => show win2_0.index t (0 : Fin 2) * 8000 + 1 * p.val = win2_3.index t (0 : Fin 2) * 8000 + 1 * p.val; omega
  | ⟨1, _⟩ => show win2_0.index t (1 : Fin 2) * 16 + 1 * q.val = win2_3.index t (1 : Fin 2) * 16 + 1 * q.val; omega

/-- The column's block at point `t` holds the rows of the output's block: its entry `p` is the column at the row of
    the output block's entry `(p, q)`. -/
theorem scaleBias_column_block (c : Dev nD) (t : Fin cfg2.N) (p : Fin 8000) (q : Fin 16) :
    iblk2 V c 1 t (ix2 p (0 : Fin 1))
      = V c main_v37 (ix2 ((((cfg2.win 3).blk t).view.emb (ix2 p q)) 0) (0 : Fin 1)) := by
  obtain ⟨-, -, e2, e3, -, -, e6, e7⟩ := scaleBias_index t
  show V c main_v37 (((cfg2.win 1).blk t).view.emb (ix2 p (0 : Fin 1))) = _
  refine congrArg (V c main_v37) (funext fun a => Fin.ext ?_)
  match a with
  | ⟨0, _⟩ => show win2_1.index t (0 : Fin 2) * 8000 + 1 * p.val = win2_3.index t (0 : Fin 2) * 8000 + 1 * p.val; omega
  | ⟨1, _⟩ => show win2_1.index t (1 : Fin 2) * 1 + 1 * 0 = 0; omega

/-- The bias row's one block is the whole row: its entry `q` is the row at the column of the output block's entry
    `(p, q)`. -/
theorem scaleBias_bias_block (c : Dev nD) (t : Fin cfg2.N) (p : Fin 8000) (q : Fin 16) :
    iblk2 V c 2 t (ix2 (0 : Fin 1) q)
      = V c main_v38 (ix2 (0 : Fin 1) ((((cfg2.win 3).blk t).view.emb (ix2 p q)) 1)) := by
  obtain ⟨-, -, -, -, e4, e5, e6, e7⟩ := scaleBias_index t
  show V c main_v38 (((cfg2.win 2).blk t).view.emb (ix2 (0 : Fin 1) q)) = _
  refine congrArg (V c main_v38) (funext fun a => Fin.ext ?_)
  match a with
  | ⟨0, _⟩ => show win2_2.index t (0 : Fin 2) * 1 + 1 * 0 = 0; omega
  | ⟨1, _⟩ => show win2_2.index t (1 : Fin 2) * 16 + 1 * q.val = win2_3.index t (1 : Fin 2) * 16 + 1 * q.val; omega

/-- What point `t` writes back is block `t` of the per-row scale and bias of the arrays the launch finds. -/
theorem scaleBias_flushed (c : Dev nD) (t : Fin cfg2.N) :
    (dat2 (F := Ideal) V c).flushed 3 t = ((cfg2.win 3).blk t).view.read (Elt Ideal)
      (Cert.Gcn.Spec.scaleBias (V c main_v36) (V c main_v37) (V c main_v38)) := by
  show (cfg2.win 3).cut (grid2.coords t) ((dat2 (F := Ideal) V c).after 3 t) = _
  rw [after2_3]
  unfold out2_3
  rw [View.canon_unit_zero scaleBias_origin]
  simp only [View.ld_unit_zero (S := S8000x16) scaleBias_origin, View.ld_unit_zero (S := S8000x1) scaleBias_origin,
    View.ld_unit_zero (S := S1x16) scaleBias_origin]
  funext j
  obtain ⟨p, q, rfl⟩ : ∃ (p : Fin 8000) (q : Fin 16), j = ix2 p q := ⟨j 0, j 1, eq_ix2 j⟩
  show k2_pay1 (F := Ideal) (iblk2 V c 0 t) (iblk2 V c 1 t) (iblk2 V c 2 t) (ix2 p q)
    = Cert.Gcn.Spec.scaleBias (V c main_v36) (V c main_v37) (V c main_v38) (((cfg2.win 3).blk t).view.emb (ix2 p q))
  refine (scaleBias_payload (iblk2 V c 0 t) (iblk2 V c 1 t) (iblk2 V c 2 t) p q).trans ?_
  exact congrArg₂ (· + ·) (congrArg₂ (· * ·) (scaleBias_rows_block V c t p q) (scaleBias_column_block V c t p q))
    (scaleBias_bias_block V c t p q)

/-- A row and column of the array lie in point `t`'s block iff each coordinate lies in the block's range. -/
theorem scaleBias_mem_block (t : Fin cfg2.N) (i : S1000000x16.Idx) :
    i ∈ ((cfg2.win 3).blk t).view.set ↔ ∀ a : Fin 2, win2_3.index t a * S8000x16.size a ≤ (i a).val
      ∧ (i a).val < win2_3.index t a * S8000x16.size a + S8000x16.size a := by
  show i ∈ ((View.whole main_v39).slice (win2_3.rect t)).set ↔ _
  rw [View.set_slice_whole, Rect.mem_set_unit]
  exact Iff.rfl

/-- Every entry of the array is written back: row `r` lies in the block of point `r / 8000`. -/
theorem scaleBias_cover (i : S1000000x16.Idx) :
    ∃ t : Fin cfg2.N, (cfg2.win 3).flush t = true ∧ i ∈ ((cfg2.win 3).blk t).view.set := by
  have hi0 : (i 0).val < 1000000 := (i 0).isLt
  have hi1 : (i 1).val < 16 := (i 1).isLt
  have hN : grid2.N = 125 := N_2
  obtain ⟨t, ht⟩ : ∃ t : Fin cfg2.N, t.val = (i 0).val / 8000 :=
    ⟨⟨(i 0).val / 8000, by show (i 0).val / 8000 < grid2.N; omega⟩, rfl⟩
  refine ⟨t, flush2_3 t, ?_⟩
  rw [scaleBias_mem_block]
  obtain ⟨-, -, -, -, -, -, e6, e7⟩ := scaleBias_index t
  intro a
  match a with
  | ⟨0, _⟩ =>
    show win2_3.index t (0 : Fin 2) * 8000 ≤ (i 0).val ∧ (i 0).val < win2_3.index t (0 : Fin 2) * 8000 + 8000
    omega
  | ⟨1, _⟩ =>
    show win2_3.index t (1 : Fin 2) * 16 ≤ (i 1).val ∧ (i 1).val < win2_3.index t (1 : Fin 2) * 16 + 16
    omega

/-! ## The array -/

/-- The output array the launch leaves is the per-row scale and bias of the arrays it finds. -/
theorem launch2_array (c : Dev nD) :
    (dat2 (F := Ideal) V c).arrAt 3 cfg2.N = Cert.Gcn.Spec.scaleBias (V c main_v36) (V c main_v37) (V c main_v38) :=
  (dat2 (F := Ideal) V c).arrAt_eq_of_cover 3 _ (fun t _ => scaleBias_flushed V c t) scaleBias_cover

end Cert.KernelIdeal.LaunchValue

end
-- ==== Proof.Launch3Value.lean ====
/-
  The value of the fourth launch: the output array it leaves is the two-layer perceptron of the rectified pooled
  rows, ONE function of the arrays the launch finds.

  The launch walks 5 blocks of 8000 rows of a [40000, 16] array p. At point t the body reads rows
  8000·t … 8000·t + 7999 of p and the whole of the weights w1 [16, 100], w2 [100, 27] and of the bias rows
  b1 [1, 100], b2 [1, 27], and stores, over the output's block of the same rows,
    (∑ₖ max((∑ₗ max(p[g, l], 0) · w1[l, k]) + b1[k], 0) · w2[k, j]) + b2[j].
  Each product of matrices is read at an index as the sum over its one contracted axis; the accumulator it adds
  to is the zero splat. The blocks tile the rows, so the output array ends as that function everywhere.
-/
import proofs.«402039_j30167850287488_3_alg».proof.Proof.Gen.KernelIdeal.Frame
import proofs.«402039_j30167850287488_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.LaunchValue

open Cert.KernelIdeal Cert.KernelIdeal.Gen Idealize.ShloMosaic Idealize.ShloMosaic.TcCoe Idealize.SL.Sem
open Idealize.ShloMosaic.ValueIdx

variable (V : (c : Dev nD) → (b : Ref sig .tc) → Buf (Elt Ideal) ((c : Thread nD τ).loc b))

/-! ## The first product: rectified rows [8000, 16] by the weights [16, 100] -/

/-- The left operand's row is the output's row. -/
theorem head_hidden_lhs_0 (i : S8000x100.Idx) (q : dot_S8000x16_S16x100_S8000x100_1_0_0_1_n_n.contr.Idx) :
    (dot_S8000x16_S16x100_S8000x100_1_0_0_1_n_n.lhsIdx i q 0).val = (i 0).val := by
  unfold DotDims.lhsIdx
  rw [dif_neg (show ¬(0 : Fin S8000x16.rank) ∈ dot_S8000x16_S16x100_S8000x100_1_0_0_1_n_n.lhsBatch by decide), dif_pos (show (0 : Fin S8000x16.rank) ∈ dot_S8000x16_S16x100_S8000x100_1_0_0_1_n_n.lhsNonContracting by decide)]
  rfl
/-- The left operand's column is the contracted position. -/
theorem head_hidden_lhs_1 (i : S8000x100.Idx) (q : dot_S8000x16_S16x100_S8000x100_1_0_0_1_n_n.contr.Idx) :
    (dot_S8000x16_S16x100_S8000x100_1_0_0_1_n_n.lhsIdx i q 1).val = (q ⟨0, by decide⟩).val :=
  dot_S8000x16_S16x100_S8000x100_1_0_0_1_n_n.lhsIdx_val_of_single rfl i q
/-- The right operand's row is the contracted position. -/
theorem head_hidden_rhs_0 (i : S8000x100.Idx) (q : dot_S8000x16_S16x100_S8000x100_1_0_0_1_n_n.contr.Idx) :
    (dot_S8000x16_S16x100_S8000x100_1_0_0_1_n_n.rhsIdx i q 0).val = (q ⟨0, by decide⟩).val :=
  dot_S8000x16_S16x100_S8000x100_1_0_0_1_n_n.rhsIdx_val_of_single rfl i q
/-- The right operand's column is the output's column. -/
theorem head_hidden_rhs_1 (i : S8000x100.Idx) (q : dot_S8000x16_S16x100_S8000x100_1_0_0_1_n_n.contr.Idx) :
    (dot_S8000x16_S16x100_S8000x100_1_0_0_1_n_n.rhsIdx i q 1).val = (i 1).val := by
  unfold DotDims.rhsIdx
  rw [dif_neg (show ¬(1 : Fin S16x100.rank) ∈ dot_S8000x16_S16x100_S8000x100_1_0_0_1_n_n.rhsBatch by decide), dif_pos (show (1 : Fin S16x100.rank) ∈ dot_S8000x16_S16x100_S8000x100_1_0_0_1_n_n.rhsNonContracting by decide)]
  rfl

/-- The first product into the zero splat, at row `p` and column `k`: the sum over the 16 contracted positions. -/
theorem head_hidden_apply (x : FVec Ideal S8000x16 .f32) (w : FVec Ideal S16x100 .f32) (p : Fin 8000) (k : Fin 100) :
    matmul dot_S8000x16_S16x100_S8000x100_1_0_0_1_n_n none x w (constant (F := Ideal) S8000x100 .f32 0x00000000#32) (ix2 p k)
      = ∑ l : Fin 16, x (ix2 p l) * w (ix2 l k) := by
  simp only [matmul]
  rw [Ideal.matmul_constant_zero_apply, ← Equiv.sum_comp (contrEquiv1 dot_S8000x16_S16x100_S8000x100_1_0_0_1_n_n 16 rfl rfl).symm]
  refine Finset.sum_congr rfl fun l _ => ?_
  have hl := contrEquiv1_symm_val dot_S8000x16_S16x100_S8000x100_1_0_0_1_n_n 16 rfl rfl l
  have el : dot_S8000x16_S16x100_S8000x100_1_0_0_1_n_n.lhsIdx (ix2 p k) ((contrEquiv1 dot_S8000x16_S16x100_S8000x100_1_0_0_1_n_n 16 rfl rfl).symm l) = ix2 p l := funext fun a => Fin.ext (by
    match a with
    | ⟨0, _⟩ => exact head_hidden_lhs_0 _ _
    | ⟨1, _⟩ => exact (head_hidden_lhs_1 _ _).trans hl)
  have er : dot_S8000x16_S16x100_S8000x100_1_0_0_1_n_n.rhsIdx (ix2 p k) ((contrEquiv1 dot_S8000x16_S16x100_S8000x100_1_0_0_1_n_n 16 rfl rfl).symm l) = ix2 l k := funext fun a => Fin.ext (by
    match a with
    | ⟨0, _⟩ => exact (head_hidden_rhs_0 _ _).trans hl
    | ⟨1, _⟩ => exact head_hidden_rhs_1 _ _)
  rw [el, er]

/-! ## The second product: the hidden rows [8000, 100] by the weights [100, 27] -/

/-- The left operand's row is the output's row. -/
theorem head_out_lhs_0 (i : S8000x27.Idx) (q : dot_S8000x100_S100x27_S8000x27_1_0_0_1_n_n.contr.Idx) :
    (dot_S8000x100_S100x27_S8000x27_1_0_0_1_n_n.lhsIdx i q 0).val = (i 0).val := by
  unfold DotDims.lhsIdx
  rw [dif_neg (show ¬(0 : Fin S8000x100.rank) ∈ dot_S8000x100_S100x27_S8000x27_1_0_0_1_n_n.lhsBatch by decide), dif_pos (show (0 : Fin S8000x100.rank) ∈ dot_S8000x100_S100x27_S8000x27_1_0_0_1_n_n.lhsNonContracting by decide)]
  rfl
/-- The left operand's column is the contracted position. -/
theorem head_out_lhs_1 (i : S8000x27.Idx) (q : dot_S8000x100_S100x27_S8000x27_1_0_0_1_n_n.contr.Idx) :
    (dot_S8000x100_S100x27_S8000x27_1_0_0_1_n_n.lhsIdx i q 1).val = (q ⟨0, by decide⟩).val :=
  dot_S8000x100_S100x27_S8000x27_1_0_0_1_n_n.lhsIdx_val_of_single rfl i q
/-- The right operand's row is the contracted position. -/
theorem head_out_rhs_0 (i : S8000x27.Idx) (q : dot_S8000x100_S100x27_S8000x27_1_0_0_1_n_n.contr.Idx) :
    (dot_S8000x100_S100x27_S8000x27_1_0_0_1_n_n.rhsIdx i q 0).val = (q ⟨0, by decide⟩).val :=
  dot_S8000x100_S100x27_S8000x27_1_0_0_1_n_n.rhsIdx_val_of_single rfl i q
/-- The right operand's column is the output's column. -/
theorem head_out_rhs_1 (i : S8000x27.Idx) (q : dot_S8000x100_S100x27_S8000x27_1_0_0_1_n_n.contr.Idx) :
    (dot_S8000x100_S100x27_S8000x27_1_0_0_1_n_n.rhsIdx i q 1).val = (i 1).val := by
  unfold DotDims.rhsIdx
  rw [dif_neg (show ¬(1 : Fin S100x27.rank) ∈ dot_S8000x100_S100x27_S8000x27_1_0_0_1_n_n.rhsBatch by decide), dif_pos (show (1 : Fin S100x27.rank) ∈ dot_S8000x100_S100x27_S8000x27_1_0_0_1_n_n.rhsNonContracting by decide)]
  rfl

/-- The second product into the zero splat, at row `p` and column `q`: the sum over the 100 contracted positions. -/
theorem head_out_apply (x : FVec Ideal S8000x100 .f32) (w : FVec Ideal S100x27 .f32) (p : Fin 8000) (q : Fin 27) :
    matmul dot_S8000x100_S100x27_S8000x27_1_0_0_1_n_n none x w (constant (F := Ideal) S8000x27 .f32 0x00000000#32) (ix2 p q)
      = ∑ k : Fin 100, x (ix2 p k) * w (ix2 k q) := by
  simp only [matmul]
  rw [Ideal.matmul_constant_zero_apply, ← Equiv.sum_comp (contrEquiv1 dot_S8000x100_S100x27_S8000x27_1_0_0_1_n_n 100 rfl rfl).symm]
  refine Finset.sum_congr rfl fun k _ => ?_
  have hk := contrEquiv1_symm_val dot_S8000x100_S100x27_S8000x27_1_0_0_1_n_n 100 rfl rfl k
  have el : dot_S8000x100_S100x27_S8000x27_1_0_0_1_n_n.lhsIdx (ix2 p q) ((contrEquiv1 dot_S8000x100_S100x27_S8000x27_1_0_0_1_n_n 100 rfl rfl).symm k) = ix2 p k := funext fun a => Fin.ext (by
    match a with
    | ⟨0, _⟩ => exact head_out_lhs_0 _ _
    | ⟨1, _⟩ => exact (head_out_lhs_1 _ _).trans hk)
  have er : dot_S8000x100_S100x27_S8000x27_1_0_0_1_n_n.rhsIdx (ix2 p q) ((contrEquiv1 dot_S8000x100_S100x27_S8000x27_1_0_0_1_n_n 100 rfl rfl).symm k) = ix2 k q := funext fun a => Fin.ext (by
    match a with
    | ⟨0, _⟩ => exact (head_out_rhs_0 _ _).trans hk
    | ⟨1, _⟩ => exact head_out_rhs_1 _ _)
  rw [el, er]

/-! ## The body's arithmetic at an index -/

/-- The rectifier: the maximum against the splat of the zero word is the maximum against zero. -/
theorem head_relu_apply {s : Shape} (x : FVec Ideal s .f32) (i : s.Idx) :
    maximumf x (broadcast s (Scalar.ofBits (F := Ideal) .f32 0x00000000#32)) i = max (x i) 0 := by
  show max (x i) (Ideal.ofBits .f32 0x00000000#32) = _
  rw [Ideal.ofBits_zero_f32]

/-- The stored block at row `p`, column `q`: the rectified row through the first weights plus the first bias,
    rectified, through the second weights, plus the second bias. -/
theorem head_payload (x0 : Vec Ideal S8000x16 .f32) (x1 : Vec Ideal S16x100 .f32) (x2 : Vec Ideal S1x100 .f32)
    (x3 : Vec Ideal S100x27 .f32) (x4 : Vec Ideal S1x27 .f32) (p : Fin 8000) (q : Fin 27) :
    k3_pay1 (F := Ideal) x0 x1 x2 x3 x4 (ix2 p q)
      = (∑ k : Fin 100, max ((∑ l : Fin 16, max (x0 (ix2 p l)) 0 * x1 (ix2 l k)) + x2 (ix2 (0 : Fin 1) k)) 0 * x3 (ix2 k q))
        + x4 (ix2 (0 : Fin 1) q) := by
  unfold k3_pay1
  simp only [shapeCast_self]
  rw [addf_apply, head_out_apply, broadcastTo_1b_ab_apply]
  refine congrArg (· + x4 (ix2 (0 : Fin 1) q)) (Finset.sum_congr rfl fun k _ => ?_)
  refine congrArg (· * x3 (ix2 k q)) ?_
  rw [head_relu_apply, addf_apply, head_hidden_apply, broadcastTo_1b_ab_apply]
  refine congrArg (fun s => max (s + x2 (ix2 (0 : Fin 1) k)) 0) (Finset.sum_congr rfl fun l _ => ?_)
  rw [head_relu_apply]

/-! ## The blocks -/

/-- The whole-block rectangles start at the origin. -/
theorem head_origin : (![0, 0] : Fin 2 → Nat) = fun _ => 0 :=
  funext fun a => by match a with | ⟨0, _⟩ => rfl | ⟨1, _⟩ => rfl

/-- The index maps over the grid: the pooled rows and the output sit at block `(t, 0)`, the two weight arrays and
    the two bias rows at `(0, 0)`. -/
theorem head_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The pooled rows' block at point `t` holds the rows of the output's block: its entry `(p, l)` is the array at the
    row of the output block's entry `(p, q)`, column `l`. -/
theorem head_rows_block (c : Dev nD) (t : Fin cfg3.N) (p : Fin 8000) (q : Fin 27) (l : Fin 16) :
    iblk3 V c 0 t (ix2 p l) = V c main_v42 (ix2 ((((cfg3.win 5).blk t).view.emb (ix2 p q)) 0) l) := by
  obtain ⟨e0, e1, -, -, -, -, -, -, -, -, e10, e11⟩ := head_index t
  show V c main_v42 (((cfg3.win 0).blk t).view.emb (ix2 p l)) = _
  refine congrArg (V c main_v42) (funext fun a => Fin.ext ?_)
  match a with
  | ⟨0, _⟩ => show win3_0.index t (0 : Fin 2) * 8000 + 1 * p.val = win3_5.index t (0 : Fin 2) * 8000 + 1 * p.val; omega
  | ⟨1, _⟩ => show win3_0.index t (1 : Fin 2) * 16 + 1 * l.val = l.val; omega

/-- The first weights' one block is the whole array. -/
theorem head_w1_block (c : Dev nD) (t : Fin cfg3.N) (l : Fin 16) (k : Fin 100) :
    iblk3 V c 1 t (ix2 l k) = V c main_arg7 (ix2 l k) := by
  obtain ⟨-, -, e2, e3, -, -, -, -, -, -, -, -⟩ := head_index t
  show V c main_arg7 (((cfg3.win 1).blk t).view.emb (ix2 l k)) = _
  refine congrArg (V c main_arg7) (funext fun a => Fin.ext ?_)
  match a with
  | ⟨0, _⟩ => show win3_1.index t (0 : Fin 2) * 16 + 1 * l.val = l.val; omega
  | ⟨1, _⟩ => show win3_1.index t (1 : Fin 2) * 100 + 1 * k.val = k.val; omega

/-- The first bias row's one block is the whole row. -/
theorem head_b1_block (c : Dev nD) (t : Fin cfg3.N) (k : Fin 100) :
    iblk3 V c 2 t (ix2 (0 : Fin 1) k) = V c main_v43 (ix2 (0 : Fin 1) k) := by
  obtain ⟨-, -, -, -, e4, e5, -, -, -, -, -, -⟩ := head_index t
  show V c main_v43 (((cfg3.win 2).blk t).view.emb (ix2 (0 : Fin 1) k)) = _
  refine congrArg (V c main_v43) (funext fun a => Fin.ext ?_)
  match a with
  | ⟨0, _⟩ => show win3_2.index t (0 : Fin 2) * 1 + 1 * 0 = 0; omega
  | ⟨1, _⟩ => show win3_2.index t (1 : Fin 2) * 100 + 1 * k.val = k.val; omega

/-- The second weights' one block is the whole array: its entry `(k, q)` is the array at row `k` and the column of
    the output block's entry `(p, q)`. -/
theorem head_w2_block (c : Dev nD) (t : Fin cfg3.N) (p : Fin 8000) (q : Fin 27) (k : Fin 100) :
    iblk3 V c 3 t (ix2 k q) = V c main_arg9 (ix2 k ((((cfg3.win 5).blk t).view.emb (ix2 p q)) 1)) := by
  obtain ⟨-, -, -, -, -, -, e6, e7, -, -, e10, e11⟩ := head_index t
  show V c main_arg9 (((cfg3.win 3).blk t).view.emb (ix2 k q)) = _
  refine congrArg (V c main_arg9) (funext fun a => Fin.ext ?_)
  match a with
  | ⟨0, _⟩ => show win3_3.index t (0 : Fin 2) * 100 + 1 * k.val = k.val; omega
  | ⟨1, _⟩ => show win3_3.index t (1 : Fin 2) * 27 + 1 * q.val = win3_5.index t (1 : Fin 2) * 27 + 1 * q.val; omega

/-- The second bias row's one block is the whole row: its entry `q` is the row at the column of the output block's
    entry `(p, q)`. -/
theorem head_b2_block (c : Dev nD) (t : Fin cfg3.N) (p : Fin 8000) (q : Fin 27) :
    iblk3 V c 4 t (ix2 (0 : Fin 1) q) = V c main_v44 (ix2 (0 : Fin 1) ((((cfg3.win 5).blk t).view.emb (ix2 p q)) 1)) := by
  obtain ⟨-, -, -, -, -, -, -, -, e8, e9, e10, e11⟩ := head_index t
  show V c main_v44 (((cfg3.win 4).blk t).view.emb (ix2 (0 : Fin 1) q)) = _
  refine congrArg (V c main_v44) (funext fun a => Fin.ext ?_)
  match a with
  | ⟨0, _⟩ => show win3_4.index t (0 : Fin 2) * 1 + 1 * 0 = 0; omega
  | ⟨1, _⟩ => show win3_4.index t (1 : Fin 2) * 27 + 1 * q.val = win3_5.index t (1 : Fin 2) * 27 + 1 * q.val; omega

/-- What point `t` writes back is block `t` of the perceptron of the arrays the launch finds. -/
theorem head_flushed (c : Dev nD) (t : Fin cfg3.N) :
    (dat3 (F := Ideal) V c).flushed 5 t = ((cfg3.win 5).blk t).view.read (Elt Ideal)
      (Cert.Gcn.Spec.head (V c main_v42) (V c main_arg7) (V c main_v43) (V c main_arg9) (V c main_v44)) := by
  show (cfg3.win 5).cut (grid3.coords t) ((dat3 (F := Ideal) V c).after 5 t) = _
  rw [after3_5]
  unfold out3_5
  rw [View.canon_unit_zero head_origin]
  simp only [View.ld_unit_zero (S := S8000x16) head_origin, View.ld_unit_zero (S := S16x100) head_origin,
    View.ld_unit_zero (S := S1x100) head_origin, View.ld_unit_zero (S := S100x27) head_origin,
    View.ld_unit_zero (S := S1x27) head_origin]
  funext j
  obtain ⟨p, q, rfl⟩ : ∃ (p : Fin 8000) (q : Fin 27), j = ix2 p q := ⟨j 0, j 1, eq_ix2 j⟩
  show k3_pay1 (F := Ideal) (iblk3 V c 0 t) (iblk3 V c 1 t) (iblk3 V c 2 t) (iblk3 V c 3 t) (iblk3 V c 4 t) (ix2 p q)
    = Cert.Gcn.Spec.head (V c main_v42) (V c main_arg7) (V c main_v43) (V c main_arg9) (V c main_v44)
        (((cfg3.win 5).blk t).view.emb (ix2 p q))
  refine (head_payload (iblk3 V c 0 t) (iblk3 V c 1 t) (iblk3 V c 2 t) (iblk3 V c 3 t) (iblk3 V c 4 t) p q).trans ?_
  unfold Cert.Gcn.Spec.head
  exact congrArg₂ (· + ·)
    (Finset.sum_congr rfl fun k _ => congrArg₂ (· * ·)
      (congrArg (fun s => max s 0) (congrArg₂ (· + ·)
        (Finset.sum_congr rfl fun l _ => congrArg₂ (· * ·)
          (congrArg (fun s => max s 0) (head_rows_block V c t p q l)) (head_w1_block V c t l k))
        (head_b1_block V c t k)))
      (head_w2_block V c t p q k))
    (head_b2_block V c t p q)

/-- A row and column of the array lie in point `t`'s block iff each coordinate lies in the block's range. -/
theorem head_mem_block (t : Fin cfg3.N) (i : S40000x27.Idx) :
    i ∈ ((cfg3.win 5).blk t).view.set ↔ ∀ a : Fin 2, win3_5.index t a * S8000x27.size a ≤ (i a).val
      ∧ (i a).val < win3_5.index t a * S8000x27.size a + S8000x27.size a := by
  show i ∈ ((View.whole main_v45).slice (win3_5.rect t)).set ↔ _
  rw [View.set_slice_whole, Rect.mem_set_unit]
  exact Iff.rfl

/-- Every entry of the array is written back: row `r` lies in the block of point `r / 8000`. -/
theorem head_cover (i : S40000x27.Idx) :
    ∃ t : Fin cfg3.N, (cfg3.win 5).flush t = true ∧ i ∈ ((cfg3.win 5).blk t).view.set := by
  have hi0 : (i 0).val < 40000 := (i 0).isLt
  have hi1 : (i 1).val < 27 := (i 1).isLt
  have hN : grid3.N = 5 := N_3
  obtain ⟨t, ht⟩ : ∃ t : Fin cfg3.N, t.val = (i 0).val / 8000 :=
    ⟨⟨(i 0).val / 8000, by show (i 0).val / 8000 < grid3.N; omega⟩, rfl⟩
  refine ⟨t, flush3_5 t, ?_⟩
  rw [head_mem_block]
  obtain ⟨-, -, -, -, -, -, -, -, -, -, e10, e11⟩ := head_index t
  intro a
  match a with
  | ⟨0, _⟩ =>
    show win3_5.index t (0 : Fin 2) * 8000 ≤ (i 0).val ∧ (i 0).val < win3_5.index t (0 : Fin 2) * 8000 + 8000
    omega
  | ⟨1, _⟩ =>
    show win3_5.index t (1 : Fin 2) * 27 ≤ (i 1).val ∧ (i 1).val < win3_5.index t (1 : Fin 2) * 27 + 27
    omega

/-! ## The array -/

/-- The output array the launch leaves is the perceptron of the arrays it finds. -/
theorem launch3_array (c : Dev nD) :
    (dat3 (F := Ideal) V c).arrAt 5 cfg3.N = Cert.Gcn.Spec.head (V c main_v42) (V c main_arg7) (V c main_v43) (V c main_arg9) (V c main_v44) :=
  (dat3 (F := Ideal) V c).arrAt_eq_of_cover 5 _ (fun t _ => head_flushed V c t) head_cover

end Cert.KernelIdeal.LaunchValue

end
-- ==== Proof.Stretches.lean ====
/-
  The host side of the kernel program, stretch by stretch.

  Between its four dense launches the program computes, on the host: the message index words (the edge list's two rows,
  each followed by every node's own index, so that every node sends itself a message); the degree of every node, a sum
  of ones over the messages that land on it, and its inverse square root; a gather of rows by the source words (a
  negative word first wrapped by the row count) followed by a scatter-add of the gathered rows by the destination words;
  and at the end a scatter-add of node rows into graph rows. Each of these is named here as one function of whole
  arrays, and each stretch of host operations is read back: what every buffer that a later launch or stretch reads
  holds after the stretch, as those functions of what the buffers held before it; and that the buffers the stretch does
  not write keep their contents.
-/
import proofs.«402039_j30167850287488_3_alg».proof.Proof.Gen.KernelIdeal.Launch
import Idealize.ShloMosaic.Lib.StableHlo.Run
import Idealize.ShloMosaic.PureOps.Ideal

set_option maxRecDepth 65536

noncomputable section

namespace Cert.KernelIdeal.Stage

open Cert.KernelIdeal Cert.KernelIdeal.Gen Idealize.ShloMosaic Idealize.ShloMosaic.TcCoe Idealize.SL.Sem Idealize.ShloMosaic.StableHlo

/-- The contents of a buffer of a shape and element type, at the extended reals. -/
abbrev C (S : Shape) (e : EltTy) : Type := (⟨S, e⟩ : BufTy).Contents (Elt Ideal)

/-- The messages' source words: row 0 of the edge list, then every node's own index. -/
def srcIdx (x1 : C S2x4000000 .i32) : C S5000000 .i32 :=
  concatenate S5000000 0 [⟨S4000000, shapeCast _ (extractStridedSlice S1x4000000 ![0, 0] x1 slices_S2x4000000_S1x4000000_0_0) shapeCasts_S1x4000000_S4000000⟩, ⟨S1000000, iotaInDim S1000000 32 0⟩] concatenates_S4000000_S1000000_S5000000_d0

/-- The messages' destination words: row 1 of the edge list, then every node's own index. -/
def dstIdx (x1 : C S2x4000000 .i32) : C S5000000 .i32 :=
  concatenate S5000000 0 [⟨S4000000, shapeCast _ (extractStridedSlice S1x4000000 ![1, 0] x1 slices_S2x4000000_S1x4000000_1_0) shapeCasts_S1x4000000_S4000000⟩, ⟨S1000000, iotaInDim S1000000 32 0⟩] concatenates_S4000000_S1000000_S5000000_d0

/-- A vector of index words as the one-column index array a gather or scatter takes. -/
def asColumn (d : C S5000000 .i32) : C S5000000x1 .i32 :=
  broadcastInDim S5000000x1 ![0] bcast_S5000000_S5000000x1_0 d

/-- Every node's degree: zero plus a one for every message whose destination word reads the node. -/
def degree (d : C S5000000 .i32) : C S1000000 .f32 :=
  Host.scatterAdd (F := Ideal) scatter_S1000000_S5000000x1_S5000000_n_0_0_1
    (broadcastInDim S1000000 ![] bcast_S_S1000000 (constant (F := Ideal) S_ .f32 0x00000000#32))
    (asColumn d)
    (broadcastInDim S5000000 ![] bcast_S_S5000000 (constant (F := Ideal) S_ .f32 0x3F800000#32))

/-- The inverse square root of every node's degree. -/
def invSqrtDeg (d : C S5000000 .i32) : C S1000000 .f32 := Host.rsqrt (F := Ideal) (φ := .f32) (degree d)

/-- A vector over the nodes as a one-column array. -/
def nodeColumn (v : C S1000000 .f32) : C S1000000x1 .f32 := shapeCast _ v shapeCasts_S1000000_S1000000x1

/-- The gather's index column: a negative word wrapped by the row count, the others as they are. -/
def wrapIdx (s : C S5000000 .i32) : C S5000000x1 .i32 :=
  asColumn (select (cmpi .slt s (broadcastInDim S5000000 ![] bcast_S_S5000000 (constantI S_ 32 0#32)))
    (addi s (broadcastInDim S5000000 ![] bcast_S_S5000000 (constantI S_ 32 1000000#32))) s)

/-- One round of message passing on rows already scaled at their source: gather the rows at the source words,
    scatter-add them into zeros at the destination words. -/
def aggregate (h : C S1000000x16 .f32) (s d : C S5000000 .i32) : C S1000000x16 .f32 :=
  Host.scatterAdd (F := Ideal) scatter_S1000000x16_S5000000x1_S5000000x16_1_0_0_1
    (broadcastInDim S1000000x16 ![] bcast_S_S1000000x16 (constant (F := Ideal) S_ .f32 0x00000000#32))
    (asColumn d)
    (Host.gather gather_S1000000x16_S5000000x1_S5000000x16_1_0_n_n_0_1_116 h (wrapIdx s))

/-- The sum of the node rows of every graph: a scatter-add into zeros at the nodes' graph words. -/
def pool (o : C S1000000x16 .f32) (g : C S1000000 .i32) : C S40000x16 .f32 :=
  Host.scatterAdd (F := Ideal) scatter_S40000x16_S1000000x1_S1000000x16_1_0_0_1
    (broadcastInDim S40000x16 ![] bcast_S_S40000x16 (constant (F := Ideal) S_ .f32 0x00000000#32))
    (broadcastInDim S1000000x1 ![0] bcast_S1000000_S1000000x1_0 g)
    o

/-- A bias vector as a one-row array. -/
def row16 (b : C S16 .f32) : C S1x16 .f32 := shapeCast _ b shapeCasts_S16_S1x16
def row100 (b : C S100 .f32) : C S1x100 .f32 := shapeCast _ b shapeCasts_S100_S1x100
def row27 (b : C S27 .f32) : C S1x27 .f32 := shapeCast _ b shapeCasts_S27_S1x27

variable (W : Valuation τ sig (Elt Ideal))

/-! ## The stretch before the first launch -/

theorem stretch0_src : after (hostOps0 (F := Ideal)) W (Proc.devRef .tc main_v5) = srcIdx (W (Proc.devRef .tc main_arg1)) := by
  after_results <;> rfl
theorem stretch0_dst : after (hostOps0 (F := Ideal)) W (Proc.devRef .tc main_v6) = dstIdx (W (Proc.devRef .tc main_arg1)) := by
  after_results <;> rfl
theorem stretch0_inv : after (hostOps0 (F := Ideal)) W (Proc.devRef .tc main_v11) = invSqrtDeg (dstIdx (W (Proc.devRef .tc main_arg1))) := by
  after_results <;> rfl
theorem stretch0_col : after (hostOps0 (F := Ideal)) W (Proc.devRef .tc main_v12) = nodeColumn (invSqrtDeg (dstIdx (W (Proc.devRef .tc main_arg1)))) := by
  after_results <;> rfl

/-! ## The stretch between the first and the second launch -/

theorem stretch1_agg : after (hostOps1 (F := Ideal)) W (Proc.devRef .tc main_v23)
    = aggregate (W (Proc.devRef .tc main_v13)) (W (Proc.devRef .tc main_v5)) (W (Proc.devRef .tc main_v6)) := by
  after_results <;> rfl
theorem stretch1_col : after (hostOps1 (F := Ideal)) W (Proc.devRef .tc main_v24) = nodeColumn (W (Proc.devRef .tc main_v11)) := by
  after_results <;> rfl
theorem stretch1_bias : after (hostOps1 (F := Ideal)) W (Proc.devRef .tc main_v25) = row16 (W (Proc.devRef .tc main_arg4)) := by
  after_results <;> rfl

/-! ## The stretch between the second and the third launch -/

theorem stretch2_agg : after (hostOps2 (F := Ideal)) W (Proc.devRef .tc main_v36)
    = aggregate (W (Proc.devRef .tc main_v26)) (W (Proc.devRef .tc main_v5)) (W (Proc.devRef .tc main_v6)) := by
  after_results <;> rfl
theorem stretch2_col : after (hostOps2 (F := Ideal)) W (Proc.devRef .tc main_v37) = nodeColumn (W (Proc.devRef .tc main_v11)) := by
  after_results <;> rfl
theorem stretch2_bias : after (hostOps2 (F := Ideal)) W (Proc.devRef .tc main_v38) = row16 (W (Proc.devRef .tc main_arg6)) := by
  after_results <;> rfl

/-! ## The stretch between the third and the fourth launch -/

theorem stretch3_pool : after (hostOps3 (F := Ideal)) W (Proc.devRef .tc main_v42)
    = pool (W (Proc.devRef .tc main_v39)) (W (Proc.devRef .tc main_arg2)) := by
  after_results <;> rfl
theorem stretch3_bias1 : after (hostOps3 (F := Ideal)) W (Proc.devRef .tc main_v43) = row100 (W (Proc.devRef .tc main_arg8)) := by
  after_results <;> rfl
theorem stretch3_bias2 : after (hostOps3 (F := Ideal)) W (Proc.devRef .tc main_v44) = row27 (W (Proc.devRef .tc main_arg10)) := by
  after_results <;> rfl

/-! ## What a stretch does not write it keeps -/

theorem keep0_arg0 : after (hostOps0 (F := Ideal)) W (Proc.devRef .tc main_arg0) = W (Proc.devRef .tc main_arg0) := by
  after_results
theorem keep0_arg2 : after (hostOps0 (F := Ideal)) W (Proc.devRef .tc main_arg2) = W (Proc.devRef .tc main_arg2) := by
  after_results
theorem keep0_arg3 : after (hostOps0 (F := Ideal)) W (Proc.devRef .tc main_arg3) = W (Proc.devRef .tc main_arg3) := by
  after_results
theorem keep0_arg4 : after (hostOps0 (F := Ideal)) W (Proc.devRef .tc main_arg4) = W (Proc.devRef .tc main_arg4) := by
  after_results
theorem keep0_arg5 : after (hostOps0 (F := Ideal)) W (Proc.devRef .tc main_arg5) = W (Proc.devRef .tc main_arg5) := by
  after_results
theorem keep0_arg6 : after (hostOps0 (F := Ideal)) W (Proc.devRef .tc main_arg6) = W (Proc.devRef .tc main_arg6) := by
  after_results
theorem keep0_arg7 : after (hostOps0 (F := Ideal)) W (Proc.devRef .tc main_arg7) = W (Proc.devRef .tc main_arg7) := by
  after_results
theorem keep0_arg8 : after (hostOps0 (F := Ideal)) W (Proc.devRef .tc main_arg8) = W (Proc.devRef .tc main_arg8) := by
  after_results
theorem keep0_arg9 : after (hostOps0 (F := Ideal)) W (Proc.devRef .tc main_arg9) = W (Proc.devRef .tc main_arg9) := by
  after_results
theorem keep0_arg10 : after (hostOps0 (F := Ideal)) W (Proc.devRef .tc main_arg10) = W (Proc.devRef .tc main_arg10) := by
  after_results
theorem keep1_v5 : after (hostOps1 (F := Ideal)) W (Proc.devRef .tc main_v5) = W (Proc.devRef .tc main_v5) := by
  after_results
theorem keep1_v6 : after (hostOps1 (F := Ideal)) W (Proc.devRef .tc main_v6) = W (Proc.devRef .tc main_v6) := by
  after_results
theorem keep1_v11 : after (hostOps1 (F := Ideal)) W (Proc.devRef .tc main_v11) = W (Proc.devRef .tc main_v11) := by
  after_results
theorem keep1_arg2 : after (hostOps1 (F := Ideal)) W (Proc.devRef .tc main_arg2) = W (Proc.devRef .tc main_arg2) := by
  after_results
theorem keep1_arg5 : after (hostOps1 (F := Ideal)) W (Proc.devRef .tc main_arg5) = W (Proc.devRef .tc main_arg5) := by
  after_results
theorem keep1_arg6 : after (hostOps1 (F := Ideal)) W (Proc.devRef .tc main_arg6) = W (Proc.devRef .tc main_arg6) := by
  after_results
theorem keep1_arg7 : after (hostOps1 (F := Ideal)) W (Proc.devRef .tc main_arg7) = W (Proc.devRef .tc main_arg7) := by
  after_results
theorem keep1_arg8 : after (hostOps1 (F := Ideal)) W (Proc.devRef .tc main_arg8) = W (Proc.devRef .tc main_arg8) := by
  after_results
theorem keep1_arg9 : after (hostOps1 (F := Ideal)) W (Proc.devRef .tc main_arg9) = W (Proc.devRef .tc main_arg9) := by
  after_results
theorem keep1_arg10 : after (hostOps1 (F := Ideal)) W (Proc.devRef .tc main_arg10) = W (Proc.devRef .tc main_arg10) := by
  after_results
theorem keep2_arg2 : after (hostOps2 (F := Ideal)) W (Proc.devRef .tc main_arg2) = W (Proc.devRef .tc main_arg2) := by
  after_results
theorem keep2_arg7 : after (hostOps2 (F := Ideal)) W (Proc.devRef .tc main_arg7) = W (Proc.devRef .tc main_arg7) := by
  after_results
theorem keep2_arg8 : after (hostOps2 (F := Ideal)) W (Proc.devRef .tc main_arg8) = W (Proc.devRef .tc main_arg8) := by
  after_results
theorem keep2_arg9 : after (hostOps2 (F := Ideal)) W (Proc.devRef .tc main_arg9) = W (Proc.devRef .tc main_arg9) := by
  after_results
theorem keep2_arg10 : after (hostOps2 (F := Ideal)) W (Proc.devRef .tc main_arg10) = W (Proc.devRef .tc main_arg10) := by
  after_results
theorem keep3_arg7 : after (hostOps3 (F := Ideal)) W (Proc.devRef .tc main_arg7) = W (Proc.devRef .tc main_arg7) := by
  after_results
theorem keep3_arg9 : after (hostOps3 (F := Ideal)) W (Proc.devRef .tc main_arg9) = W (Proc.devRef .tc main_arg9) := by
  after_results

end Cert.KernelIdeal.Stage

end
-- ==== Proof.Chain.lean ====
/-
  The kernel program's result as ONE function of its arguments.

  The program alternates stretches of host operations with four dense launches. Reading the buffers at every boundary
  from the launch memory onward — a stretch writes its results as the named host functions of what it finds and keeps
  the rest; a launch writes its output array as its whole-array function of the arrays it finds and keeps the rest —
  the result buffer ends at: the perceptron head of the pooled rows of the second round's scaled and biased aggregate,
  the second round aggregating the rows the fused middle launch makes of the first round's aggregate, the first round
  aggregating the scaled transform of the features; every scale the inverse square root of the degree.
-/
import proofs.«402039_j30167850287488_3_alg».proof.Proof.Gen.KernelIdeal.Frame
import proofs.«402039_j30167850287488_3_alg».proof.Proof.Spec
import proofs.«402039_j30167850287488_3_alg».proof.Proof.Stretches

set_option maxRecDepth 65536

noncomputable section

namespace Cert.KernelIdeal.Chain

open Cert.KernelIdeal Cert.KernelIdeal.Gen Cert.KernelIdeal.Stage Idealize.ShloMosaic Idealize.ShloMosaic.TcCoe Idealize.SL.Sem
  Idealize.ShloMosaic.StableHlo

/-! ## The composed function -/

/-- The per-node scale as a column. -/
def scaleCol (a1 : C S2x4000000 .i32) : C S1000000x1 .f32 := nodeColumn (invSqrtDeg (dstIdx a1))

/-- First launch: the features transformed and scaled at the source. -/
def rows1 (a0 : C S1000000x64 .f32) (a1 : C S2x4000000 .i32) (a3 : C S64x16 .f32) : C S1000000x16 .f32 :=
  Cert.Gcn.Spec.scaleLin a0 a3 (scaleCol a1)

/-- First round of message passing. -/
def agg1 (a0 : C S1000000x64 .f32) (a1 : C S2x4000000 .i32) (a3 : C S64x16 .f32) : C S1000000x16 .f32 :=
  aggregate (rows1 a0 a1 a3) (srcIdx a1) (dstIdx a1)

/-- Second launch: scale at the destination, bias, rectifier, second transform, scale at the source. -/
def rows2 (a0 : C S1000000x64 .f32) (a1 : C S2x4000000 .i32) (a3 : C S64x16 .f32) (a4 : C S16 .f32) (a5 : C S16x16 .f32) :
    C S1000000x16 .f32 :=
  Cert.Gcn.Spec.biasReluLinScale (agg1 a0 a1 a3) (scaleCol a1) (row16 a4) a5

/-- Second round of message passing. -/
def agg2 (a0 : C S1000000x64 .f32) (a1 : C S2x4000000 .i32) (a3 : C S64x16 .f32) (a4 : C S16 .f32) (a5 : C S16x16 .f32) :
    C S1000000x16 .f32 :=
  aggregate (rows2 a0 a1 a3 a4 a5) (srcIdx a1) (dstIdx a1)

/-- Third launch: scale at the destination and bias. -/
def nodeOut (a0 : C S1000000x64 .f32) (a1 : C S2x4000000 .i32) (a3 : C S64x16 .f32) (a4 : C S16 .f32) (a5 : C S16x16 .f32)
    (a6 : C S16 .f32) : C S1000000x16 .f32 :=
  Cert.Gcn.Spec.scaleBias (agg2 a0 a1 a3 a4 a5) (scaleCol a1) (row16 a6)

/-- The whole program: pool the node rows by graph, then the perceptron head. -/
def value (a0 : C S1000000x64 .f32) (a1 : C S2x4000000 .i32) (a2 : C S1000000 .i32) (a3 : C S64x16 .f32) (a4 : C S16 .f32)
    (a5 : C S16x16 .f32) (a6 : C S16 .f32) (a7 : C S16x100 .f32) (a8 : C S100 .f32) (a9 : C S100x27 .f32) (a10 : C S27 .f32) :
    C S40000x27 .f32 :=
  Cert.Gcn.Spec.head (pool (nodeOut a0 a1 a3 a4 a5 a6) a2) a7 (row100 a8) a9 (row27 a10)

/-! ## The boundaries -/

variable (m : (ℓ : Loc nD τ sig) → Buf (Elt Ideal) ℓ) (ρ : Dev nD → PrngReg) (c : Dev nD)

/-! ### After the first stretch -/

theorem b1_arg0 : W1 m ρ c (Proc.devRef .tc main_arg0) = (m ((c : Thread nD τ).loc main_arg0)) := (keep0_arg0 (W0 m ρ c)).trans rfl
theorem b1_arg2 : W1 m ρ c (Proc.devRef .tc main_arg2) = (m ((c : Thread nD τ).loc main_arg2)) := (keep0_arg2 (W0 m ρ c)).trans rfl
theorem b1_arg3 : W1 m ρ c (Proc.devRef .tc main_arg3) = (m ((c : Thread nD τ).loc main_arg3)) := (keep0_arg3 (W0 m ρ c)).trans rfl
theorem b1_arg4 : W1 m ρ c (Proc.devRef .tc main_arg4) = (m ((c : Thread nD τ).loc main_arg4)) := (keep0_arg4 (W0 m ρ c)).trans rfl
theorem b1_arg5 : W1 m ρ c (Proc.devRef .tc main_arg5) = (m ((c : Thread nD τ).loc main_arg5)) := (keep0_arg5 (W0 m ρ c)).trans rfl
theorem b1_arg6 : W1 m ρ c (Proc.devRef .tc main_arg6) = (m ((c : Thread nD τ).loc main_arg6)) := (keep0_arg6 (W0 m ρ c)).trans rfl
theorem b1_arg7 : W1 m ρ c (Proc.devRef .tc main_arg7) = (m ((c : Thread nD τ).loc main_arg7)) := (keep0_arg7 (W0 m ρ c)).trans rfl
theorem b1_arg8 : W1 m ρ c (Proc.devRef .tc main_arg8) = (m ((c : Thread nD τ).loc main_arg8)) := (keep0_arg8 (W0 m ρ c)).trans rfl
theorem b1_arg9 : W1 m ρ c (Proc.devRef .tc main_arg9) = (m ((c : Thread nD τ).loc main_arg9)) := (keep0_arg9 (W0 m ρ c)).trans rfl
theorem b1_arg10 : W1 m ρ c (Proc.devRef .tc main_arg10) = (m ((c : Thread nD τ).loc main_arg10)) := (keep0_arg10 (W0 m ρ c)).trans rfl
theorem b1_src : W1 m ρ c (Proc.devRef .tc main_v5) = srcIdx (m ((c : Thread nD τ).loc main_arg1)) := (stretch0_src (W0 m ρ c)).trans rfl
theorem b1_dst : W1 m ρ c (Proc.devRef .tc main_v6) = dstIdx (m ((c : Thread nD τ).loc main_arg1)) := (stretch0_dst (W0 m ρ c)).trans rfl
theorem b1_inv : W1 m ρ c (Proc.devRef .tc main_v11) = invSqrtDeg (dstIdx (m ((c : Thread nD τ).loc main_arg1))) := (stretch0_inv (W0 m ρ c)).trans rfl
theorem b1_col : W1 m ρ c (Proc.devRef .tc main_v12) = scaleCol (m ((c : Thread nD τ).loc main_arg1)) := (stretch0_col (W0 m ρ c)).trans rfl

/-! ### After the first launch -/

variable (h0 : ∀ (V : (c : Dev nD) → (b : Ref sig .tc) → Buf (Elt Ideal) ((c : Thread nD τ).loc b)) (c : Dev nD),
    (dat0 (F := Ideal) V c).arrAt 3 cfg0.N = Cert.Gcn.Spec.scaleLin (V c main_arg0) (V c main_arg3) (V c main_v12))

include h0 in
theorem b2_rows : W2 m ρ c (Proc.devRef .tc main_v13) = rows1 (m ((c : Thread nD τ).loc main_arg0)) (m ((c : Thread nD τ).loc main_arg1)) (m ((c : Thread nD τ).loc main_arg3)) :=
  (W2_arr m ρ c 3).trans ((h0 (V1 m ρ) c).trans (by
    show Cert.Gcn.Spec.scaleLin (W1 m ρ c (Proc.devRef .tc main_arg0)) (W1 m ρ c (Proc.devRef .tc main_arg3)) (W1 m ρ c (Proc.devRef .tc main_v12)) = _
    rw [b1_arg0, b1_arg3, b1_col]; rfl))

theorem b2_src : W2 m ρ c (Proc.devRef .tc main_v5) = srcIdx (m ((c : Thread nD τ).loc main_arg1)) := (W2_of_ne m ρ c main_v5 (by decide)).trans (b1_src m ρ c)
theorem b2_dst : W2 m ρ c (Proc.devRef .tc main_v6) = dstIdx (m ((c : Thread nD τ).loc main_arg1)) := (W2_of_ne m ρ c main_v6 (by decide)).trans (b1_dst m ρ c)
theorem b2_inv : W2 m ρ c (Proc.devRef .tc main_v11) = invSqrtDeg (dstIdx (m ((c : Thread nD τ).loc main_arg1))) := (W2_of_ne m ρ c main_v11 (by decide)).trans (b1_inv m ρ c)
theorem b2_arg2 : W2 m ρ c (Proc.devRef .tc main_arg2) = (m ((c : Thread nD τ).loc main_arg2)) := (W2_of_ne m ρ c main_arg2 (by decide)).trans (b1_arg2 m ρ c)
theorem b2_arg4 : W2 m ρ c (Proc.devRef .tc main_arg4) = (m ((c : Thread nD τ).loc main_arg4)) := (W2_of_ne m ρ c main_arg4 (by decide)).trans (b1_arg4 m ρ c)
theorem b2_arg5 : W2 m ρ c (Proc.devRef .tc main_arg5) = (m ((c : Thread nD τ).loc main_arg5)) := (W2_of_ne m ρ c main_arg5 (by decide)).trans (b1_arg5 m ρ c)
theorem b2_arg6 : W2 m ρ c (Proc.devRef .tc main_arg6) = (m ((c : Thread nD τ).loc main_arg6)) := (W2_of_ne m ρ c main_arg6 (by decide)).trans (b1_arg6 m ρ c)
theorem b2_arg7 : W2 m ρ c (Proc.devRef .tc main_arg7) = (m ((c : Thread nD τ).loc main_arg7)) := (W2_of_ne m ρ c main_arg7 (by decide)).trans (b1_arg7 m ρ c)
theorem b2_arg8 : W2 m ρ c (Proc.devRef .tc main_arg8) = (m ((c : Thread nD τ).loc main_arg8)) := (W2_of_ne m ρ c main_arg8 (by decide)).trans (b1_arg8 m ρ c)
theorem b2_arg9 : W2 m ρ c (Proc.devRef .tc main_arg9) = (m ((c : Thread nD τ).loc main_arg9)) := (W2_of_ne m ρ c main_arg9 (by decide)).trans (b1_arg9 m ρ c)
theorem b2_arg10 : W2 m ρ c (Proc.devRef .tc main_arg10) = (m ((c : Thread nD τ).loc main_arg10)) := (W2_of_ne m ρ c main_arg10 (by decide)).trans (b1_arg10 m ρ c)

/-! ### After the second stretch -/

include h0 in
theorem b3_agg : W3 m ρ c (Proc.devRef .tc main_v23) = agg1 (m ((c : Thread nD τ).loc main_arg0)) (m ((c : Thread nD τ).loc main_arg1)) (m ((c : Thread nD τ).loc main_arg3)) :=
  (stretch1_agg (W2 m ρ c)).trans (by rw [b2_rows m ρ c h0, b2_src, b2_dst]; rfl)
theorem b3_col : W3 m ρ c (Proc.devRef .tc main_v24) = scaleCol (m ((c : Thread nD τ).loc main_arg1)) := (stretch1_col (W2 m ρ c)).trans (by rw [b2_inv]; rfl)
theorem b3_bias : W3 m ρ c (Proc.devRef .tc main_v25) = row16 (m ((c : Thread nD τ).loc main_arg4)) := (stretch1_bias (W2 m ρ c)).trans (by rw [b2_arg4])
theorem b3_src : W3 m ρ c (Proc.devRef .tc main_v5) = srcIdx (m ((c : Thread nD τ).loc main_arg1)) := (keep1_v5 (W2 m ρ c)).trans (b2_src m ρ c)
theorem b3_dst : W3 m ρ c (Proc.devRef .tc main_v6) = dstIdx (m ((c : Thread nD τ).loc main_arg1)) := (keep1_v6 (W2 m ρ c)).trans (b2_dst m ρ c)
theorem b3_inv : W3 m ρ c (Proc.devRef .tc main_v11) = invSqrtDeg (dstIdx (m ((c : Thread nD τ).loc main_arg1))) := (keep1_v11 (W2 m ρ c)).trans (b2_inv m ρ c)
theorem b3_arg2 : W3 m ρ c (Proc.devRef .tc main_arg2) = (m ((c : Thread nD τ).loc main_arg2)) := (keep1_arg2 (W2 m ρ c)).trans (b2_arg2 m ρ c)
theorem b3_arg5 : W3 m ρ c (Proc.devRef .tc main_arg5) = (m ((c : Thread nD τ).loc main_arg5)) := (keep1_arg5 (W2 m ρ c)).trans (b2_arg5 m ρ c)
theorem b3_arg6 : W3 m ρ c (Proc.devRef .tc main_arg6) = (m ((c : Thread nD τ).loc main_arg6)) := (keep1_arg6 (W2 m ρ c)).trans (b2_arg6 m ρ c)
theorem b3_arg7 : W3 m ρ c (Proc.devRef .tc main_arg7) = (m ((c : Thread nD τ).loc main_arg7)) := (keep1_arg7 (W2 m ρ c)).trans (b2_arg7 m ρ c)
theorem b3_arg8 : W3 m ρ c (Proc.devRef .tc main_arg8) = (m ((c : Thread nD τ).loc main_arg8)) := (keep1_arg8 (W2 m ρ c)).trans (b2_arg8 m ρ c)
theorem b3_arg9 : W3 m ρ c (Proc.devRef .tc main_arg9) = (m ((c : Thread nD τ).loc main_arg9)) := (keep1_arg9 (W2 m ρ c)).trans (b2_arg9 m ρ c)
theorem b3_arg10 : W3 m ρ c (Proc.devRef .tc main_arg10) = (m ((c : Thread nD τ).loc main_arg10)) := (keep1_arg10 (W2 m ρ c)).trans (b2_arg10 m ρ c)

/-! ### After the second launch -/

variable (h1 : ∀ (V : (c : Dev nD) → (b : Ref sig .tc) → Buf (Elt Ideal) ((c : Thread nD τ).loc b)) (c : Dev nD),
    (dat1 (F := Ideal) V c).arrAt 4 cfg1.N = Cert.Gcn.Spec.biasReluLinScale (V c main_v23) (V c main_v24) (V c main_v25) (V c main_arg5))

include h0 h1 in
theorem b4_rows : W4 m ρ c (Proc.devRef .tc main_v26) = rows2 (m ((c : Thread nD τ).loc main_arg0)) (m ((c : Thread nD τ).loc main_arg1)) (m ((c : Thread nD τ).loc main_arg3)) (m ((c : Thread nD τ).loc main_arg4)) (m ((c : Thread nD τ).loc main_arg5)) :=
  (W4_arr m ρ c 4).trans ((h1 (V3 m ρ) c).trans (by
    show Cert.Gcn.Spec.biasReluLinScale (W3 m ρ c (Proc.devRef .tc main_v23)) (W3 m ρ c (Proc.devRef .tc main_v24)) (W3 m ρ c (Proc.devRef .tc main_v25)) (W3 m ρ c (Proc.devRef .tc main_arg5)) = _
    rw [b3_agg m ρ c h0, b3_col, b3_bias, b3_arg5]; rfl))

theorem b4_src : W4 m ρ c (Proc.devRef .tc main_v5) = srcIdx (m ((c : Thread nD τ).loc main_arg1)) := (W4_of_ne m ρ c main_v5 (by decide)).trans (b3_src m ρ c)
theorem b4_dst : W4 m ρ c (Proc.devRef .tc main_v6) = dstIdx (m ((c : Thread nD τ).loc main_arg1)) := (W4_of_ne m ρ c main_v6 (by decide)).trans (b3_dst m ρ c)
theorem b4_inv : W4 m ρ c (Proc.devRef .tc main_v11) = invSqrtDeg (dstIdx (m ((c : Thread nD τ).loc main_arg1))) := (W4_of_ne m ρ c main_v11 (by decide)).trans (b3_inv m ρ c)
theorem b4_arg2 : W4 m ρ c (Proc.devRef .tc main_arg2) = (m ((c : Thread nD τ).loc main_arg2)) := (W4_of_ne m ρ c main_arg2 (by decide)).trans (b3_arg2 m ρ c)
theorem b4_arg6 : W4 m ρ c (Proc.devRef .tc main_arg6) = (m ((c : Thread nD τ).loc main_arg6)) := (W4_of_ne m ρ c main_arg6 (by decide)).trans (b3_arg6 m ρ c)
theorem b4_arg7 : W4 m ρ c (Proc.devRef .tc main_arg7) = (m ((c : Thread nD τ).loc main_arg7)) := (W4_of_ne m ρ c main_arg7 (by decide)).trans (b3_arg7 m ρ c)
theorem b4_arg8 : W4 m ρ c (Proc.devRef .tc main_arg8) = (m ((c : Thread nD τ).loc main_arg8)) := (W4_of_ne m ρ c main_arg8 (by decide)).trans (b3_arg8 m ρ c)
theorem b4_arg9 : W4 m ρ c (Proc.devRef .tc main_arg9) = (m ((c : Thread nD τ).loc main_arg9)) := (W4_of_ne m ρ c main_arg9 (by decide)).trans (b3_arg9 m ρ c)
theorem b4_arg10 : W4 m ρ c (Proc.devRef .tc main_arg10) = (m ((c : Thread nD τ).loc main_arg10)) := (W4_of_ne m ρ c main_arg10 (by decide)).trans (b3_arg10 m ρ c)

/-! ### After the third stretch -/

include h0 h1 in
theorem b5_agg : W5 m ρ c (Proc.devRef .tc main_v36) = agg2 (m ((c : Thread nD τ).loc main_arg0)) (m ((c : Thread nD τ).loc main_arg1)) (m ((c : Thread nD τ).loc main_arg3)) (m ((c : Thread nD τ).loc main_arg4)) (m ((c : Thread nD τ).loc main_arg5)) :=
  (stretch2_agg (W4 m ρ c)).trans (by rw [b4_rows m ρ c h0 h1, b4_src, b4_dst]; rfl)
theorem b5_col : W5 m ρ c (Proc.devRef .tc main_v37) = scaleCol (m ((c : Thread nD τ).loc main_arg1)) := (stretch2_col (W4 m ρ c)).trans (by rw [b4_inv]; rfl)
theorem b5_bias : W5 m ρ c (Proc.devRef .tc main_v38) = row16 (m ((c : Thread nD τ).loc main_arg6)) := (stretch2_bias (W4 m ρ c)).trans (by rw [b4_arg6])
theorem b5_arg2 : W5 m ρ c (Proc.devRef .tc main_arg2) = (m ((c : Thread nD τ).loc main_arg2)) := (keep2_arg2 (W4 m ρ c)).trans (b4_arg2 m ρ c)
theorem b5_arg7 : W5 m ρ c (Proc.devRef .tc main_arg7) = (m ((c : Thread nD τ).loc main_arg7)) := (keep2_arg7 (W4 m ρ c)).trans (b4_arg7 m ρ c)
theorem b5_arg8 : W5 m ρ c (Proc.devRef .tc main_arg8) = (m ((c : Thread nD τ).loc main_arg8)) := (keep2_arg8 (W4 m ρ c)).trans (b4_arg8 m ρ c)
theorem b5_arg9 : W5 m ρ c (Proc.devRef .tc main_arg9) = (m ((c : Thread nD τ).loc main_arg9)) := (keep2_arg9 (W4 m ρ c)).trans (b4_arg9 m ρ c)
theorem b5_arg10 : W5 m ρ c (Proc.devRef .tc main_arg10) = (m ((c : Thread nD τ).loc main_arg10)) := (keep2_arg10 (W4 m ρ c)).trans (b4_arg10 m ρ c)

/-! ### After the third launch -/

variable (h2 : ∀ (V : (c : Dev nD) → (b : Ref sig .tc) → Buf (Elt Ideal) ((c : Thread nD τ).loc b)) (c : Dev nD),
    (dat2 (F := Ideal) V c).arrAt 3 cfg2.N = Cert.Gcn.Spec.scaleBias (V c main_v36) (V c main_v37) (V c main_v38))

include h0 h1 h2 in
theorem b6_out : W6 m ρ c (Proc.devRef .tc main_v39) = nodeOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W6_arr m ρ c 3).trans ((h2 (V5 m ρ) c).trans (by
    show Cert.Gcn.Spec.scaleBias (W5 m ρ c (Proc.devRef .tc main_v36)) (W5 m ρ c (Proc.devRef .tc main_v37)) (W5 m ρ c (Proc.devRef .tc main_v38)) = _
    rw [b5_agg m ρ c h0 h1, b5_col, b5_bias]; rfl))

theorem b6_arg2 : W6 m ρ c (Proc.devRef .tc main_arg2) = (m ((c : Thread nD τ).loc main_arg2)) := (W6_of_ne m ρ c main_arg2 (by decide)).trans (b5_arg2 m ρ c)
theorem b6_arg7 : W6 m ρ c (Proc.devRef .tc main_arg7) = (m ((c : Thread nD τ).loc main_arg7)) := (W6_of_ne m ρ c main_arg7 (by decide)).trans (b5_arg7 m ρ c)
theorem b6_arg8 : W6 m ρ c (Proc.devRef .tc main_arg8) = (m ((c : Thread nD τ).loc main_arg8)) := (W6_of_ne m ρ c main_arg8 (by decide)).trans (b5_arg8 m ρ c)
theorem b6_arg9 : W6 m ρ c (Proc.devRef .tc main_arg9) = (m ((c : Thread nD τ).loc main_arg9)) := (W6_of_ne m ρ c main_arg9 (by decide)).trans (b5_arg9 m ρ c)
theorem b6_arg10 : W6 m ρ c (Proc.devRef .tc main_arg10) = (m ((c : Thread nD τ).loc main_arg10)) := (W6_of_ne m ρ c main_arg10 (by decide)).trans (b5_arg10 m ρ c)

/-! ### After the fourth stretch -/

include h0 h1 h2 in
theorem b7_pool : W7 m ρ c (Proc.devRef .tc main_v42) = pool (nodeOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) :=
  (stretch3_pool (W6 m ρ c)).trans (by rw [b6_out m ρ c h0 h1 h2, b6_arg2])
theorem b7_bias1 : W7 m ρ c (Proc.devRef .tc main_v43) = row100 (m ((c : Thread nD τ).loc main_arg8)) := (stretch3_bias1 (W6 m ρ c)).trans (by rw [b6_arg8])
theorem b7_bias2 : W7 m ρ c (Proc.devRef .tc main_v44) = row27 (m ((c : Thread nD τ).loc main_arg10)) := (stretch3_bias2 (W6 m ρ c)).trans (by rw [b6_arg10])
theorem b7_arg7 : W7 m ρ c (Proc.devRef .tc main_arg7) = (m ((c : Thread nD τ).loc main_arg7)) := (keep3_arg7 (W6 m ρ c)).trans (b6_arg7 m ρ c)
theorem b7_arg9 : W7 m ρ c (Proc.devRef .tc main_arg9) = (m ((c : Thread nD τ).loc main_arg9)) := (keep3_arg9 (W6 m ρ c)).trans (b6_arg9 m ρ c)

/-! ### After the fourth launch: the result -/

variable (h3 : ∀ (V : (c : Dev nD) → (b : Ref sig .tc) → Buf (Elt Ideal) ((c : Thread nD τ).loc b)) (c : Dev nD),
    (dat3 (F := Ideal) V c).arrAt 5 cfg3.N = Cert.Gcn.Spec.head (V c main_v42) (V c main_arg7) (V c main_v43) (V c main_arg9) (V c main_v44))

include h0 h1 h2 h3 in
/-- The result buffer's final contents are the composed function of the launch contents of the arguments. -/
theorem result_value : W8 m ρ c (Proc.devRef .tc main_v45)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W8_arr m ρ c 5).trans ((h3 (V7 m ρ) c).trans (by
    show Cert.Gcn.Spec.head (W7 m ρ c (Proc.devRef .tc main_v42)) (W7 m ρ c (Proc.devRef .tc main_arg7)) (W7 m ρ c (Proc.devRef .tc main_v43)) (W7 m ρ c (Proc.devRef .tc main_arg9)) (W7 m ρ c (Proc.devRef .tc main_v44)) = _
    rw [b7_pool m ρ c h0 h1 h2, b7_arg7, b7_bias1, b7_arg9, b7_bias2]; rfl))

end Cert.KernelIdeal.Chain

end
-- ==== Proof.LibRowGatherScatter.lean ====
/-
  A host gather of whole rows and a host scatter-add of whole rows, read at one element.

  `table[idx]` over an [N × C] table with an [E × 1] column of start indices prints as a `stablehlo.gather` whose
  row axis is collapsed and start-indexed and whose column axis is the one offset axis: result row `e` is the table's
  row at `idx e` read signed and clamped into the table.

  `zeros.at[idx].add(upd)` over rows prints as a `stablehlo.scatter` with an `add` body whose row axis is inserted and
  scatter-indexed and whose column axis is the one update-window axis: at the extended reals element (i, q) ends at its
  old value plus the sum of `upd (e, q)` over the rows `e` whose index word reads `i` as a signed integer; a row whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Result element (e, q) of a row gather is the table's element (row, q), `row` the start index of `e` read signed and
    clamped into `[0, N − 1]`. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q) = x (ix2 ⟨min (idx (ix2 e (0 : Fin 1))).toInt.toNat (N - 1), by omega⟩ q) := by
  unfold Host.gather
  congr 1
  funext a
  apply Fin.ext
  have hb : ∀ a : Fin 2, a ∉ d.operandBatchingDims := fun a => by rw [hob]; exact List.not_mem_nil
  -- the result's one batch axis is axis 0, its one offset axis is axis 1
  have he : ∀ X : Fin 2, X ∈ d.batchDims → ((ix2 e q : (⟨2, ![E, C]⟩ : Shape).Idx) X).val = e.val := by
    intro X hX
    have hX' : X ∈ (⟨2, ![E, C]⟩ : Shape).kept [1] := by rw [← hoff]; exact hX
    have h0 : X = 0 := by
      simp [Shape.kept, List.mem_filter] at hX'
      omega
    subst h0; rfl
  have hq : ∀ X : Fin 2, X ∈ d.offsetDims → ((ix2 e q : (⟨2, ![E, C]⟩ : Shape).Idx) X).val = q.val := by
    intro X hX
    rw [hoff] at hX
    obtain rfl := List.mem_singleton.1 hX
    rfl
  match a with
  | ⟨0, _⟩ =>
    -- the row axis: start-indexed and collapsed, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e q) idx 0 + d.batchCoord (ix2 e q) 0 + d.offCoord (ix2 e q) 0 = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 2) d.startIndexMap = 0
      rw [hsim]; simp
  | ⟨1, _⟩ =>
    -- the column axis: not start-indexed, kept, so the result's coordinate on the offset axis
    have hk : (1 : Fin 2) ∈ d.sKept := by rw [GatherDims.mem_sKept, hcoll, hob]; simp
    have hm : (1 : Fin 2) ∉ d.startIndexMap := by rw [hsim]; simp
    show d.start (ix2 e q) idx 1 + d.batchCoord (ix2 e q) 1 + d.offCoord (ix2 e q) 1 = q.val
    rw [GatherDims.batchCoord_eq_zero _ _ _ (hb _), Nat.add_zero]
    unfold GatherDims.start GatherDims.offCoord
    rw [dif_neg hm, dif_pos hk, Nat.zero_add]
    exact hq _ (List.getElem_mem _)

/-- Element (i, q) after a row scatter-add at the extended reals: the old value plus the updates of the rows sent to `i`. -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (q : Fin C) :
    (Host.scatterAdd (F := Ideal) (φ := .f32) d x idx upd : (⟨2, ![N, C]⟩ : Shape).Idx → EReal) (ix2 i q)
      = x (ix2 i q) + ∑ e ∈ Finset.univ.filter (fun e : Fin E => (idx (ix2 e (0 : Fin 1))).toInt = (i.val : ℤ)), upd (ix2 e q) := by
  -- the updates' one scatter axis is axis 0
  have hus : ∀ X : Fin 2, X ∈ d.uScatter → X = 0 := by
    intro X hX
    have hX' : X ∈ (⟨2, ![E, C]⟩ : Shape).kept [1] := by rw [← huw]; exact hX
    simp [Shape.kept, List.mem_filter] at hX'
    omega
  -- the row axis starts at the row's index word read signed, with no window coordinate (it is inserted)
  have hs0 : ∀ j : (⟨2, ![E, C]⟩ : Shape).Idx, d.start j idx 0 = (idx (ix2 (j 0) (0 : Fin 1))).toInt := by
    intro j
    have hm : (0 : Fin 2) ∈ d.scatterDimsToOperandDims := by rw [hsd]; exact List.mem_singleton.mpr rfl
    have e0 : ∀ X : Fin 2, X ∈ d.uScatter → (j X).val = (j 0).val := fun X hX => by rw [hus X hX]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 2) d.scatterDimsToOperandDims = 0
      rw [hsd]; simp
  have hw0 : ∀ j : (⟨2, ![E, C]⟩ : Shape).Idx, d.window j 0 = 0 := by
    intro j
    have hk : (0 : Fin 2) ∉ d.sKept := by simp [ScatterDims.sKept, Shape.kept, hiw]
    unfold ScatterDims.window
    rw [dif_neg hk]
  -- the column axis starts at 0 (the map does not name it), its window coordinate the update's column
  have hs1 : ∀ j : (⟨2, ![E, C]⟩ : Shape).Idx, d.start j idx 1 = 0 := by
    intro j
    have hm : (1 : Fin 2) ∉ d.scatterDimsToOperandDims := by rw [hsd]; simp
    unfold ScatterDims.start
    rw [dif_neg hm]
  have hw1 : ∀ j : (⟨2, ![E, C]⟩ : Shape).Idx, d.window j 1 = (j 1).val := by
    intro j
    have hk : (1 : Fin 2) ∈ d.sKept := by simp [ScatterDims.sKept, Shape.kept, hiw]
    have e1 : ∀ X : Fin 2, X ∈ d.updateWindowDims → (j X).val = (j 1).val := fun X hX => by
      rw [huw] at hX
      rw [List.mem_singleton.1 hX]
    unfold ScatterDims.window
    rw [dif_pos hk]
    exact e1 _ (List.getElem_mem _)
  -- an update lands at (i, q) exactly when its row's index word reads i and its column is q
  have key : ∀ j : (⟨2, ![E, C]⟩ : Shape).Idx, d.resultIdx? j idx = some (ix2 i q) ↔
      (idx (ix2 (j 0) (0 : Fin 1))).toInt = (i.val : ℤ) ∧ j 1 = q := by
    intro j
    unfold ScatterDims.resultIdx?
    constructor
    · intro h
      split at h
      · rename_i hr
        have hf := Option.some.inj h
        have h0 : (d.start j idx 0 + d.window j 0).toNat = i.val := congrArg Fin.val (congrFun hf 0)
        have h1 : (d.start j idx 1 + d.window j 1).toNat = q.val := congrArg Fin.val (congrFun hf 1)
        have r0 := (hr 0).1
        rw [hs0, hw0] at h0 r0
        rw [hs1, hw1] at h1
        exact ⟨by omega, Fin.ext (by omega)⟩
      · exact absurd h (by simp)
    · rintro ⟨h0, h1⟩
      have hr : ∀ a, 0 ≤ d.start j idx a + d.window j a ∧
          d.start j idx a + d.window j a < (⟨2, ![N, C]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
        | ⟨1, _⟩ =>
          show 0 ≤ d.start j idx 1 + d.window j 1 ∧ d.start j idx 1 + d.window j 1 < (C : ℤ)
          rw [hs1, hw1]
          have := idx2_lt1 j
          omega
      rw [dif_pos hr]
      congr 1
      funext a
      match a with
      | ⟨0, _⟩ =>
        apply Fin.ext
        show (d.start j idx 0 + d.window j 0).toNat = i.val
        rw [hs0, hw0, h0]
        omega
      | ⟨1, _⟩ =>
        apply Fin.ext
        show (d.start j idx 1 + d.window j 1).toNat = q.val
        rw [hs1, hw1, ← h1]
        omega
  show Ideal.hostScatterAdd d x idx upd (ix2 i q) = _
  unfold Ideal.hostScatterAdd
  congr 1
  -- re-index the updates landing at (i, q) by their row
  refine Finset.sum_bij' (fun j _ => (j 0 : Fin E)) (fun e _ => ix2 e q) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key _).2 ⟨(Finset.mem_filter.1 he).2, rfl⟩⟩
  · intro j hj
    have hq := ((key j).1 (Finset.mem_filter.1 hj).2).2
    rw [← hq]
    exact (eq_ix2 j).symm
  · intro e _
    rfl
  · intro j hj
    have hq := ((key j).1 (Finset.mem_filter.1 hj).2).2
    rw [← hq]
    exact congrArg upd (eq_ix2 j)

end Cert.Gcn

end
-- ==== Proof.LibVecGatherScatter.lean ====
/-
  A host gather out of a vector and a host scatter-add into a vector, read at one element.

  `table[idx]` over a table of N entries with an [E × 1] column of start indices prints as a `stablehlo.gather` whose
  one operand axis is collapsed and start-indexed and whose result has no offset axis: result element `e` is the table's
  entry at `idx e` read signed and clamped into the table.

  `zeros.at[idx].add(upd)` over a vector prints as a `stablehlo.scatter` with an `add` body whose one operand axis is
  inserted and scatter-indexed and whose updates have no window axis: at the extended reals element `i` ends at its old
  value plus the sum of `upd e` over the positions `e` whose index word reads `i` as a signed integer; a position whose
  index leaves the operand contributes nothing.
-/
import Idealize.ShloMosaic.PureOps.Ideal
import Idealize.ShloMosaic.Lib.ValueIdx

noncomputable section

namespace Cert.Gcn

open Idealize.ShloMosaic Idealize.ShloMosaic.ValueIdx

/-- Element e of a vector gather is the table at the start index of e read signed and clamped into [0, N − 1]. -/
theorem gather_vec {α : Type} {N E w : Nat} (d : GatherDims ⟨1, ![N]⟩ ⟨2, ![E, 1]⟩ ⟨1, ![E]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e (0 : Fin 1))).toInt.toNat (N - 1), by omega⟩) := by
  unfold Host.gather
  congr 1
  funext a
  apply Fin.ext
  -- the result's one axis is a batch axis (there is no offset axis), and its coordinate is e
  have he : ∀ X : Fin 1, X ∈ d.batchDims → ((ix1 e : (⟨1, ![E]⟩ : Shape).Idx) X).val = e.val := by
    intro X hX
    have hX' : X ∈ (⟨1, ![E]⟩ : Shape).kept [] := by rw [← hoff]; exact hX
    have h0 : X = 0 := Subsingleton.elim _ _
    subst h0; rfl
  match a with
  | ⟨0, _⟩ =>
    -- the one operand axis: start-indexed and collapsed, so the clamped start alone
    have hb : (0 : Fin 1) ∉ d.operandBatchingDims := by rw [hob]; exact List.not_mem_nil
    have hk : (0 : Fin 1) ∉ d.sKept := by rw [GatherDims.mem_sKept, hcoll]; simp
    have hm : (0 : Fin 1) ∈ d.startIndexMap := by rw [hsim]; exact List.mem_singleton.mpr rfl
    have hsl : d.sliceSizes 0 = 1 := d.slice_collapsed 0 (by rw [hcoll]; exact List.mem_singleton.mpr rfl)
    show d.start (ix1 e) idx 0 + d.batchCoord (ix1 e) 0 + d.offCoord (ix1 e) 0 = min (idx (ix2 e (0 : Fin 1))).toInt.toNat (N - 1)
    rw [GatherDims.batchCoord_eq_zero _ _ _ hb, GatherDims.offCoord_eq_zero _ _ _ hk]
    simp only [Nat.add_zero]
    unfold GatherDims.start
    rw [dif_pos hm]
    show min (idx _).toInt.toNat (N - d.sliceSizes 0) = min (idx (ix2 e (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact he _ (List.getElem_mem _)
    | ⟨1, _⟩ =>
      unfold GatherDims.siIdx
      rw [dif_pos (by rw [hivd])]
      apply Fin.ext
      show List.idxOf (0 : Fin 1) d.startIndexMap = 0
      rw [hsim]; simp

/-- Element i after a vector scatter-add at the extended reals: the old value plus the updates whose index word reads i. -/
theorem scatterAdd_vec {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    (Host.scatterAdd (F := Ideal) (φ := .f32) d x idx upd : (⟨1, ![N]⟩ : Shape).Idx → EReal) (ix1 i)
      = x (ix1 i) + ∑ e ∈ Finset.univ.filter (fun e : Fin E => (idx (ix2 e (0 : Fin 1))).toInt = (i.val : ℤ)), upd (ix1 e) := by
  -- the one operand axis starts at the position's index word read signed, with no window coordinate (it is inserted)
  have hs0 : ∀ j : (⟨1, ![E]⟩ : Shape).Idx, d.start j idx 0 = (idx (ix2 (j 0) (0 : Fin 1))).toInt := by
    intro j
    have hm : (0 : Fin 1) ∈ d.scatterDimsToOperandDims := by rw [hsd]; exact List.mem_singleton.mpr rfl
    have e0 : ∀ X : Fin 1, X ∈ d.uScatter → (j X).val = (j 0).val := fun X _ => by
      rw [Subsingleton.elim X 0]
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      exact e0 _ (List.getElem_mem _)
    | ⟨1, _⟩ =>
      unfold ScatterDims.siIdx
      rw [dif_pos (by rw [hivd])]
      apply Fin.ext
      show List.idxOf (0 : Fin 1) d.scatterDimsToOperandDims = 0
      rw [hsd]; simp
  have hw0 : ∀ j : (⟨1, ![E]⟩ : Shape).Idx, d.window j 0 = 0 := by
    intro j
    have hk : (0 : Fin 1) ∉ d.sKept := by simp [ScatterDims.sKept, Shape.kept, hiw]
    unfold ScatterDims.window
    rw [dif_neg hk]
  -- an update lands at i exactly when its position's index word reads i
  have key : ∀ j : (⟨1, ![E]⟩ : Shape).Idx, d.resultIdx? j idx = some (ix1 i) ↔
      (idx (ix2 (j 0) (0 : Fin 1))).toInt = (i.val : ℤ) := by
    intro j
    unfold ScatterDims.resultIdx?
    constructor
    · intro h
      split at h
      · rename_i hr
        have hf := Option.some.inj h
        have h0 : (d.start j idx 0 + d.window j 0).toNat = i.val := congrArg Fin.val (congrFun hf 0)
        have r0 := (hr 0).1
        rw [hs0, hw0] at h0 r0
        omega
      · exact absurd h (by simp)
    · intro h0
      have hr : ∀ a, 0 ≤ d.start j idx a + d.window j a ∧
          d.start j idx a + d.window j a < (⟨1, ![N]⟩ : Shape).size a := by
        intro a
        match a with
        | ⟨0, _⟩ =>
          show 0 ≤ d.start j idx 0 + d.window j 0 ∧ d.start j idx 0 + d.window j 0 < (N : ℤ)
          rw [hs0, hw0, h0]
          have := i.isLt
          omega
      rw [dif_pos hr]
      congr 1
      funext a
      match a with
      | ⟨0, _⟩ =>
        apply Fin.ext
        show (d.start j idx 0 + d.window j 0).toNat = i.val
        rw [hs0, hw0, h0]
        omega
  show Ideal.hostScatterAdd d x idx upd (ix1 i) = _
  unfold Ideal.hostScatterAdd
  congr 1
  -- re-index the updates landing at i by their position
  refine Finset.sum_bij' (fun j _ => (j 0 : Fin E)) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key _).2 (Finset.mem_filter.1 he).2⟩
  · intro j _
    exact (eq_ix1 j).symm
  · intro e _
    rfl
  · intro j _
    exact congrArg upd (eq_ix1 j)

end Cert.Gcn

end
-- ==== Proof.Algebra.lean ====
/-
  The algebra that joins the two programs, on the extended reals.

  A node's degree is a sum of ones over the messages that land on it, so it is the number of those messages; its inverse
  square root is a non-negative real as soon as one message lands, and when none lands every sum over the landing
  messages is empty. Multiplication by a non-negative real distributes over a finite sum of extended reals (over the
  infinities too: it only fails for an infinite factor), so the destination's factor, which is the same for every
  message landing on one node, can be taken out of the sum over them:

      (∑ₑ fₑ · aₑ) · c  =  ∑ₑ fₑ · (aₑ · c).
-/
import Idealize.ShloMosaic.PureOps.Ideal
import Idealize.ShloMosaic.PureOps.Ideal.Laws

noncomputable section

namespace Cert.Gcn

open Idealize.ShloMosaic

/-- The word of `1.0` denotes the real one. -/
theorem ofBits_one : Ideal.ofBits .f32 0x3F800000#32 = 1 := by
  simp [Ideal.ofBits, Ideal.ieee, -EReal.coe_mul]; norm_num

/-- Zero plus a one for every element of a finite set is the set's size. -/
theorem zero_add_sum_ones {ι : Type} (S : Finset ι) : (0 : EReal) + ∑ _e ∈ S, (1 : EReal) = ((S.card : ℝ) : EReal) := by
  rw [zero_add, Finset.sum_const, EReal.nsmul_eq_mul, mul_one]
  rfl

/-- The inverse square root of a positive count is a non-negative real. -/
theorem rsqrt_count {n : ℕ} (hn : 0 < n) : ∃ r : ℝ, 0 ≤ r ∧ Ideal.rsqrt (((n : ℝ) : EReal)) = (r : EReal) := by
  refine ⟨(Real.sqrt n)⁻¹, inv_nonneg.2 (Real.sqrt_nonneg _), ?_⟩
  rw [Ideal.rsqrt_coe, if_neg (not_lt.2 (Nat.cast_nonneg n)), if_neg (Nat.cast_ne_zero.2 hn.ne')]

/-- Multiplication by a non-negative real distributes over a finite sum of extended reals. -/
theorem sum_mul_coe {ι : Type} (S : Finset ι) (f : ι → EReal) {r : ℝ} (hr : 0 ≤ r) :
    (∑ e ∈ S, f e) * (r : EReal) = ∑ e ∈ S, f e * (r : EReal) := by
  classical
  induction S using Finset.induction_on with
  | empty => simp
  | insert a S ha ih =>
    rw [Finset.sum_insert ha, Finset.sum_insert ha,
      EReal.right_distrib_of_nonneg_of_ne_top (EReal.coe_nonneg.2 hr) (EReal.coe_ne_top r), ih]

/-- The factor of the destination node, the inverse square root of the number of messages landing on it, taken out of
    the sum over those messages. `c' e` is the same factor as a message carries it; it is `c` on every landing message. -/
theorem factor_out {ι : Type} (S : Finset ι) (f a c' : ι → EReal) (c : EReal)
    (hc : c = Ideal.rsqrt ((0 : EReal) + ∑ _e ∈ S, (1 : EReal))) (hc' : ∀ e ∈ S, c' e = c) :
    ((0 : EReal) + ∑ e ∈ S, f e * a e) * c = 0 + ∑ e ∈ S, f e * (a e * c' e) := by
  rcases S.eq_empty_or_nonempty with rfl | hS
  · simp
  · obtain ⟨r, hr, hrs⟩ := rsqrt_count (Finset.card_pos.2 hS)
    rw [zero_add_sum_ones] at hc
    rw [hc, hrs, zero_add, zero_add, sum_mul_coe S _ hr]
    refine Finset.sum_congr rfl fun e he => ?_
    rw [hc' e he, hc, hrs, mul_assoc]

end Cert.Gcn

end
-- ==== Proof.StageRead.lean ====
/-
  The host-side stage functions of the kernel program, read at one element, at the extended reals.

  A reshape of a vector to one column or to one row keeps the row-major position, so it reads the vector at the one free
  coordinate. The index column of a vector of words reads the word of its row. A scalar constant broadcast to a shape
  reads the constant everywhere. With these, the degree of node `u` is zero plus a one for every message whose
  destination word reads `u`; its inverse square root is the inverse square root of that sum; and one round of message
  passing leaves at (u, j) zero plus, over the messages landing on `u`, entry j of the row each message reads: the row at
  its source word, wrapped if negative, read signed and clamped into the table.
-/
import proofs.«402039_j30167850287488_3_alg».proof.Proof.Stretches
import proofs.«402039_j30167850287488_3_alg».proof.Proof.LibRowGatherScatter
import proofs.«402039_j30167850287488_3_alg».proof.Proof.LibVecGatherScatter
import proofs.«402039_j30167850287488_3_alg».proof.Proof.Algebra
import Idealize.ShloMosaic.Lib.Pipeline.Value
import Idealize.ShloMosaic.Lib.ValueIdx
import Idealize.ShloMosaic.Lib.ValueLayout

set_option maxRecDepth 65536

noncomputable section

namespace Cert.KernelIdeal.Stage

open Cert.KernelIdeal Idealize.ShloMosaic Idealize.ShloMosaic.ValueIdx

/-- The messages that land on node `u`: those whose destination word reads `u` as a signed integer. -/
def landing (d : C S5000000 .i32) (u : Fin 1000000) : Finset (Fin 5000000) :=
  Finset.univ.filter fun e => (d (ix1 e)).toInt = (u.val : ℤ)

/-- The row a message reads: its source word, wrapped if negative, read signed and clamped into the table. -/
def srcRow (s : C S5000000 .i32) (e : Fin 5000000) : Fin 1000000 :=
  ⟨min (wrapIdx s (ix2 e (0 : Fin 1))).toInt.toNat (1000000 - 1), by omega⟩

/-- A vector cast to one column reads, at (w, 0), the vector at w: both have row-major position w. -/
theorem nodeColumn_apply (v : C S1000000 .f32) (w : Fin 1000000) : nodeColumn v (ix2 w (0 : Fin 1)) = v (ix1 w) := by
  unfold nodeColumn
  exact shapeCast_apply v _ _ _ (by
    rw [Shape.rowMajor_val_two, Shape.rowMajor_val_one]
    show w.val = w.val * 1 + 0
    omega)

/-- A vector cast to one row reads, at (0, k), the vector at k. -/
theorem row16_apply (b : C S16 .f32) (k : Fin 16) : row16 b (ix2 (0 : Fin 1) k) = b (ix1 k) := by
  unfold row16
  exact shapeCast_a_1a_apply b _ 0 k
theorem row100_apply (b : C S100 .f32) (k : Fin 100) : row100 b (ix2 (0 : Fin 1) k) = b (ix1 k) := by
  unfold row100
  exact shapeCast_a_1a_apply b _ 0 k
theorem row27_apply (b : C S27 .f32) (k : Fin 27) : row27 b (ix2 (0 : Fin 1) k) = b (ix1 k) := by
  unfold row27
  exact shapeCast_a_1a_apply b _ 0 k

/-- The index column of a vector of words reads, in row e, the vector's word e. -/
theorem asColumn_apply (d : C S5000000 .i32) (e : Fin 5000000) : asColumn d (ix2 e (0 : Fin 1)) = d (ix1 e) := by
  unfold asColumn
  exact broadcastInDim_apply _ _ d _ (ix1 e) (fun a => match a with
    | ⟨0, _⟩ => by show e.val = if (5000000 : Nat) = 1 then 0 else e.val; rw [if_neg (by decide)])

/-- A scalar broadcast to a shape reads the scalar at every index. -/
theorem splat_apply {S : Shape} {α : Type} (h : S_.BroadcastsInDim S (![] : Fin 0 → Fin S.rank)) (c : S_.Idx → α) (i : S.Idx) :
    broadcastInDim S ![] h c i = c (fun a => a.elim0) :=
  broadcastInDim_apply _ h c i (fun a => a.elim0) (fun a => a.elim0)

/-- The zero word broadcast reads the real zero. -/
theorem zeros_apply {S : Shape} (h : S_.BroadcastsInDim S (![] : Fin 0 → Fin S.rank)) (i : S.Idx) :
    (broadcastInDim S ![] h (constant (F := Ideal) S_ .f32 0x00000000#32) i : EReal) = 0 := by
  refine (splat_apply h _ i).trans ?_
  exact Ideal.ofBits_zero_f32

/-- The word of 1.0 broadcast reads the real one. -/
theorem ones_apply {S : Shape} (h : S_.BroadcastsInDim S (![] : Fin 0 → Fin S.rank)) (i : S.Idx) :
    (broadcastInDim S ![] h (constant (F := Ideal) S_ .f32 0x3F800000#32) i : EReal) = 1 := by
  refine (splat_apply h _ i).trans ?_
  exact Cert.Gcn.ofBits_one

theorem degree_apply (d : C S5000000 .i32) (u : Fin 1000000) :
    (degree d (ix1 u) : EReal) = 0 + ∑ _e ∈ landing d u, (1 : EReal) := by
  unfold degree
  refine (Cert.Gcn.scatterAdd_vec scatter_S1000000_S5000000x1_S5000000_n_0_0_1 rfl rfl rfl rfl
    (broadcastInDim S1000000 ![] Gen.bcast_S_S1000000 (constant (F := Ideal) S_ .f32 0x00000000#32)) (asColumn d)
    (broadcastInDim S5000000 ![] Gen.bcast_S_S5000000 (constant (F := Ideal) S_ .f32 0x3F800000#32)) u).trans ?_
  refine congrArg₂ (· + ·) (zeros_apply _ _) ?_
  unfold landing
  refine Finset.sum_congr (Finset.filter_congr fun e _ => by rw [asColumn_apply]) (fun e _ => ?_)
  exact ones_apply _ _

/-- The host's inverse square root of an array reads the inverse square root of the element. -/
theorem hostRsqrt_apply {S : Shape} (x : S.Idx → EReal) (i : S.Idx) :
    (Host.rsqrt (F := Ideal) (φ := .f32) x i : EReal) = Ideal.rsqrt (x i) := rfl

theorem invSqrtDeg_apply (d : C S5000000 .i32) (u : Fin 1000000) :
    (invSqrtDeg d (ix1 u) : EReal) = Ideal.rsqrt ((0 : EReal) + ∑ _e ∈ landing d u, (1 : EReal)) := by
  unfold invSqrtDeg
  rw [hostRsqrt_apply, degree_apply]

theorem aggregate_apply (h : C S1000000x16 .f32) (s d : C S5000000 .i32) (u : Fin 1000000) (j : Fin 16) :
    (aggregate h s d (ix2 u j) : EReal) = 0 + ∑ e ∈ landing d u, (h (ix2 (srcRow s e) j) : EReal) := by
  unfold aggregate
  refine (Cert.Gcn.scatterAdd_rows scatter_S1000000x16_S5000000x1_S5000000x16_1_0_0_1 rfl rfl rfl rfl
    (broadcastInDim S1000000x16 ![] Gen.bcast_S_S1000000x16 (constant (F := Ideal) S_ .f32 0x00000000#32)) (asColumn d)
    (Host.gather gather_S1000000x16_S5000000x1_S5000000x16_1_0_n_n_0_1_116 h (wrapIdx s)) u j).trans ?_
  refine congrArg₂ (· + ·) (zeros_apply _ _) ?_
  unfold landing
  refine Finset.sum_congr (Finset.filter_congr fun e _ => by rw [asColumn_apply]) (fun e _ => ?_)
  exact Cert.Gcn.gather_rows gather_S1000000x16_S5000000x1_S5000000x16_1_0_n_n_0_1_116 rfl rfl rfl rfl rfl h (wrapIdx s) e j
    (Nat.succ_pos _)

end Cert.KernelIdeal.Stage

end
-- ==== Proof.RefRound.lean ====
/-
  One round of message passing as the reference program spells it, read at one element, at the extended reals.

  The reference gathers, for every message, the row of a table at the message's source word (wrapped if negative, read
  signed, clamped into the table), multiplies it by the message's normalisation — the per-node scale at the source's row
  times the scale at the destination's row — and scatter-adds the products into zeros at the destination words. The
  per-node scale is the inverse square root of the degree, and the degree of a node is zero plus a one for every message
  whose destination word reads the node. So the scale of node `u` is the inverse square root of the number of messages
  landing on `u`; a message landing on `u` has a destination word that reads the non-negative in-range `u`, which is
  neither wrapped nor clamped, so its destination factor is the scale of `u` itself; and the round leaves at (u, j) zero
  plus, over the messages landing on `u`, entry j of the gathered row times the normalisation.
-/
import proofs.«402039_j30167850287488_3_alg».proof.Proof.Gen.ReferenceIdeal.Read
import proofs.«402039_j30167850287488_3_alg».proof.Proof.LibRowGatherScatter
import proofs.«402039_j30167850287488_3_alg».proof.Proof.LibVecGatherScatter
import proofs.«402039_j30167850287488_3_alg».proof.Proof.Algebra
import Idealize.ShloMosaic.Lib.ValueIdx

set_option maxRecDepth 65536

noncomputable section

namespace Cert.ReferenceIdeal.RefValue

open Cert.ReferenceIdeal Cert.ReferenceIdeal.Read Idealize.ShloMosaic Idealize.ShloMosaic.ValueIdx

/-- The contents of a buffer of a shape and element type, at the extended reals. -/
abbrev C (S : Shape) (e : EltTy) : Type := (⟨S, e⟩ : BufTy).Contents (Elt Ideal)

/-- The messages that land on node `u`: those whose destination word reads `u` as a signed integer. -/
def landing (x1 : C S2x4000000 .i32) (u : Fin 1000000) : Finset (Fin 5000000) :=
  Finset.univ.filter fun e => (val_main_v6 (F := Ideal) x1 (ix1 e)).toInt = (u.val : ℤ)

/-- The row a message reads: its source word, wrapped if negative, read signed and clamped into the table. -/
def srcRow (x1 : C S2x4000000 .i32) (e : Fin 5000000) : Fin 1000000 :=
  ⟨min (val_main_v33 (F := Ideal) x1 (ix2 e (0 : Fin 1))).toInt.toNat (1000000 - 1), by omega⟩

/-- The entry of the per-node scale a message reads for its destination: its destination word, wrapped if negative,
    read signed and clamped. -/
def dstRow (x1 : C S2x4000000 .i32) (e : Fin 5000000) : Fin 1000000 :=
  ⟨min (val_main_v24 (F := Ideal) x1 (ix2 e (0 : Fin 1))).toInt.toNat (1000000 - 1), by omega⟩

/-- One round of message passing as the reference spells it, for any table of rows: gather the rows at the source
    words, scale every message by its normalisation, scatter-add into zeros at the destination words. -/
def refRound (h : C S1000000x16 .f32) (x1 : C S2x4000000 .i32) : C S1000000x16 .f32 :=
  Host.scatterAdd (F := Ideal) (φ := .f32) scatter_S1000000x16_S5000000x1_S5000000x16_1_0_0_1 (val_main_v38 (F := Ideal)) (val_main_v39 (F := Ideal) x1)
    (mulf (F := Ideal) (φ := .f32) (Host.gather gather_S1000000x16_S5000000x1_S5000000x16_1_0_n_n_0_1_116 h (val_main_v33 (F := Ideal) x1)) (val_main_v36 (F := Ideal) x1))

/-! ## Small facts about the stages -/

/-- A column index `(e, 0)` of a `[5000000, 1]` array names position `e` of the vector it was broadcast from. -/
theorem column_position (e : Fin 5000000) :
    (fun a : Fin 1 => match a with | ⟨0, _⟩ => (⟨((ix2 e (0 : Fin 1) : S5000000x1.Idx) 0).val, ((ix2 e (0 : Fin 1) : S5000000x1.Idx) 0).isLt⟩ : Fin 5000000))
      = (ix1 e : S5000000.Idx) :=
  funext fun a => by match a with | ⟨0, _⟩ => rfl

/-- The destination column of the degree scatter reads the destination word. -/
theorem degree_column_apply (x1 : C S2x4000000 .i32) (e : Fin 5000000) :
    val_main_v9 (F := Ideal) x1 (ix2 e (0 : Fin 1)) = val_main_v6 (F := Ideal) x1 (ix1 e) :=
  (val_main_v9_apply x1 (ix2 e (0 : Fin 1))).trans (congrArg (val_main_v6 (F := Ideal) x1) (column_position e))

/-- The destination column of the round's scatter reads the destination word. -/
theorem round_column_apply (x1 : C S2x4000000 .i32) (e : Fin 5000000) :
    val_main_v39 (F := Ideal) x1 (ix2 e (0 : Fin 1)) = val_main_v6 (F := Ideal) x1 (ix1 e) :=
  (val_main_v39_apply x1 (ix2 e (0 : Fin 1))).trans (congrArg (val_main_v6 (F := Ideal) x1) (column_position e))

/-- The wrapped destination column reads the wrapped destination word. -/
theorem wrapped_column_apply (x1 : C S2x4000000 .i32) (e : Fin 5000000) :
    val_main_v24 (F := Ideal) x1 (ix2 e (0 : Fin 1)) = val_main_v23 (F := Ideal) x1 (ix1 e) :=
  (val_main_v24_apply x1 (ix2 e (0 : Fin 1))).trans (congrArg (val_main_v23 (F := Ideal) x1) (column_position e))

/-- The two spellings of the wrapped source column, over different constant buffers, are one array. -/
theorem source_column_eq (x1 : C S2x4000000 .i32) : val_main_v17 (F := Ideal) x1 = val_main_v33 (F := Ideal) x1 := rfl

/-- A word that reads a natural number as a signed integer is not below zero. -/
theorem not_below_zero (w : BitVec 32) (n : Nat) (h : w.toInt = (n : ℤ)) : IntOp.cmpi .slt w 0#32 = 0#1 := by
  unfold IntOp.cmpi
  show BitVec.ofBool (w.slt 0#32) = 0#1
  have hf : w.slt 0#32 = false := by
    unfold BitVec.slt
    rw [h]
    exact decide_eq_false (by simp)
  rw [hf]; rfl

/-- The per-node scale: the inverse square root of the number of messages landing on the node. -/
theorem invSqrtDeg_apply (x1 : C S2x4000000 .i32) (u : Fin 1000000) :
    (val_main_v11 (F := Ideal) x1 (ix1 u) : EReal) = Ideal.rsqrt ((0 : EReal) + ∑ _e ∈ landing x1 u, (1 : EReal)) := by
  rw [val_main_v11_apply, Ideal.hostUnary_rsqrt_def]
  refine congrArg Ideal.rsqrt ?_
  unfold val_main_v10
  refine (Cert.Gcn.scatterAdd_vec scatter_S1000000_S5000000x1_S5000000_n_0_0_1 rfl rfl rfl rfl _ _ _ u).trans ?_
  have h8 : (val_main_v8 (F := Ideal) (ix1 u) : EReal) = 0 :=
    (val_main_v8_apply (ix1 u)).trans ((val_main_cst_0_apply _).trans Ideal.ofBits_zero_f32)
  have h7 : ∀ e : Fin 5000000, (val_main_v7 (F := Ideal) (ix1 e) : EReal) = 1 := fun e =>
    (val_main_v7_apply (ix1 e)).trans ((val_main_cst_apply _).trans Cert.Gcn.ofBits_one)
  unfold landing
  rw [h8]
  refine congrArg (fun s : EReal => (0 : EReal) + s) ?_
  refine Finset.sum_congr (Finset.filter_congr fun e _ => ?_) (fun e _ => h7 e)
  rw [degree_column_apply]

/-- A message's normalisation: the scale at the row its source word reads times the scale at the row its destination word reads. -/
theorem norm_apply (x1 : C S2x4000000 .i32) (e : Fin 5000000) :
    (val_main_v26 (F := Ideal) x1 (ix1 e) : EReal)
      = (val_main_v11 (F := Ideal) x1 (ix1 (srcRow x1 e)) : EReal) * (val_main_v11 (F := Ideal) x1 (ix1 (dstRow x1 e)) : EReal) := by
  rw [val_main_v26_apply, Ideal.mulf_def]
  have h18 : (val_main_v18 (F := Ideal) x1 (ix1 e) : EReal) = val_main_v11 (F := Ideal) x1 (ix1 (srcRow x1 e)) := by
    unfold val_main_v18 srcRow
    rw [source_column_eq]
    exact Cert.Gcn.gather_vec gather_S1000000_S5000000x1_S5000000_n_0_n_n_0_1_1 rfl rfl rfl rfl rfl
      (val_main_v11 (F := Ideal) x1) (val_main_v33 (F := Ideal) x1) e (by decide)
  have h25 : (val_main_v25 (F := Ideal) x1 (ix1 e) : EReal) = val_main_v11 (F := Ideal) x1 (ix1 (dstRow x1 e)) := by
    unfold val_main_v25 dstRow
    exact Cert.Gcn.gather_vec gather_S1000000_S5000000x1_S5000000_n_0_n_n_0_1_1 rfl rfl rfl rfl rfl
      (val_main_v11 (F := Ideal) x1) (val_main_v24 (F := Ideal) x1) e (by decide)
  rw [h18, h25]

/-- A message that lands on `u` has a destination word that reads `u`, a non-negative row in range: it is neither wrapped nor clamped. -/
theorem dstRow_of_landing (x1 : C S2x4000000 .i32) (u : Fin 1000000) (e : Fin 5000000) (he : e ∈ landing x1 u) : dstRow x1 e = u := by
  have hw : (val_main_v6 (F := Ideal) x1 (ix1 e)).toInt = (u.val : ℤ) := (Finset.mem_filter.1 he).2
  have h19 : val_main_v19 (F := Ideal) (ix1 e) = 0#32 := (val_main_v19_apply (ix1 e)).trans (val_main_c_2_apply _)
  have h24 : val_main_v24 (F := Ideal) x1 (ix2 e (0 : Fin 1)) = val_main_v6 (F := Ideal) x1 (ix1 e) := by
    rw [wrapped_column_apply, val_main_v23_apply, val_main_v20_apply, h19, not_below_zero _ u.val hw, select_zero]
  unfold dstRow
  refine Fin.ext ?_
  show min (val_main_v24 (F := Ideal) x1 (ix2 e (0 : Fin 1))).toInt.toNat (1000000 - 1) = u.val
  rw [h24, hw, Int.toNat_natCast]
  have := u.isLt
  omega

/-- One round read at an element: zero plus, over the messages landing on the node, the gathered row's entry times the message's normalisation. -/
theorem refRound_apply (h : C S1000000x16 .f32) (x1 : C S2x4000000 .i32) (u : Fin 1000000) (j : Fin 16) :
    (refRound h x1 (ix2 u j) : EReal)
      = 0 + ∑ e ∈ landing x1 u, (h (ix2 (srcRow x1 e) j) : EReal) * (val_main_v26 (F := Ideal) x1 (ix1 e) : EReal) := by
  unfold refRound
  refine (Cert.Gcn.scatterAdd_rows scatter_S1000000x16_S5000000x1_S5000000x16_1_0_0_1 rfl rfl rfl rfl _ _ _ u j).trans ?_
  have h38 : (val_main_v38 (F := Ideal) (ix2 u j) : EReal) = 0 :=
    (val_main_v38_apply (ix2 u j)).trans ((val_main_cst_6_apply _).trans Ideal.ofBits_zero_f32)
  have h36 : ∀ e : Fin 5000000, (val_main_v36 (F := Ideal) x1 (ix2 e j) : EReal) = val_main_v26 (F := Ideal) x1 (ix1 e) := fun e =>
    (val_main_v36_apply x1 (ix2 e j)).trans ((val_main_v35_apply x1 _).trans
      (congrArg (val_main_v26 (F := Ideal) x1) (funext fun a => by match a with | ⟨0, _⟩ => rfl)))
  unfold landing
  rw [h38]
  refine congrArg (fun s : EReal => (0 : EReal) + s) ?_
  refine Finset.sum_congr (Finset.filter_congr fun e _ => ?_) (fun e _ => ?_)
  · rw [round_column_apply]
  · refine (mulf_apply _ _ _).trans ?_
    unfold srcRow
    exact congrArg₂ (fun a b : EReal => a * b)
      (Cert.Gcn.gather_rows gather_S1000000x16_S5000000x1_S5000000x16_1_0_n_n_0_1_116 rfl rfl rfl rfl rfl h
        (val_main_v33 (F := Ideal) x1) e j (by decide))
      (h36 e)

end Cert.ReferenceIdeal.RefValue

end
-- ==== Proof.RefLayers.lean ====
/-
  The reference program's dense stages, read at the extended reals.

  Both rounds of message passing are ONE function `refRound` of the table of rows they gather from: the second round
  recomputes its index words, degrees and normalisation from the same edge list by the same operations, so its landing
  words, source rows and per-message normalisation are the first round's. Between the rounds sit, entry by entry, a dense
  transform (a sum over the contracted axis), a bias row added and a rectifier; after them a bias row, a scatter-add of
  the node rows into zeros at the nodes' graph words, and the two-layer perceptron on the rectified pooled rows.
-/
import proofs.«402039_j30167850287488_3_alg».proof.Proof.RefRound

set_option maxRecDepth 65536

noncomputable section

namespace Cert.ReferenceIdeal.RefValue

open Cert.ReferenceIdeal Cert.ReferenceIdeal.Gen Cert.ReferenceIdeal.Read Idealize.ShloMosaic Idealize.ShloMosaic.ValueIdx

/-- The zero word of the rectifiers is the extended real zero. -/
theorem zero_word : (FloatOps.ofBits (F := Ideal) .f32 0x00000000#32 : EReal) = 0 := Ideal.ofBits_zero_f32

/-- The first round of the reference is `refRound` of the features' transform. -/
theorem round1_eq (x0 : C S1000000x64 .f32) (x1 : C S2x4000000 .i32) (x3 : C S64x16 .f32) :
    val_main_v40 (F := Ideal) x0 x1 x3 = refRound (val_main_v27 (F := Ideal) x0 x3) x1 := by
  rfl

/-- The second round's landing words, source rows and normalisation are those of the first: the same operations on the
    same edge list, under other names. -/
theorem zeros2_eq : val_main_v79 (F := Ideal) = val_main_v38 (F := Ideal) := rfl
theorem dstWords2_eq (x1 : C S2x4000000 .i32) : val_main_v47 (F := Ideal) x1 = val_main_v6 (F := Ideal) x1 := rfl
theorem srcWords2_eq (x1 : C S2x4000000 .i32) : val_main_v46 (F := Ideal) x1 = val_main_v5 (F := Ideal) x1 := rfl
theorem landWords2_eq (x1 : C S2x4000000 .i32) : val_main_v80 (F := Ideal) x1 = val_main_v39 (F := Ideal) x1 := by
  unfold val_main_v80 val_main_v39; rw [dstWords2_eq]
theorem srcRows2_eq (x1 : C S2x4000000 .i32) : val_main_v74 (F := Ideal) x1 = val_main_v33 (F := Ideal) x1 := by
  unfold val_main_v74 val_main_v33 val_main_v73 val_main_v32 val_main_v72 val_main_v31 val_main_v70 val_main_v29
  rw [srcWords2_eq]; rfl
theorem invSqrtDeg2_eq (x1 : C S2x4000000 .i32) : val_main_v52 (F := Ideal) x1 = val_main_v11 (F := Ideal) x1 := by
  unfold val_main_v52 val_main_v11 val_main_v51 val_main_v10 val_main_v50 val_main_v9
  rw [dstWords2_eq]; rfl
theorem srcScale2_eq (x1 : C S2x4000000 .i32) : val_main_v59 (F := Ideal) x1 = val_main_v18 (F := Ideal) x1 := by
  unfold val_main_v59 val_main_v18 val_main_v58 val_main_v17 val_main_v57 val_main_v16 val_main_v56 val_main_v15 val_main_v54 val_main_v13
  rw [srcWords2_eq, invSqrtDeg2_eq]; rfl
theorem dstScale2_eq (x1 : C S2x4000000 .i32) : val_main_v66 (F := Ideal) x1 = val_main_v25 (F := Ideal) x1 := by
  unfold val_main_v66 val_main_v25 val_main_v65 val_main_v24 val_main_v64 val_main_v23 val_main_v63 val_main_v22 val_main_v61 val_main_v20
  rw [dstWords2_eq, invSqrtDeg2_eq]; rfl
theorem norm2_eq (x1 : C S2x4000000 .i32) : val_main_v77 (F := Ideal) x1 = val_main_v36 (F := Ideal) x1 := by
  unfold val_main_v77 val_main_v36 val_main_v76 val_main_v35 val_main_v67 val_main_v26
  rw [srcScale2_eq, dstScale2_eq]

/-- The second round of the reference recomputes the index words, the degrees and the normalisation from the same edge
    list: it is `refRound` of the second transform, with the same landing sets, rows and normalisation. -/
theorem round2_eq (x0 : C S1000000x64 .f32) (x1 : C S2x4000000 .i32) (x3 : C S64x16 .f32) (x4 : C S16 .f32) (x5 : C S16x16 .f32) :
    val_main_v81 (F := Ideal) x0 x1 x3 x4 x5 = refRound (val_main_v68 (F := Ideal) x0 x1 x3 x4 x5) x1 := by
  unfold val_main_v81 val_main_v78 val_main_v75 refRound
  rw [zeros2_eq, landWords2_eq, srcRows2_eq, norm2_eq]

/-- The features' transform at an element. -/
theorem transform1_read (x0 : C S1000000x64 .f32) (x3 : C S64x16 .f32) (w : Fin 1000000) (j : Fin 16) :
    (val_main_v27 (F := Ideal) x0 x3 (ix2 w j) : EReal) = ∑ k : Fin 64, (x0 (ix2 w k) : EReal) * (x3 (ix2 k j) : EReal) := by
  rw [val_main_v27_apply]
  refine Finset.sum_congr rfl fun k _ => ?_
  have el : lidx_main_v27 (ix2 w j) k = ix2 w k := funext fun a => by
    match a with
    | ⟨0, _⟩ => rfl
    | ⟨1, _⟩ => rfl
  have er : ridx_main_v27 (ix2 w j) k = ix2 k j := funext fun a => by
    match a with
    | ⟨0, _⟩ => rfl
    | ⟨1, _⟩ => rfl
  rw [el, er]

/-- The first layer's output at an element: the round's aggregate plus the bias, rectified. -/
theorem hidden_read (x0 : C S1000000x64 .f32) (x1 : C S2x4000000 .i32) (x3 : C S64x16 .f32) (x4 : C S16 .f32) (w : Fin 1000000) (k : Fin 16) :
    (val_main_v44 (F := Ideal) x0 x1 x3 x4 (ix2 w k) : EReal)
      = max ((val_main_v40 (F := Ideal) x0 x1 x3 (ix2 w k) : EReal) + (x4 (ix1 k) : EReal)) 0 := by
  rw [val_main_v44_apply, val_main_v43_apply, val_main_call0_v0_apply, val_main_call0_cst_apply, val_main_v42_apply,
    val_main_v41_apply]
  have e : idx_main_v41 (idx_main_v42 (ix2 w k)) = ix1 k := funext fun a => by
    match a with
    | ⟨0, _⟩ => rfl
  rw [e]
  exact congrArg (max ((val_main_v40 (F := Ideal) x0 x1 x3 (ix2 w k) : EReal) + (x4 (ix1 k) : EReal))) Ideal.ofBits_zero_f32

/-- The second transform at an element. -/
theorem transform2_read (x0 : C S1000000x64 .f32) (x1 : C S2x4000000 .i32) (x3 : C S64x16 .f32) (x4 : C S16 .f32) (x5 : C S16x16 .f32) (w : Fin 1000000) (j : Fin 16) :
    (val_main_v68 (F := Ideal) x0 x1 x3 x4 x5 (ix2 w j) : EReal)
      = ∑ k : Fin 16, (val_main_v44 (F := Ideal) x0 x1 x3 x4 (ix2 w k) : EReal) * (x5 (ix2 k j) : EReal) := by
  rw [val_main_v68_apply]
  refine Finset.sum_congr rfl fun k _ => ?_
  have el : lidx_main_v68 (ix2 w j) k = ix2 w k := funext fun a => by
    match a with
    | ⟨0, _⟩ => rfl
    | ⟨1, _⟩ => rfl
  have er : ridx_main_v68 (ix2 w j) k = ix2 k j := funext fun a => by
    match a with
    | ⟨0, _⟩ => rfl
    | ⟨1, _⟩ => rfl
  rw [el, er]

/-- The second layer's output at an element: the round's aggregate plus the bias. -/
theorem nodeOut_read (x0 : C S1000000x64 .f32) (x1 : C S2x4000000 .i32) (x3 : C S64x16 .f32) (x4 : C S16 .f32) (x5 : C S16x16 .f32) (x6 : C S16 .f32) (w : Fin 1000000) (j : Fin 16) :
    (val_main_v84 (F := Ideal) x0 x1 x3 x4 x5 x6 (ix2 w j) : EReal)
      = (val_main_v81 (F := Ideal) x0 x1 x3 x4 x5 (ix2 w j) : EReal) + (x6 (ix1 j) : EReal) := by
  rw [val_main_v84_apply, val_main_v83_apply, val_main_v82_apply]
  have e : idx_main_v82 (idx_main_v83 (ix2 w j)) = ix1 j := funext fun a => by
    match a with
    | ⟨0, _⟩ => rfl
  rw [e]
  rfl

/-- The pooled rows are a scatter-add of the second layer's output into zeros at the nodes' graph words. -/
theorem pooled_eq (x0 : C S1000000x64 .f32) (x1 : C S2x4000000 .i32) (x2 : C S1000000 .i32) (x3 : C S64x16 .f32) (x4 : C S16 .f32) (x5 : C S16x16 .f32) (x6 : C S16 .f32) :
    val_main_v87 (F := Ideal) x0 x1 x2 x3 x4 x5 x6
      = Host.scatterAdd (F := Ideal) (φ := .f32) scatter_S40000x16_S1000000x1_S1000000x16_1_0_0_1
          (broadcastInDim S40000x16 ![] bcast_S_S40000x16 (constant (F := Ideal) S_ .f32 0x00000000#32))
          (broadcastInDim S1000000x1 ![0] bcast_S1000000_S1000000x1_0 x2)
          (val_main_v84 (F := Ideal) x0 x1 x3 x4 x5 x6) := by
  rfl

/-- The result at an element: the two-layer perceptron on the rectified pooled rows. -/
theorem head_read (x0 : C S1000000x64 .f32) (x1 : C S2x4000000 .i32) (x2 : C S1000000 .i32) (x3 : C S64x16 .f32) (x4 : C S16 .f32) (x5 : C S16x16 .f32) (x6 : C S16 .f32) (x7 : C S16x100 .f32) (x8 : C S100 .f32) (x9 : C S100x27 .f32) (x10 : C S27 .f32) (g : Fin 40000) (j : Fin 27) :
    (val_main_v97 (F := Ideal) x0 x1 x2 x3 x4 x5 x6 x7 x8 x9 x10 (ix2 g j) : EReal)
      = (∑ k : Fin 100, max ((∑ l : Fin 16, max (val_main_v87 (F := Ideal) x0 x1 x2 x3 x4 x5 x6 (ix2 g l) : EReal) 0 * (x7 (ix2 l k) : EReal))
            + (x8 (ix1 k) : EReal)) 0 * (x9 (ix2 k j) : EReal)) + (x10 (ix1 j) : EReal) := by
  rw [val_main_v97_apply, val_main_v96_apply, val_main_v95_apply, val_main_v94_apply, Ideal.addf_def]
  have e10 : idx_main_v95 (idx_main_v96 (ix2 g j)) = ix1 j := funext fun a => by
    match a with
    | ⟨0, _⟩ => rfl
  rw [e10]
  refine congrArg (fun s : EReal => s + (x10 (ix1 j) : EReal)) (Finset.sum_congr rfl fun k _ => ?_)
  have el : lidx_main_v94 (ix2 g j) k = ix2 g k := funext fun a => by
    match a with
    | ⟨0, _⟩ => rfl
    | ⟨1, _⟩ => rfl
  have er : ridx_main_v94 (ix2 g j) k = ix2 k j := funext fun a => by
    match a with
    | ⟨0, _⟩ => rfl
    | ⟨1, _⟩ => rfl
  rw [el, er, val_main_v93_apply, val_main_v92_apply, val_main_call2_v0_apply, val_main_call2_cst_apply, val_main_v91_apply,
    val_main_v90_apply, val_main_v89_apply, Ideal.maximumf_def, Ideal.addf_def, zero_word]
  have e8 : idx_main_v90 (idx_main_v91 (ix2 g k)) = ix1 k := funext fun a => by
    match a with
    | ⟨0, _⟩ => rfl
  rw [e8]
  refine congrArg (fun s : EReal => max (s + (x8 (ix1 k) : EReal)) 0 * (x9 (ix2 k j) : EReal)) (Finset.sum_congr rfl fun l _ => ?_)
  have el' : lidx_main_v89 (ix2 g k) l = ix2 g l := funext fun a => by
    match a with
    | ⟨0, _⟩ => rfl
    | ⟨1, _⟩ => rfl
  have er' : ridx_main_v89 (ix2 g k) l = ix2 l k := funext fun a => by
    match a with
    | ⟨0, _⟩ => rfl
    | ⟨1, _⟩ => rfl
  rw [el', er', val_main_v88_apply, val_main_call1_v0_apply, val_main_call1_cst_apply, Ideal.maximumf_def, zero_word]

end Cert.ReferenceIdeal.RefValue

end
-- ==== Proof.Bridge.lean ====
/-
  The two programs compute one function.

  Both programs build the same message index words from the edge list, so the messages that land on a node, the row a
  message reads and every node's scale are the same on both sides. The reference scales every message by the product of
  its source's and its destination's scale and sums; the kernel scales rows at the source before the gather and the sum
  at the destination after the scatter. The destination's scale is the same for every message landing on one node and
  is the inverse square root of their number, so it comes out of the sum (`Cert.Gcn.factor_out`): for tables related
  by  kernel row = reference row · scale of the row,  one round of the kernel times the destination's scale is one
  round of the reference. The first launch's table is the reference's transform times the scale, which gives the first
  round; the second launch rebuilds the reference's hidden layer from it entry by entry, which gives the second; the
  pooled rows are then equal as arrays and the perceptron head is the same sum on both sides.
-/
import proofs.«402039_j30167850287488_3_alg».proof.Proof.Chain
import proofs.«402039_j30167850287488_3_alg».proof.Proof.StageRead
import proofs.«402039_j30167850287488_3_alg».proof.Proof.RefRound
import proofs.«402039_j30167850287488_3_alg».proof.Proof.RefLayers
import proofs.«402039_j30167850287488_3_alg».proof.Proof.Algebra

set_option maxRecDepth 65536

noncomputable section

namespace Cert.Proof.Bridge

open Idealize.ShloMosaic Idealize.ShloMosaic.ValueIdx
open Cert.KernelIdeal.Stage renaming C → KC, landing → kLanding, srcRow → kSrcRow
open Cert.KernelIdeal.Stage hiding C landing srcRow invSqrtDeg_apply
open Cert.ReferenceIdeal.RefValue renaming C → RC, landing → rLanding, srcRow → rSrcRow, dstRow → rDstRow
open Cert.ReferenceIdeal.RefValue hiding C landing srcRow dstRow invSqrtDeg_apply
open Cert.ReferenceIdeal.Read (val_main_v6 val_main_v11 val_main_v26 val_main_v27 val_main_v33 val_main_v40 val_main_v44 val_main_v68
  val_main_v81 val_main_v84 val_main_v87 val_main_v97)
open Cert.KernelIdeal.Chain (scaleCol rows1 agg1 rows2 agg2 nodeOut value)

variable (a0 : KC Cert.KernelIdeal.S1000000x64 .f32) (a1 : KC Cert.KernelIdeal.S2x4000000 .i32) (a2 : KC Cert.KernelIdeal.S1000000 .i32)
  (a3 : KC Cert.KernelIdeal.S64x16 .f32) (a4 : KC Cert.KernelIdeal.S16 .f32) (a5 : KC Cert.KernelIdeal.S16x16 .f32) (a6 : KC Cert.KernelIdeal.S16 .f32)
  (a7 : KC Cert.KernelIdeal.S16x100 .f32) (a8 : KC Cert.KernelIdeal.S100 .f32) (a9 : KC Cert.KernelIdeal.S100x27 .f32) (a10 : KC Cert.KernelIdeal.S27 .f32)

/-! ## The shared index words -/

/-- The destination words are one term in both programs. -/
theorem dst_eq : dstIdx a1 = val_main_v6 (F := Ideal) a1 := rfl

/-- So is the gather's index column: the source words, wrapped where negative. -/
theorem wrap_eq : wrapIdx (srcIdx a1) = val_main_v33 (F := Ideal) a1 := rfl

/-- The same messages land on a node. -/
theorem landing_eq (u : Fin 1000000) : kLanding (dstIdx a1) u = rLanding a1 u := by
  unfold Cert.KernelIdeal.Stage.landing Cert.ReferenceIdeal.RefValue.landing
  rw [dst_eq]

/-- A message reads the same row. -/
theorem srcRow_eq (e : Fin 5000000) : kSrcRow (srcIdx a1) e = rSrcRow a1 e := by
  unfold Cert.KernelIdeal.Stage.srcRow Cert.ReferenceIdeal.RefValue.srcRow
  apply Fin.ext
  show min (wrapIdx (srcIdx a1) (ix2 e (0 : Fin 1))).toInt.toNat (1000000 - 1) = min (val_main_v33 (F := Ideal) a1 (ix2 e (0 : Fin 1))).toInt.toNat (1000000 - 1)
  rw [wrap_eq]

/-- Every node has the same scale. -/
theorem scale_eq (u : Fin 1000000) :
    (invSqrtDeg (dstIdx a1) (ix1 u) : EReal) = (val_main_v11 (F := Ideal) a1 (ix1 u) : EReal) := by
  rw [Cert.KernelIdeal.Stage.invSqrtDeg_apply, Cert.ReferenceIdeal.RefValue.invSqrtDeg_apply, landing_eq]

/-- The kernel's scale column at a row. -/
theorem scaleCol_read (w : Fin 1000000) :
    (scaleCol a1 (ix2 w (0 : Fin 1)) : EReal) = (val_main_v11 (F := Ideal) a1 (ix1 w) : EReal) :=
  (nodeColumn_apply _ w).trans (scale_eq a1 w)

/-! ## One round -/

/-- For tables related by  kernel row = reference row · the row's scale,  the kernel's round times the destination's
    scale is the reference's round. -/
theorem layer (hK : KC Cert.KernelIdeal.S1000000x16 .f32) (hR : RC Cert.ReferenceIdeal.S1000000x16 .f32)
    (hrel : ∀ (w : Fin 1000000) (j : Fin 16),
      (hK (ix2 w j) : EReal) = (hR (ix2 w j) : EReal) * (val_main_v11 (F := Ideal) a1 (ix1 w) : EReal))
    (u : Fin 1000000) (j : Fin 16) :
    (aggregate hK (srcIdx a1) (dstIdx a1) (ix2 u j) : EReal) * (val_main_v11 (F := Ideal) a1 (ix1 u) : EReal)
      = (refRound hR a1 (ix2 u j) : EReal) := by
  rw [aggregate_apply, refRound_apply, landing_eq]
  have hs : ∀ e ∈ rLanding a1 u, (hK (ix2 (kSrcRow (srcIdx a1) e) j) : EReal)
      = (hR (ix2 (rSrcRow a1 e) j) : EReal) * (val_main_v11 (F := Ideal) a1 (ix1 (rSrcRow a1 e)) : EReal) :=
    fun e _ => by rw [srcRow_eq, hrel]
  have hn : ∀ e ∈ rLanding a1 u, (hR (ix2 (rSrcRow a1 e) j) : EReal) * (val_main_v26 (F := Ideal) a1 (ix1 e) : EReal)
      = (hR (ix2 (rSrcRow a1 e) j) : EReal) * ((val_main_v11 (F := Ideal) a1 (ix1 (rSrcRow a1 e)) : EReal)
          * (val_main_v11 (F := Ideal) a1 (ix1 (rDstRow a1 e)) : EReal)) :=
    fun e _ => by rw [norm_apply]
  rw [Finset.sum_congr rfl hs, Finset.sum_congr rfl hn]
  exact Cert.Gcn.factor_out (rLanding a1 u) (fun e => (hR (ix2 (rSrcRow a1 e) j) : EReal))
    (fun e => (val_main_v11 (F := Ideal) a1 (ix1 (rSrcRow a1 e)) : EReal))
    (fun e => (val_main_v11 (F := Ideal) a1 (ix1 (rDstRow a1 e)) : EReal))
    (val_main_v11 (F := Ideal) a1 (ix1 u) : EReal)
    (Cert.ReferenceIdeal.RefValue.invSqrtDeg_apply a1 u)
    (fun e he => by rw [dstRow_of_landing a1 u e he])

/-! ## The first round -/

/-- The first launch's rows are the reference's transform times the row's scale. -/
theorem rows1_rel (w : Fin 1000000) (j : Fin 16) :
    (rows1 a0 a1 a3 (ix2 w j) : EReal)
      = (val_main_v27 (F := Ideal) a0 a3 (ix2 w j) : EReal) * (val_main_v11 (F := Ideal) a1 (ix1 w) : EReal) := by
  rw [transform1_read]
  show (∑ k : Fin 64, (a0 (ix2 w k) : EReal) * (a3 (ix2 k j) : EReal)) * (scaleCol a1 (ix2 w (0 : Fin 1)) : EReal) = _
  rw [scaleCol_read]

theorem agg1_eq (u : Fin 1000000) (k : Fin 16) :
    (agg1 a0 a1 a3 (ix2 u k) : EReal) * (val_main_v11 (F := Ideal) a1 (ix1 u) : EReal)
      = (val_main_v40 (F := Ideal) a0 a1 a3 (ix2 u k) : EReal) := by
  rw [round1_eq]
  exact layer a1 _ _ (rows1_rel a0 a1 a3) u k

/-! ## The second round -/

/-- The fused launch's rows are the reference's second transform times the row's scale: entry by entry its rectified
    input is the reference's hidden layer, by the first round. -/
theorem rows2_rel (w : Fin 1000000) (j : Fin 16) :
    (rows2 a0 a1 a3 a4 a5 (ix2 w j) : EReal)
      = (val_main_v68 (F := Ideal) a0 a1 a3 a4 a5 (ix2 w j) : EReal) * (val_main_v11 (F := Ideal) a1 (ix1 w) : EReal) := by
  rw [transform2_read]
  show (∑ k : Fin 16, max ((agg1 a0 a1 a3 (ix2 w k) : EReal) * (scaleCol a1 (ix2 w (0 : Fin 1)) : EReal)
      + (row16 a4 (ix2 (0 : Fin 1) k) : EReal)) 0 * (a5 (ix2 k j) : EReal)) * (scaleCol a1 (ix2 w (0 : Fin 1)) : EReal) = _
  rw [scaleCol_read]
  refine congrArg (fun t : EReal => t * (val_main_v11 (F := Ideal) a1 (ix1 w) : EReal)) ?_
  refine Finset.sum_congr rfl fun k _ => ?_
  rw [hidden_read, row16_apply, agg1_eq]

theorem agg2_eq (u : Fin 1000000) (j : Fin 16) :
    (agg2 a0 a1 a3 a4 a5 (ix2 u j) : EReal) * (val_main_v11 (F := Ideal) a1 (ix1 u) : EReal)
      = (val_main_v81 (F := Ideal) a0 a1 a3 a4 a5 (ix2 u j) : EReal) := by
  rw [round2_eq]
  exact layer a1 _ _ (rows2_rel a0 a1 a3 a4 a5) u j

/-- The node rows that are pooled are equal as arrays. -/
theorem nodeOut_eq : nodeOut a0 a1 a3 a4 a5 a6 = val_main_v84 (F := Ideal) a0 a1 a3 a4 a5 a6 := by
  funext i
  obtain ⟨w, j, rfl⟩ : ∃ (w : Fin 1000000) (j : Fin 16), i = ix2 w j := ⟨i 0, i 1, eq_ix2 i⟩
  rw [nodeOut_read]
  show (agg2 a0 a1 a3 a4 a5 (ix2 w j) : EReal) * (scaleCol a1 (ix2 w (0 : Fin 1)) : EReal) + (row16 a6 (ix2 (0 : Fin 1) j) : EReal) = _
  rw [scaleCol_read, row16_apply, agg2_eq]

/-! ## Pooling and the head -/

/-- The same scatter-add pools them. -/
theorem pooled_same : pool (val_main_v84 (F := Ideal) a0 a1 a3 a4 a5 a6) a2 = val_main_v87 (F := Ideal) a0 a1 a2 a3 a4 a5 a6 := rfl

/-- The kernel program's composed function is the reference's result. -/
theorem value_eq : value a0 a1 a2 a3 a4 a5 a6 a7 a8 a9 a10 = val_main_v97 (F := Ideal) a0 a1 a2 a3 a4 a5 a6 a7 a8 a9 a10 := by
  funext i
  obtain ⟨g, j, rfl⟩ : ∃ (g : Fin 40000) (j : Fin 27), i = ix2 g j := ⟨i 0, i 1, eq_ix2 i⟩
  rw [head_read]
  show (∑ k : Fin 100, max ((∑ l : Fin 16, max (pool (nodeOut a0 a1 a3 a4 a5 a6) a2 (ix2 g l) : EReal) 0 * (a7 (ix2 l k) : EReal))
      + (row100 a8 (ix2 (0 : Fin 1) k) : EReal)) 0 * (a9 (ix2 k j) : EReal)) + (row27 a10 (ix2 (0 : Fin 1) j) : EReal) = _
  rw [nodeOut_eq, pooled_same, row27_apply]
  simp only [row100_apply]

end Cert.Proof.Bridge

end
-- ==== Proof.lean ====
/-
  The certificate of a two-layer graph convolution with global add pooling and a perceptron head: a Pallas program of four
  dense launches among host gathers and scatter-adds, against a plain reference.

  Both programs normalise a message from node s to node d by deg(s)^(-1/2) · deg(d)^(-1/2), the degree counting the
  messages that land on a node (every node sends itself one). The reference multiplies every gathered row by that product
  and sums at the destination; the kernel multiplies the transformed rows by deg(s)^(-1/2) before the gather and the sum
  by deg(d)^(-1/2) after the scatter. On the extended reals the two agree because a non-negative real factor distributes
  over a finite sum and the destination's factor is such a real whenever a message lands at all (Proof/Algebra.lean,
  Proof/Bridge.lean). The kernel program's run, with the result buffer read off its last boundary, is Proof/KernelRun.lean;
  that buffer's contents as one function of the arguments, through the four launches (Proof/Launch0Value.lean …
  Proof/Launch3Value.lean) and the host stretches between them (Proof/Stretches.lean), is Proof/Chain.lean; the reference's
  stages read at an element are Proof/RefRound.lean and Proof/RefLayers.lean over its generated run.
  The three frames are the generated ones (the reference's is its generated run with the result dropped), and the kernel
  is its own idealization: nothing was rewritten.
-/
import proofs.«402039_j30167850287488_3_alg».proof.Defs
import proofs.«402039_j30167850287488_3_alg».proof.Proof.Gen.Kernel
import proofs.«402039_j30167850287488_3_alg».proof.Proof.Gen.Kernel.Skeleton
import proofs.«402039_j30167850287488_3_alg».proof.Proof.Gen.Kernel.Launch
import proofs.«402039_j30167850287488_3_alg».proof.Proof.Gen.Kernel.Points
import proofs.«402039_j30167850287488_3_alg».proof.Proof.Gen.Kernel.Frame
import proofs.«402039_j30167850287488_3_alg».proof.Proof.Gen.KernelIdeal
import proofs.«402039_j30167850287488_3_alg».proof.Proof.Gen.KernelIdeal.Skeleton
import proofs.«402039_j30167850287488_3_alg».proof.Proof.Gen.KernelIdeal.Launch
import proofs.«402039_j30167850287488_3_alg».proof.Proof.Gen.KernelIdeal.Points
import proofs.«402039_j30167850287488_3_alg».proof.Proof.Gen.KernelIdeal.Frame
import proofs.«402039_j30167850287488_3_alg».proof.Proof.Gen.ReferenceIdeal
import proofs.«402039_j30167850287488_3_alg».proof.Proof.Gen.ReferenceIdeal.Run
import proofs.«402039_j30167850287488_3_alg».proof.Proof.Gen.ReferenceIdeal.Read
import proofs.«402039_j30167850287488_3_alg».proof.Proof.Gen.Pre_finite_inputs
import proofs.«402039_j30167850287488_3_alg».proof.Proof.KernelRun
import proofs.«402039_j30167850287488_3_alg».proof.Proof.Launch0Value
import proofs.«402039_j30167850287488_3_alg».proof.Proof.Launch1Value
import proofs.«402039_j30167850287488_3_alg».proof.Proof.Launch2Value
import proofs.«402039_j30167850287488_3_alg».proof.Proof.Launch3Value
import proofs.«402039_j30167850287488_3_alg».proof.Proof.Chain
import proofs.«402039_j30167850287488_3_alg».proof.Proof.Bridge
import Idealize.ShloMosaic.Adequacy
import Idealize.ShloMosaic.Init

set_option maxRecDepth 65536

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the result buffer at one function of the arguments: the kernel's composed function, which
    the reference's last stage equals. -/
theorem algebraic : Cert.algebraic_KernelIdeal_ReferenceIdeal := by
  intro m ρ m' ρ' _ hagree
  refine ⟨fun c => Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result_value m ρ c
          Cert.KernelIdeal.LaunchValue.launch0_array Cert.KernelIdeal.LaunchValue.launch1_array
          Cert.KernelIdeal.LaunchValue.launch2_array Cert.KernelIdeal.LaunchValue.launch3_array), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v97_eq, e0, e1, e2, e3, e4, e5, e6, e7, e8, e9, e10]
    exact (Cert.Proof.Bridge.value_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
